-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : IVec S4096 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S4096x512 : Shape := ⟨2, ![4096, 512]⟩
abbrev S4096 : Shape := ⟨1, ![4096]⟩
abbrev S_ : Shape := ⟨0, ![]⟩
abbrev S4096x1 : Shape := ⟨2, ![4096, 1]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 42
  | .vmem => 18
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x512, .f32⟩
  | .hbm, ⟨11, _⟩ => ⟨S4096x512, .f32⟩
  | .hbm, ⟨12, _⟩ => ⟨S4096x512, .bf16⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .i1⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S4096, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .f32⟩
  | .hbm, ⟨41, _⟩ => ⟨S_, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512, .i32⟩
  | .local _ .vmem, ⟨5, _⟩ => ⟨S512, .i32⟩
  | .local _ .vmem, ⟨6, _⟩ => ⟨S512, .i32⟩
  | .local _ .vmem, ⟨7, _⟩ => ⟨S512, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_call1_cst : Ref sig .tc := ⟨.hbm, 26, rfl⟩
abbrev main_call1_v0 : Ref sig .tc := ⟨.hbm, 27, rfl⟩
abbrev main_v15 : Ref sig .tc := ⟨.hbm, 28, rfl⟩
abbrev main_cst_2 : Ref sig .tc := ⟨.hbm, 29, rfl⟩
abbrev main_call2_v0 : Ref sig .tc := ⟨.hbm, 30, rfl⟩
abbrev main_call2_v1 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v65 : BitVec 1 := Scalar.cmpi .eq arg1 c7_i32
  let v66 : BitVec 32 := Scalar.extui v65
  let c0_i32_32 : BitVec 32 := 0#32
  let v67 : BitVec 1 := Scalar.cmpi .ne v66 c0_i32_32
  v67

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S512x1 : S512.ShapeCasts S512x1
  shapeCasts_S512_S1x512 : S512.ShapeCasts S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  reduces_S512x512_S512 : S512x512.Reduces [1] S512
  natLt_1_32 : 1 < 32
  shapeCasts_S4096x1_S4096 : S4096x1.ShapeCasts S4096
  bcast_S_S4096 : S_.BroadcastsInDim S4096 (![] : Fin 0 → Fin S4096.rank)
  reducesTo_S4096_S_d0 : S4096.ReducesTo [0] S_
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .bf16 = 32 ∨ (Rect.block (s := S4096x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .bf16 = 32 ∨ (Rect.block (s := S4096x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S4096.size a
  hwx0_2 : ∀ i : grid0.Coords, EltTy.bits .i32 = 32 ∨ (Rect.block (s := S4096) S512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S4096.size a
  hwx0_3 : ∀ i : grid0.Coords, EltTy.bits .i32 = 32 ∨ (Rect.block (s := S4096) S512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S4096x1.size a
  hwx0_6 : ∀ i : grid0.Coords, EltTy.bits .f32 = 32 ∨ (Rect.block (s := S4096x1) S512x1.size (cc0_transform_6 i) (hinb0_6 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_v5) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S512x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_2) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4096x512 : Shape := ⟨2, ![4096, 512]⟩
abbrev S4096 : Shape := ⟨1, ![4096]⟩
abbrev S_ : Shape := ⟨0, ![]⟩
abbrev S4096x1 : Shape := ⟨2, ![4096, 1]⟩
abbrev S512x4096 : Shape := ⟨2, ![512, 4096]⟩
abbrev S4096x4096 : Shape := ⟨2, ![4096, 4096]⟩
abbrev S1x4096 : Shape := ⟨2, ![1, 4096]⟩

abbrev nBuf : Space → Nat
  | .hbm => 68
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x512, .f32⟩
  | .hbm, ⟨11, _⟩ => ⟨S4096x512, .f32⟩
  | .hbm, ⟨12, _⟩ => ⟨S512x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1, .i32⟩
  | .hbm, ⟨18, _⟩ => ⟨S1x4096, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S4096x4096, .i32⟩
  | .hbm, ⟨23, _⟩ => ⟨S4096x4096, .i32⟩
  | .hbm, ⟨24, _⟩ => ⟨S_, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S4096x4096, .i1⟩
  | .hbm, ⟨29, _⟩ => ⟨S4096x4096, .i1⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096, .f32⟩
  | .hbm, ⟨43, _⟩ => ⟨S_, .i1⟩
  | .hbm, ⟨44, _⟩ => ⟨S4096, .i1⟩
  | .hbm, ⟨45, _⟩ => ⟨S_, .i1⟩
  | .hbm, ⟨46, _⟩ => ⟨S4096, .i1⟩
  | .hbm, ⟨47, _⟩ => ⟨S4096, .i1⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S_, .f32⟩
  | .hbm, ⟨56, _⟩ => ⟨S_, .f32⟩
  | .hbm, ⟨57, _⟩ => ⟨S4096, .f32⟩
  | .hbm, ⟨58, _⟩ => ⟨S4096, .f32⟩
  | .hbm, ⟨59, _⟩ => ⟨S_, .f32⟩
  | .hbm, ⟨60, _⟩ => ⟨S_, .f32⟩
  | .hbm, ⟨61, _⟩ => ⟨S4096, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .f32⟩
  | .hbm, ⟨67, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_call1_v0 : Ref sig .tc := ⟨.hbm, 32, rfl⟩
abbrev main_call1_v1 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_cst_3 : Ref sig .tc := ⟨.hbm, 37, rfl⟩
abbrev main_call2_v0 : Ref sig .tc := ⟨.hbm, 38, rfl⟩
abbrev main_call2_v1 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_call3_cst : Ref sig .tc := ⟨.hbm, 52, rfl⟩
abbrev main_call3_v0 : Ref sig .tc := ⟨.hbm, 53, rfl⟩
abbrev main_v32 : Ref sig .tc := ⟨.hbm, 54, rfl⟩
abbrev main_cst_8 : Ref sig .tc := ⟨.hbm, 55, rfl⟩
abbrev main_call4_v0 : Ref sig .tc := ⟨.hbm, 56, rfl⟩
abbrev main_call4_v1 : Ref sig .tc := ⟨.hbm, 57, rfl⟩
abbrev main_v33 : Ref sig .tc := ⟨.hbm, 58, rfl⟩
abbrev main_cst_9 : Ref sig .tc := ⟨.hbm, 59, rfl⟩
abbrev main_v34 : Ref sig .tc := ⟨.hbm, 60, rfl⟩
abbrev main_v35 : Ref sig .tc := ⟨.hbm, 61, rfl⟩
abbrev main_c_10 : Ref sig .tc := ⟨.hbm, 62, rfl⟩
abbrev main_v36 : Ref sig .tc := ⟨.hbm, 63, rfl⟩
abbrev main_c_11 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  transposes_S4096x512_S512x4096_1_0 : S4096x512.Transposes [1, 0] S512x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  bcast_S_S4096 : S_.BroadcastsInDim S4096 (![] : Fin 0 → Fin S4096.rank)
  reducesTo_S4096_S_d0 : S4096.ReducesTo [0] S_
  natLt_1_32 : 1 < 32
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.KB.Base.lean ====
/-
  The pairwise-distance kernel's frame, part 1: what every later module is stated over.

  The program normalises the rows of the embedding matrix on the host, then ONE pipelined kernel walks an
  8 x 8 grid of (anchor tile i, key tile j), 512 rows each. At a point it multiplies the anchor tile by the
  key tile, masks the 512 x 512 distances by label equality, reduces each anchor row, and folds the four row
  results into four scratch columns that live across the key axis: they are reset where j = 0 and copied to the
  three output windows where j = 7. Both operands of the product are blocks of ONE array (the normalised
  embeddings), and both label operands blocks of ONE array (the labels): two windows share an array, twice.

  Here: the buffer contents when the region is entered, each window's block of its array at a grid point, the two
  branch conditions in closed form over the 64 points, and at which points an output window is idle.
-/
import proofs.«107534_j40690520162810_1_alg».proof.Proof.Gen.Kernel.Launch
import proofs.«107534_j40690520162810_1_alg».proof.Proof.Gen.Kernel.Skeleton
import proofs.«107534_j40690520162810_1_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Contents at launch and at the region's entry -/

/-- Core `c`'s buffers as launched. -/
abbrev V₀ (c : Dev nD) : Valuation τ sig (Elt F) := fun b => m (c, b)
/-- Core `c`'s buffers when the region is entered: the row norms (five operations) and the division by the
    clamped norm with the change of format (six operations) have run. -/
abbrev Vin (c : Dev nD) : Valuation τ sig (Elt F) := StableHlo.after hostOps0_1 (StableHlo.after hostOps0 (V₀ m c))
/-- The same read at a TensorCore reference. -/
abbrev V (c : Dev nD) (b : Ref sig .tc) : Buf (Elt F) ((c : Thread nD τ).loc b) := Vin m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branches, decided over the grid -/

/-- "This is the first key tile" (the reset branch), as the body computes it from the grid coordinates. -/
abbrev cond0_0 (i : grid0.Coords) : Prop :=
  (Scalar.cmpi .ne (Scalar.extui (Scalar.cmpi .eq (BitVec.ofNat 32 (i 1).val) 0#32)) 0#32) = 1#1
/-- It holds exactly at the points whose key coordinate is 0. -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last key tile" (the write-out branch). -/
abbrev cond0_1 (i : grid0.Coords) : Prop := k0_cond2 i = 1#1
/-- It holds exactly at the points whose key coordinate is 7. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last key tile an output window is idle and is not written back. -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem idleAt0_6 : ∀ t : Fin cfg0.N, ¬cond0_1 (grid0.coords t) → cfg0.idle 6 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
theorem noFlush0_6 : ∀ t : Fin cfg0.N, ¬cond0_1 (grid0.coords t) → (cfg0.win 6).flush t = false := by decide +kernel
/-- At the last key tile it is live. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel
theorem liveAt0_6 : ∀ t : Fin cfg0.N, cond0_1 (grid0.coords t) → cfg0.idle 6 (grid0.coords t) = false := by decide +kernel

/-! ## The memrefs the body is called with -/

abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
/-- The four scratch columns: running hardest-positive, running hardest-negative, "some positive seen",
    "some negative seen". -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x1 .f32 := Memref.whole cc0_scratch3
/-- One view per shape of buffer, through which contents are stated. -/
abbrev VC : View sig .tc .vmem S512x1 .f32 := scM0_0.view

/-- The scoped buffers no window stages are the four scratch columns, each owned at some contents. -/
theorem scopedRest_scratch (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)) := by
  rw [scopedRest0_eq]; simp only [scM0_0, scM0_1, scM0_2, scM0_3, owns_whole]; try rfl

end Cert.Kernel.Fr

end
-- ==== Proof.KB.RunA.lean ====
/-
  The kernel body at the FIRST key tile of an anchor row: whatever the four scratch columns held is overwritten by
  the neutral starting values (minus one for the running maximum of positive distances, three for the running
  minimum of negative distances, zero for the two indicators), then folded with this tile's row results and stored
  back whole. Nothing is written out: the three output buffers are handed back untouched. What each column then
  holds is recorded as the list of its stores (the reset first, the fold over it), found by running the body.
-/
import proofs.«107534_j40690520162810_1_alg».proof.Proof.KB.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
noncomputable def kernelRun0_A (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i)
    (x0 : Vec F S512x512 .bf16) (x1 : Vec F S512x512 .bf16) (l0 : Vec F S512 .i32) (l1 : Vec F S512 .i32) :
    Σ' (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi4 xi5 xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare l0 ∗ owns (c : Thread nD τ) arg5 fullShare l1
            ∗ owns (c : Thread nD τ) arg6 fullShare xi4 ∗ owns (c : Thread nD τ) arg7 fullShare xi5 ∗ owns (c : Thread nD τ) arg8 fullShare xi6
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare l0 ∗ owns (c : Thread nD τ) arg5 fullShare l1
                ∗ owns (c : Thread nD τ) arg6 fullShare xi4 ∗ owns (c : Thread nD τ) arg7 fullShare xi5 ∗ owns (c : Thread nD τ) arg8 fullShare xi6
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11 arg12 harg12) K } := by
  refine ⟨?_, ?_, ?_, ?_, fun xi4 xi5 xi6 E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.Kernel.Fr

end
-- ==== Proof.KB.RunB.lean ====
/-
  The kernel body at a MIDDLE key tile (neither the first nor the last of an anchor row's eight): nothing is reset
  and nothing is written out. The four scratch columns are loaded, folded with this tile's row results — the row
  maximum of the masked positive distances, the row minimum of the masked negative distances, and the row maxima of
  the two mask indicators — and stored back whole. What each column then holds is recorded as the list of its
  stores, found by running the body.
-/
import proofs.«107534_j40690520162810_1_alg».proof.Proof.KB.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At a middle key tile: from the four input blocks, the three output buffers (handed back untouched) and the four
    scratch columns at what the tile before left, the body runs and leaves each scratch column with its stores written. -/
noncomputable def kernelRun0_B (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i)
    (x0 : Vec F S512x512 .bf16) (x1 : Vec F S512x512 .bf16) (l0 : Vec F S512 .i32) (l1 : Vec F S512 .i32) (xs0 xs1 xs2 xs3 : Vec F S512x1 .f32) :
    Σ' (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi4 xi5 xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare l0 ∗ owns (c : Thread nD τ) arg5 fullShare l1
            ∗ owns (c : Thread nD τ) arg6 fullShare xi4 ∗ owns (c : Thread nD τ) arg7 fullShare xi5 ∗ owns (c : Thread nD τ) arg8 fullShare xi6
            ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare l0 ∗ owns (c : Thread nD τ) arg5 fullShare l1
                ∗ owns (c : Thread nD τ) arg6 fullShare xi4 ∗ owns (c : Thread nD τ) arg7 fullShare xi5 ∗ owns (c : Thread nD τ) arg8 fullShare xi6
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11 arg12 harg12) K } := by
  refine ⟨?_, ?_, ?_, ?_, fun xi4 xi5 xi6 E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.Kernel.Fr

end
-- ==== Proof.KB.RunC.lean ====
/-
  The kernel body at the LAST key tile of an anchor row: the four scratch columns are folded with this tile's row
  results and stored back, and then the finished columns are copied out: the running maximum and the running
  minimum as they are, the two indicators as their product. What each scratch column and each output buffer then
  holds is recorded as the list of its stores, found by running the body.
-/
import proofs.«107534_j40690520162810_1_alg».proof.Proof.KB.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
noncomputable def kernelRun0_C (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i)
    (x0 : Vec F S512x512 .bf16) (x1 : Vec F S512x512 .bf16) (l0 : Vec F S512 .i32) (l1 : Vec F S512 .i32) (xs0 xs1 xs2 xs3 : Vec F S512x1 .f32) :
    Σ' (L4 : List (View.Piece (Elt F) S512x1 .f32)) (L5 : List (View.Piece (Elt F) S512x1 .f32)) (L6 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare l0 ∗ owns (c : Thread nD τ) arg5 fullShare l1
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare l0 ∗ owns (c : Thread nD τ) arg5 fullShare l1
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, fun E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    isplitl [HS2]; · iexists _; iexact HS2
    iexists _; iexact HS3

end Cert.Kernel.Fr

end
-- ==== Proof.KB.Frame.lean ====
/-
  The pairwise-distance kernel's frame, part 2: the proof data of the pipeline and the body obligation.

  Along an anchor row's eight key tiles the body is in one of three cases: the first tile (reset, then fold), a
  middle tile (fold), the last tile (fold, then copy out). What the four scratch columns and the three output
  buffers hold after each of the 64 points is defined by recursion on the point from the three cases' runs
  (`outsAt0`); the invariant between points holds the scratch columns at exactly those contents; each input
  window's buffer holds its block of the normalised embeddings or of the labels. Both embedding windows read one
  array and both label windows read one array, so each such window holds HALF of its array's share.
-/
import proofs.«107534_j40690520162810_1_alg».proof.Proof.KB.RunC
import Idealize.ShloMosaic.Lib.Ring

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Stores read back -/

/-- A 512 x 1 column after the stores `L` (last first), read back over contents nothing depends on. -/
def rd (L : List (View.Piece (Elt F) S512x1 .f32)) : Vec F S512x1 .f32 := VC.read (Elt F) (VC.writes (Elt F) VC.junk L)

/-- A buffer whose stores cover it is owned at their read-back. -/
theorem owns_of_writes (c : Dev nD) (a : Memref sig .tc .vmem S512x1 .f32) (L : List (View.Piece (Elt F) S512x1 .f32))
    (hL : ∀ y, ∃ p ∈ L, y ∈ p.1.set) :
    (iprop(∃ f, a.view.loc (c : Thread nD τ) ↦[a.view.set]{fullShare} a.view.writes (Elt F) f L) : sProp 𝕄) ⊢ owns (c : Thread nD τ) a fullShare (rd L) := by
  iintro ⟨%f, H⟩
  unfold owns; iexists _; isplitr
  swap; · iexact H
  ipureintro; exact View.read_writes_of_cover _ _ _ _ _ hL

/-- The three output buffers and the four scratch columns after a point. -/
structure St (F : FTy → Type) [FloatOps F] where
  o4 : Vec F S512x1 .f32
  o5 : Vec F S512x1 .f32
  o6 : Vec F S512x1 .f32
  s0 : Vec F S512x1 .f32
  s1 : Vec F S512x1 .f32
  s2 : Vec F S512x1 .f32
  s3 : Vec F S512x1 .f32

/-! ## Each case's stores cover their buffers -/
theorem coverA_s0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x512 .bf16) (x1 : Vec F S512x512 .bf16) (l0 : Vec F S512 .i32) (l1 : Vec F S512 .i32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 l0 l1).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 l0 l1).1 S512x1.size (by sl_kernel_rfl) y
theorem coverA_s1 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x512 .bf16) (x1 : Vec F S512x512 .bf16) (l0 : Vec F S512 .i32) (l1 : Vec F S512 .i32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 l0 l1).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 l0 l1).2.1 S512x1.size (by sl_kernel_rfl) y
theorem coverA_s2 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x512 .bf16) (x1 : Vec F S512x512 .bf16) (l0 : Vec F S512 .i32) (l1 : Vec F S512 .i32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 l0 l1).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 l0 l1).2.2.1 S512x1.size (by sl_kernel_rfl) y
theorem coverA_s3 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x512 .bf16) (x1 : Vec F S512x512 .bf16) (l0 : Vec F S512 .i32) (l1 : Vec F S512 .i32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 l0 l1).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 l0 l1).2.2.2.1 S512x1.size (by sl_kernel_rfl) y
theorem coverB_s0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x512 .bf16) (x1 : Vec F S512x512 .bf16) (l0 : Vec F S512 .i32) (l1 : Vec F S512 .i32) (xs0 xs1 xs2 xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).1 S512x1.size (by sl_kernel_rfl) y
theorem coverB_s1 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x512 .bf16) (x1 : Vec F S512x512 .bf16) (l0 : Vec F S512 .i32) (l1 : Vec F S512 .i32) (xs0 xs1 xs2 xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.1 S512x1.size (by sl_kernel_rfl) y
theorem coverB_s2 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x512 .bf16) (x1 : Vec F S512x512 .bf16) (l0 : Vec F S512 .i32) (l1 : Vec F S512 .i32) (xs0 xs1 xs2 xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.1 S512x1.size (by sl_kernel_rfl) y
theorem coverB_s3 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x512 .bf16) (x1 : Vec F S512x512 .bf16) (l0 : Vec F S512 .i32) (l1 : Vec F S512 .i32) (xs0 xs1 xs2 xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.2.1 S512x1.size (by sl_kernel_rfl) y
theorem coverC_o4 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x512 .bf16) (x1 : Vec F S512x512 .bf16) (l0 : Vec F S512 .i32) (l1 : Vec F S512 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).1 S512x1.size (by sl_kernel_rfl) y
theorem coverC_o5 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x512 .bf16) (x1 : Vec F S512x512 .bf16) (l0 : Vec F S512 .i32) (l1 : Vec F S512 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.1 S512x1.size (by sl_kernel_rfl) y
theorem coverC_o6 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x512 .bf16) (x1 : Vec F S512x512 .bf16) (l0 : Vec F S512 .i32) (l1 : Vec F S512 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.1 S512x1.size (by sl_kernel_rfl) y
theorem coverC_s0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x512 .bf16) (x1 : Vec F S512x512 .bf16) (l0 : Vec F S512 .i32) (l1 : Vec F S512 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.2.1 S512x1.size (by sl_kernel_rfl) y
theorem coverC_s1 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x512 .bf16) (x1 : Vec F S512x512 .bf16) (l0 : Vec F S512 .i32) (l1 : Vec F S512 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.2.2.1 S512x1.size (by sl_kernel_rfl) y
theorem coverC_s2 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x512 .bf16) (x1 : Vec F S512x512 .bf16) (l0 : Vec F S512 .i32) (l1 : Vec F S512 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.2.2.2.1 S512x1.size (by sl_kernel_rfl) y
theorem coverC_s3 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x512 .bf16) (x1 : Vec F S512x512 .bf16) (l0 : Vec F S512 .i32) (l1 : Vec F S512 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.2.2.2.2.1 S512x1.size (by sl_kernel_rfl) y

/-! ## The three cases at a grid point -/

/-- The first key tile's run at point `t`. -/
abbrev runA (c : Dev nD) (t : Fin cfg0.N) (h0 : t.val % 8 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => by have := (hcond0_1 t).mp h; omega) (iblk m c 0 t) (iblk m c 1 t) (iblk m c 2 t) (iblk m c 3 t)
/-- A middle key tile's run at point `t`, from the columns `p` the tile before left. -/
abbrev runB (c : Dev nD) (t : Fin cfg0.N) (h0 : ¬t.val % 8 = 0) (h1 : ¬t.val % 8 = 7) (p : St F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) p.s0 p.s1 p.s2 p.s3
/-- The last key tile's run at point `t`, from the columns `p` the tile before left. -/
abbrev runC (c : Dev nD) (t : Fin cfg0.N) (h0 : ¬t.val % 8 = 0) (h1 : t.val % 8 = 7) (p : St F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) p.s0 p.s1 p.s2 p.s3

/-- What the first key tile leaves: the columns reset and folded once; the outputs are not stored (their components
    are placeholders nothing consults). -/
def stA (c : Dev nD) (t : Fin cfg0.N) (h0 : t.val % 8 = 0) : St F :=
  ⟨rd [], rd [], rd [], rd (runA m c t h0).1, rd (runA m c t h0).2.1, rd (runA m c t h0).2.2.1, rd (runA m c t h0).2.2.2.1⟩
/-- What a middle key tile leaves: the columns folded once more. -/
def stB (c : Dev nD) (t : Fin cfg0.N) (h0 : ¬t.val % 8 = 0) (h1 : ¬t.val % 8 = 7) (p : St F) : St F :=
  ⟨rd [], rd [], rd [], rd (runB m c t h0 h1 p).1, rd (runB m c t h0 h1 p).2.1, rd (runB m c t h0 h1 p).2.2.1, rd (runB m c t h0 h1 p).2.2.2.1⟩
/-- What the last key tile leaves: the columns folded once more, and the outputs at the finished columns. -/
def stC (c : Dev nD) (t : Fin cfg0.N) (h0 : ¬t.val % 8 = 0) (h1 : t.val % 8 = 7) (p : St F) : St F :=
  ⟨rd (runC m c t h0 h1 p).1, rd (runC m c t h0 h1 p).2.1, rd (runC m c t h0 h1 p).2.2.1, rd (runC m c t h0 h1 p).2.2.2.1,
   rd (runC m c t h0 h1 p).2.2.2.2.1, rd (runC m c t h0 h1 p).2.2.2.2.2.1, rd (runC m c t h0 h1 p).2.2.2.2.2.2.1⟩

/-! ## The covers at a grid point -/
theorem coverA_s0_at (c : Dev nD) (t : Fin cfg0.N) (h0 : t.val % 8 = 0) (y : S512x1.Idx) : ∃ pc ∈ (runA m c t h0).1, y ∈ pc.1.set :=
  coverA_s0 c _ _ _ _ _ _ _ _ _ _ _ _ _ _ _ _ _ _ _ _ _ _ _ _ _ _ _ _ _ y
theorem coverA_s1_at (c : Dev nD) (t : Fin cfg0.N) (h0 : t.val % 8 = 0) (y : S512x1.Idx) : ∃ pc ∈ (runA m c t h0).2.1, y ∈ pc.1.set :=
  coverA_s1 c _ _ _ _ _ _ _ _ _ _ _ _ _ _ _ _ _ _ _ _ _ _ _ _ _ _ _ _ _ y
theorem coverA_s2_at (c : Dev nD) (t : Fin cfg0.N) (h0 : t.val % 8 = 0) (y : S512x1.Idx) : ∃ pc ∈ (runA m c t h0).2.2.1, y ∈ pc.1.set :=
  coverA_s2 c _ _ _ _ _ _ _ _ _ _ _ _ _ _ _ _ _ _ _ _ _ _ _ _ _ _ _ _ _ y
theorem coverA_s3_at (c : Dev nD) (t : Fin cfg0.N) (h0 : t.val % 8 = 0) (y : S512x1.Idx) : ∃ pc ∈ (runA m c t h0).2.2.2.1, y ∈ pc.1.set :=
  coverA_s3 c _ _ _ _ _ _ _ _ _ _ _ _ _ _ _ _ _ _ _ _ _ _ _ _ _ _ _ _ _ y
theorem coverB_s0_at (c : Dev nD) (t : Fin cfg0.N) (h0 : ¬t.val % 8 = 0) (h1 : ¬t.val % 8 = 7) (p : St F) (y : S512x1.Idx) : ∃ pc ∈ (runB m c t h0 h1 p).1, y ∈ pc.1.set :=
  coverB_s0 c _ _ _ _ _ _ _ _ _ _ _ _ _ _ _ _ _ _ _ _ _ _ _ _ _ _ _ _ _ _ _ _ _ y
theorem coverB_s1_at (c : Dev nD) (t : Fin cfg0.N) (h0 : ¬t.val % 8 = 0) (h1 : ¬t.val % 8 = 7) (p : St F) (y : S512x1.Idx) : ∃ pc ∈ (runB m c t h0 h1 p).2.1, y ∈ pc.1.set :=
  coverB_s1 c _ _ _ _ _ _ _ _ _ _ _ _ _ _ _ _ _ _ _ _ _ _ _ _ _ _ _ _ _ _ _ _ _ y
theorem coverB_s2_at (c : Dev nD) (t : Fin cfg0.N) (h0 : ¬t.val % 8 = 0) (h1 : ¬t.val % 8 = 7) (p : St F) (y : S512x1.Idx) : ∃ pc ∈ (runB m c t h0 h1 p).2.2.1, y ∈ pc.1.set :=
  coverB_s2 c _ _ _ _ _ _ _ _ _ _ _ _ _ _ _ _ _ _ _ _ _ _ _ _ _ _ _ _ _ _ _ _ _ y
theorem coverB_s3_at (c : Dev nD) (t : Fin cfg0.N) (h0 : ¬t.val % 8 = 0) (h1 : ¬t.val % 8 = 7) (p : St F) (y : S512x1.Idx) : ∃ pc ∈ (runB m c t h0 h1 p).2.2.2.1, y ∈ pc.1.set :=
  coverB_s3 c _ _ _ _ _ _ _ _ _ _ _ _ _ _ _ _ _ _ _ _ _ _ _ _ _ _ _ _ _ _ _ _ _ y
theorem coverC_o4_at (c : Dev nD) (t : Fin cfg0.N) (h0 : ¬t.val % 8 = 0) (h1 : t.val % 8 = 7) (p : St F) (y : S512x1.Idx) : ∃ pc ∈ (runC m c t h0 h1 p).1, y ∈ pc.1.set :=
  coverC_o4 c _ _ _ _ _ _ _ _ _ _ _ _ _ _ _ _ _ _ _ _ _ _ _ _ _ _ _ _ _ _ _ _ _ y
theorem coverC_o5_at (c : Dev nD) (t : Fin cfg0.N) (h0 : ¬t.val % 8 = 0) (h1 : t.val % 8 = 7) (p : St F) (y : S512x1.Idx) : ∃ pc ∈ (runC m c t h0 h1 p).2.1, y ∈ pc.1.set :=
  coverC_o5 c _ _ _ _ _ _ _ _ _ _ _ _ _ _ _ _ _ _ _ _ _ _ _ _ _ _ _ _ _ _ _ _ _ y
theorem coverC_o6_at (c : Dev nD) (t : Fin cfg0.N) (h0 : ¬t.val % 8 = 0) (h1 : t.val % 8 = 7) (p : St F) (y : S512x1.Idx) : ∃ pc ∈ (runC m c t h0 h1 p).2.2.1, y ∈ pc.1.set :=
  coverC_o6 c _ _ _ _ _ _ _ _ _ _ _ _ _ _ _ _ _ _ _ _ _ _ _ _ _ _ _ _ _ _ _ _ _ y
theorem coverC_s0_at (c : Dev nD) (t : Fin cfg0.N) (h0 : ¬t.val % 8 = 0) (h1 : t.val % 8 = 7) (p : St F) (y : S512x1.Idx) : ∃ pc ∈ (runC m c t h0 h1 p).2.2.2.1, y ∈ pc.1.set :=
  coverC_s0 c _ _ _ _ _ _ _ _ _ _ _ _ _ _ _ _ _ _ _ _ _ _ _ _ _ _ _ _ _ _ _ _ _ y
theorem coverC_s1_at (c : Dev nD) (t : Fin cfg0.N) (h0 : ¬t.val % 8 = 0) (h1 : t.val % 8 = 7) (p : St F) (y : S512x1.Idx) : ∃ pc ∈ (runC m c t h0 h1 p).2.2.2.2.1, y ∈ pc.1.set :=
  coverC_s1 c _ _ _ _ _ _ _ _ _ _ _ _ _ _ _ _ _ _ _ _ _ _ _ _ _ _ _ _ _ _ _ _ _ y
theorem coverC_s2_at (c : Dev nD) (t : Fin cfg0.N) (h0 : ¬t.val % 8 = 0) (h1 : t.val % 8 = 7) (p : St F) (y : S512x1.Idx) : ∃ pc ∈ (runC m c t h0 h1 p).2.2.2.2.2.1, y ∈ pc.1.set :=
  coverC_s2 c _ _ _ _ _ _ _ _ _ _ _ _ _ _ _ _ _ _ _ _ _ _ _ _ _ _ _ _ _ _ _ _ _ y
theorem coverC_s3_at (c : Dev nD) (t : Fin cfg0.N) (h0 : ¬t.val % 8 = 0) (h1 : t.val % 8 = 7) (p : St F) (y : S512x1.Idx) : ∃ pc ∈ (runC m c t h0 h1 p).2.2.2.2.2.2.1, y ∈ pc.1.set :=
  coverC_s3 c _ _ _ _ _ _ _ _ _ _ _ _ _ _ _ _ _ _ _ _ _ _ _ _ _ _ _ _ _ _ _ _ _ y

/-! ## What the buffers hold after each point -/

/-- THE ACCUMULATION over the grid, by recursion on the point: the case the point's key coordinate selects, a middle
    or last tile run from what the point before left. -/
def outsAt0 (c : Dev nD) : (n : ℕ) → n < cfg0.N → St F
  | 0, hn => stA m c ⟨0, hn⟩ (Nat.zero_mod _)
  | n + 1, hn =>
    if h0 : (n + 1) % 8 = 0 then stA m c ⟨n + 1, hn⟩ h0
    else if h1 : (n + 1) % 8 = 7 then stC m c ⟨n + 1, hn⟩ h0 h1 (outsAt0 c n (Nat.lt_of_succ_lt hn))
    else stB m c ⟨n + 1, hn⟩ h0 h1 (outsAt0 c n (Nat.lt_of_succ_lt hn))

theorem outsAt0_A (c : Dev nD) (t : Fin cfg0.N) (h0 : t.val % 8 = 0) : outsAt0 m c t.val t.isLt = stA m c t h0 := by
  obtain ⟨n, hn⟩ := t
  cases n with
  | zero => rfl
  | succ n => exact dif_pos h0

theorem outsAt0_B (c : Dev nD) (t : Fin cfg0.N) (h0 : ¬t.val % 8 = 0) (h1 : ¬t.val % 8 = 7) :
    outsAt0 m c t.val t.isLt = stB m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 8 = 0) (h1 : t.val % 8 = 7) :
    outsAt0 m c t.val t.isLt = stC m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-! ## The invariant between points -/

/-- The four scratch columns owned at given contents. -/
def colsAt (c : Dev nD) (p : St F) : sProp 𝕄 :=
  iprop(owns (c : Thread nD τ) scM0_0 fullShare p.s0 ∗ owns (c : Thread nD τ) scM0_1 fullShare p.s1
    ∗ owns (c : Thread nD τ) scM0_2 fullShare p.s2 ∗ owns (c : Thread nD τ) scM0_3 fullShare p.s3)
/-- The four scratch columns owned at some contents. -/
def colsAny (c : Dev nD) : sProp 𝕄 :=
  iprop((∃ d, owns (c : Thread nD τ) scM0_0 fullShare d) ∗ (∃ d, owns (c : Thread nD τ) scM0_1 fullShare d)
    ∗ (∃ d, owns (c : Thread nD τ) scM0_2 fullShare d) ∗ (∃ d, owns (c : Thread nD τ) scM0_3 fullShare d))

theorem colsAt_any (c : Dev nD) (p : St F) : (colsAt c p : sProp 𝕄) ⊢ colsAny c := by
  unfold colsAt colsAny
  iintro ⟨H0, H1, H2, H3⟩
  isplitl [H0]; · iexists _; iexact H0
  isplitl [H1]; · iexists _; iexact H1
  isplitl [H2]; · iexists _; iexact H2
  iexists _; iexact H3

/-- Before the first point the scratch columns hold anything; before any later point what the point before left. -/
def PhiS (c : Dev nD) : (n : ℕ) → n ≤ cfg0.N → sProp 𝕄
  | 0, _ => colsAny c
  | n + 1, hn => colsAt c (outsAt0 m c n hn)

theorem PhiS_zero (c : Dev nD) (n : ℕ) (h : n ≤ cfg0.N) (hz : n = 0) : PhiS m c n h = colsAny c := by subst hz; rfl
theorem PhiS_succ (c : Dev nD) (n : ℕ) (hn : n < cfg0.N) : PhiS m c (n + 1) hn = colsAt c (outsAt0 m c n hn) := rfl
theorem PhiS_pos (c : Dev nD) (n : ℕ) (h : n ≤ cfg0.N) (hz : n ≠ 0) :
    PhiS m c n h = colsAt c (outsAt0 m c (n - 1) (by omega)) := by
  cases n with
  | zero => exact absurd rfl hz
  | succ n => rfl

/-! ## The pipeline's proof data -/

/-- The proof data on core `c`: the arrays as the region finds them; after the body each input's buffer at its block,
    each output's at `outsAt0`'s component; the invariant `PhiS`; nothing owed; of the two windows on one array the
    first holds the left half of its share and the second the right half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).o4
    | ⟨5, _⟩ => (outsAt0 m c t.val t.isLt).o5
    | ⟨6, _⟩ => (outsAt0 m c t.val t.isLt).o6
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by dsimp only [dats]

theorem PhiS_castSucc (c : Dev nD) (t : Fin cfg0.N) : (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).o4 := by dsimp only [dats]
theorem after0_5 (c : Dev nD) (t : Fin cfg0.N) : (dats m 0 c).after 5 t = (outsAt0 m c t.val t.isLt).o5 := by dsimp only [dats]
theorem after0_6 (c : Dev nD) (t : Fin cfg0.N) : (dats m 0 c).after 6 t = (outsAt0 m c t.val t.isLt).o6 := by dsimp only [dats]

/-- Input window 0's current buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

/-- Input window 1's current buffer holds its block at every point, fetched there or not. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-- Input window 2's current buffer holds its block at every point, fetched there or not. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- Input window 3's current buffer holds its block at every point, fetched there or not. -/
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-- Before any point the scratch columns are owned at something. -/
theorem PhiS_any (c : Dev nD) (n : ℕ) (h : n ≤ cfg0.N) : PhiS m c n h ⊢ colsAny c := by
  cases n with
  | zero => exact .rfl
  | succ n => exact colsAt_any c _

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point. The inputs' buffers hold their blocks; the point's key coordinate says which case it is in;
    the invariant hands the body the scratch columns at what the point before left (at anything before the first) and
    takes them back at this point's contents; at the last key tile the output buffers come back at the finished
    columns, elsewhere untouched; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ, PhiS_castSucc m c t]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  have hN : t.val < 64 := lt_of_lt_of_eq t.isLt (show cfg0.N = 64 from N_0)
  by_cases h0 : t.val % 8 = 0
  · have h1 : ¬t.val % 8 = 7 := by omega
    have hc1 : ¬cond0_1 (grid0.coords t) := fun h => h1 ((hcond0_1 t).mp h)
    rw [Dat.leavesExact_idle (dats m 0 c) 4 t (idleAt0_4 t hc1) (noFlush0_4 t hc1)]
    rw [Dat.leavesExact_idle (dats m 0 c) 5 t (idleAt0_5 t hc1) (noFlush0_5 t hc1)]
    rw [Dat.leavesExact_idle (dats m 0 c) 6 t (idleAt0_6 t hc1) (noFlush0_6 t hc1)]
    rw [outsAt0_A m c t h0]
    unfold stA
    iintro ⟨HΦ, Ho, ⟨%d0, H0⟩, ⟨%d1, H1⟩, ⟨%d2, H2⟩, ⟨%d3, H3⟩, ⟨%d4, H4⟩, ⟨%d5, H5⟩, ⟨%d6, H6⟩⟩
    ihave HS := (PhiS_any m c t.val (Nat.le_of_lt t.isLt)) $$ HΦ
    unfold colsAny
    icases HS with ⟨HS0, HS1, HS2, HS3⟩
    iapply ((runA m c t h0).2.2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3]
    · unfold colsAt; dsimp only
      isplitl [HS0]; · iapply (owns_of_writes c scM0_0 _ (coverA_s0_at m c t h0)) $$ HS0
      isplitl [HS1]; · iapply (owns_of_writes c scM0_1 _ (coverA_s1_at m c t h0)) $$ HS1
      isplitl [HS2]; · iapply (owns_of_writes c scM0_2 _ (coverA_s2_at m c t h0)) $$ HS2
      iapply (owns_of_writes c scM0_3 _ (coverA_s3_at m c t h0)) $$ HS3
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexists _; iexact H6
  · have hz : t.val ≠ 0 := fun e => h0 (by rw [e])
    rw [PhiS_pos m c _ _ hz]
    by_cases h1 : t.val % 8 = 7
    · have hc1 : cond0_1 (grid0.coords t) := (hcond0_1 t).mpr h1
      rw [show (dats m 0 c).leavesExact 4 t = owns (c : Thread nD τ) (ms0_4 t) fullShare ((dats m 0 c).after 4 t) from by
        unfold Dat.leavesExact; rw [liveAt0_4 t hc1], after0_4]
      rw [show (dats m 0 c).leavesExact 5 t = owns (c : Thread nD τ) (ms0_5 t) fullShare ((dats m 0 c).after 5 t) from by
        unfold Dat.leavesExact; rw [liveAt0_5 t hc1], after0_5]
      rw [show (dats m 0 c).leavesExact 6 t = owns (c : Thread nD τ) (ms0_6 t) fullShare ((dats m 0 c).after 6 t) from by
        unfold Dat.leavesExact; rw [liveAt0_6 t hc1], after0_6]
      rw [outsAt0_C m c t h0 h1]
      unfold stC colsAt
      iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩⟩
      iapply ((runC m c t h0 h1 _).2.2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, H6, HS0, HS1, HS2, HS3⟩
      isplitl [HS0 HS1 HS2 HS3]
      · dsimp only
        isplitl [HS0]; · iapply (owns_of_writes c scM0_0 _ (coverC_s0_at m c t h0 h1 _)) $$ HS0
        isplitl [HS1]; · iapply (owns_of_writes c scM0_1 _ (coverC_s1_at m c t h0 h1 _)) $$ HS1
        isplitl [HS2]; · iapply (owns_of_writes c scM0_2 _ (coverC_s2_at m c t h0 h1 _)) $$ HS2
        iapply (owns_of_writes c scM0_3 _ (coverC_s3_at m c t h0 h1 _)) $$ HS3
      isplitl [Ho]; · iexact Ho
      isplitl [H0]; · iexact H0
      isplitl [H1]; · iexact H1
      isplitl [H2]; · iexact H2
      isplitl [H3]; · iexact H3
      dsimp only
      isplitl [H4]; · iapply (owns_of_writes c (ms0_4 t) _ (coverC_o4_at m c t h0 h1 _)) $$ H4
      isplitl [H5]; · iapply (owns_of_writes c (ms0_5 t) _ (coverC_o5_at m c t h0 h1 _)) $$ H5
      iapply (owns_of_writes c (ms0_6 t) _ (coverC_o6_at m c t h0 h1 _)) $$ H6
    · have hc1 : ¬cond0_1 (grid0.coords t) := fun h => h1 ((hcond0_1 t).mp h)
      rw [Dat.leavesExact_idle (dats m 0 c) 4 t (idleAt0_4 t hc1) (noFlush0_4 t hc1)]
      rw [Dat.leavesExact_idle (dats m 0 c) 5 t (idleAt0_5 t hc1) (noFlush0_5 t hc1)]
      rw [Dat.leavesExact_idle (dats m 0 c) 6 t (idleAt0_6 t hc1) (noFlush0_6 t hc1)]
      rw [outsAt0_B m c t h0 h1]
      unfold stB colsAt
      iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩⟩
      iapply ((runB m c t h0 h1 _).2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, HS0, HS1, HS2, HS3⟩
      isplitl [HS0 HS1 HS2 HS3]
      · dsimp only
        isplitl [HS0]; · iapply (owns_of_writes c scM0_0 _ (coverB_s0_at m c t h0 h1 _)) $$ HS0
        isplitl [HS1]; · iapply (owns_of_writes c scM0_1 _ (coverB_s1_at m c t h0 h1 _)) $$ HS1
        isplitl [HS2]; · iapply (owns_of_writes c scM0_2 _ (coverB_s2_at m c t h0 h1 _)) $$ HS2
        iapply (owns_of_writes c scM0_3 _ (coverB_s3_at m c t h0 h1 _)) $$ HS3
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- Any contents of the scratch columns make the invariant before the first point. -/
theorem Phi_in (c : Dev nD) : (colsAny c : sProp 𝕄) ⊢ (dats m 0 c).Φ 0 := by
  rw [show (dats m 0 c).Φ 0 = PhiS m c 0 (Nat.zero_le _) from rfl, PhiS_zero m c 0 _ rfl]

/-- After the last point the invariant gives the scratch columns back at something. -/
theorem Phi_out (c : Dev nD) : (dats m 0 c).Φ (Fin.last cfg0.N) ⊢ (colsAny c : sProp 𝕄) := by
  rw [show (dats m 0 c).Φ (Fin.last cfg0.N) = PhiS m c (Fin.last cfg0.N).val (Nat.le_of_lt_succ (Fin.last cfg0.N).isLt) from rfl]
  exact PhiS_any m c _ _

end Cert.Kernel.Fr

end
-- ==== Proof.KB.Launch.lean ====
/-
  The pairwise-distance kernel's frame, part 3: the launch.

  @main is two host stretches (the row norms; the division by the clamped norm and the change of format), ONE
  kernel region, and five host stretches that reduce the three result columns to the loss. Here the pieces are put
  in a row: each host stretch takes the core's unscoped buffers from one valuation to the next; the region takes
  them from the contents at its entry to the contents at its exit, which differ in the three result arrays only.

  Both embedding windows read one array and both label windows read one array. At the region's entry that array's
  points-to is cut along its share, the left half to the first window on it and the right half to the second; at the
  exit an input's array holds what it held, so the two halves agree and join to the full share again.
-/
import proofs.«107534_j40690520162810_1_alg».proof.Proof.KB.Frame
import Idealize.ShloMosaic.Lib.Pipeline.Frame
import Idealize.ShloMosaic.Lib.Pipeline.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Contents at the region's exit and at the end -/

/-- Core `c`'s buffers when the region is left: the three result arrays at what the pipeline wrote back over the
    64 points, every other buffer as the region found it. -/
def Vexit (c : Dev nD) : Valuation τ sig (Elt F) :=
  Function.update (Function.update (Function.update (Vin m c)
    (Proc.devRef .tc main_v6_0) ((dats m 0 c).arrAt 4 cfg0.N))
    (Proc.devRef .tc main_v6_1) ((dats m 0 c).arrAt 5 cfg0.N))
    (Proc.devRef .tc main_v6_2) ((dats m 0 c).arrAt 6 cfg0.N)

/-- Core `c`'s buffers at the return: the five host stretches after the region have run. -/
abbrev Vend (c : Dev nD) : Valuation τ sig (Elt F) :=
  StableHlo.after hostOps1_4 (StableHlo.after hostOps1_3 (StableHlo.after hostOps1_2 (StableHlo.after hostOps1_1
    (StableHlo.after hostOps1 (Vexit m c)))))

theorem Vexit_out4 (c : Dev nD) : Vexit m c (Proc.devRef .tc main_v6_0) = (dats m 0 c).arrAt 4 cfg0.N := by
  unfold Vexit
  rw [Function.update_of_ne (StableHlo.devRef_ne_of_ne (by decide)), Function.update_of_ne (StableHlo.devRef_ne_of_ne (by decide)),
    Function.update_self]
theorem Vexit_out5 (c : Dev nD) : Vexit m c (Proc.devRef .tc main_v6_1) = (dats m 0 c).arrAt 5 cfg0.N := by
  unfold Vexit
  rw [Function.update_of_ne (StableHlo.devRef_ne_of_ne (by decide)), Function.update_self]
theorem Vexit_out6 (c : Dev nD) : Vexit m c (Proc.devRef .tc main_v6_2) = (dats m 0 c).arrAt 6 cfg0.N := by
  unfold Vexit
  rw [Function.update_self]
/-- A buffer that is none of the three results leaves the region as it entered. -/
theorem Vexit_other (c : Dev nD) (b : Ref sig .tc) (h : b ≠ main_v6_0 ∧ b ≠ main_v6_1 ∧ b ≠ main_v6_2) :
    Vexit m c (Proc.devRef .tc b) = V m c b := by
  unfold Vexit
  rw [Function.update_of_ne (StableHlo.devRef_ne_of_ne h.2.2), Function.update_of_ne (StableHlo.devRef_ne_of_ne h.2.1),
    Function.update_of_ne (StableHlo.devRef_ne_of_ne h.1)]

/-! ## The two arguments are never written -/

theorem nw0 (b : Ref sig .tc) (hb : b = main_arg0 ∨ b = main_arg1) : ∀ op ∈ (hostOps0 (F := F)), Proc.devRef .tc b ∉ op.writes := by
  rcases hb with rfl | rfl <;> exact by
    refine List.forall_iff_forall_mem.mp ?_
    refine ⟨?_, ?_, ?_, ?_, ?_⟩ <;> (show _ ∉ _) <;>
      simp only [StableHlo.nullary_writes, StableHlo.unary_writes, StableHlo.binary_writes, StableHlo.ternary_writes, StableHlo.reshape_writes, Finset.mem_singleton] <;>
      exact fun e => absurd (Proc.devRef_injective _ e) (by decide)
theorem nw0_1 (b : Ref sig .tc) (hb : b = main_arg0 ∨ b = main_arg1) : ∀ op ∈ (hostOps0_1 (F := F)), Proc.devRef .tc b ∉ op.writes := by
  rcases hb with rfl | rfl <;> exact by
    refine List.forall_iff_forall_mem.mp ?_
    refine ⟨?_, ?_, ?_, ?_, ?_, ?_⟩ <;> (show _ ∉ _) <;>
      simp only [StableHlo.nullary_writes, StableHlo.unary_writes, StableHlo.binary_writes, StableHlo.ternary_writes, StableHlo.reshape_writes, Finset.mem_singleton] <;>
      exact fun e => absurd (Proc.devRef_injective _ e) (by decide)
theorem nw1 (b : Ref sig .tc) (hb : b = main_arg0 ∨ b = main_arg1) : ∀ op ∈ (hostOps1 (F := F)), Proc.devRef .tc b ∉ op.writes := by
  rcases hb with rfl | rfl <;> exact by
    refine List.forall_iff_forall_mem.mp ?_
    refine ⟨?_, ?_, ?_, ?_, ?_, ?_, ?_, ?_, ?_, ?_⟩ <;> (show _ ∉ _) <;>
      simp only [StableHlo.nullary_writes, StableHlo.unary_writes, StableHlo.binary_writes, StableHlo.ternary_writes, StableHlo.reshape_writes, Finset.mem_singleton] <;>
      exact fun e => absurd (Proc.devRef_injective _ e) (by decide)
theorem nw1_1 (b : Ref sig .tc) (hb : b = main_arg0 ∨ b = main_arg1) : ∀ op ∈ (hostOps1_1 (F := F)), Proc.devRef .tc b ∉ op.writes := by
  rcases hb with rfl | rfl <;> exact by
    refine List.forall_iff_forall_mem.mp ?_
    refine ⟨?_, ?_, ?_⟩ <;> (show _ ∉ _) <;>
      simp only [StableHlo.nullary_writes, StableHlo.unary_writes, StableHlo.binary_writes, StableHlo.ternary_writes, StableHlo.reshape_writes, Finset.mem_singleton] <;>
      exact fun e => absurd (Proc.devRef_injective _ e) (by decide)
theorem nw1_2 (b : Ref sig .tc) (hb : b = main_arg0 ∨ b = main_arg1) : ∀ op ∈ (hostOps1_2 (F := F)), Proc.devRef .tc b ∉ op.writes := by
  rcases hb with rfl | rfl <;> exact by
    refine List.forall_iff_forall_mem.mp ?_
    show _ ∉ _
    simp only [StableHlo.nullary_writes, StableHlo.unary_writes, StableHlo.binary_writes, StableHlo.ternary_writes, StableHlo.reshape_writes, Finset.mem_singleton]
    exact fun e => absurd (Proc.devRef_injective _ e) (by decide)
theorem nw1_3 (b : Ref sig .tc) (hb : b = main_arg0 ∨ b = main_arg1) : ∀ op ∈ (hostOps1_3 (F := F)), Proc.devRef .tc b ∉ op.writes := by
  rcases hb with rfl | rfl <;> exact by
    refine List.forall_iff_forall_mem.mp ?_
    refine ⟨?_, ?_, ?_⟩ <;> (show _ ∉ _) <;>
      simp only [StableHlo.nullary_writes, StableHlo.unary_writes, StableHlo.binary_writes, StableHlo.ternary_writes, StableHlo.reshape_writes, Finset.mem_singleton] <;>
      exact fun e => absurd (Proc.devRef_injective _ e) (by decide)
theorem nw1_4 (b : Ref sig .tc) (hb : b = main_arg0 ∨ b = main_arg1) : ∀ op ∈ (hostOps1_4 (F := F)), Proc.devRef .tc b ∉ op.writes := by
  rcases hb with rfl | rfl <;> exact by
    refine List.forall_iff_forall_mem.mp ?_
    refine ⟨?_, ?_, ?_, ?_, ?_, ?_, ?_, ?_, ?_⟩ <;> (show _ ∉ _) <;>
      simp only [StableHlo.nullary_writes, StableHlo.unary_writes, StableHlo.binary_writes, StableHlo.ternary_writes, StableHlo.reshape_writes, Finset.mem_singleton] <;>
      exact fun e => absurd (Proc.devRef_injective _ e) (by decide)

/-- An argument reaches the region as launched, -/
theorem V_arg (c : Dev nD) (b : Ref sig .tc) (hb : b = main_arg0 ∨ b = main_arg1) : V m c b = m ((c : Thread nD τ).loc b) :=
  (StableHlo.after_of_forall_not_mem (b := Proc.devRef .tc b) hostOps0_1 _ (nw0_1 b hb)).trans
    (StableHlo.after_of_forall_not_mem (b := Proc.devRef .tc b) hostOps0 (V₀ m c) (nw0 b hb))
/-- and the return likewise. -/
theorem Vend_arg (c : Dev nD) (b : Ref sig .tc) (hb : b = main_arg0 ∨ b = main_arg1) :
    Vend m c (Proc.devRef .tc b) = m ((c : Thread nD τ).loc b) := by
  unfold Vend
  rw [StableHlo.after_of_forall_not_mem hostOps1_4 _ (nw1_4 b hb), StableHlo.after_of_forall_not_mem hostOps1_3 _ (nw1_3 b hb),
    StableHlo.after_of_forall_not_mem hostOps1_2 _ (nw1_2 b hb), StableHlo.after_of_forall_not_mem hostOps1_1 _ (nw1_1 b hb),
    StableHlo.after_of_forall_not_mem hostOps1 _ (nw1 b hb),
    Vexit_other m c b (by rcases hb with rfl | rfl <;> decide), V_arg m c b hb]

/-! ## The launch's fixed data -/

/-- The pipeline library's algebra is the certificate's. -/
abbrev EP : Emb (UR sig nD τ) (MT nD τ sig Unit (Elt F) ℕ (UR sig nD τ) ℕ) := emb₁
/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm
abbrev 𝒱₀ : Variants := Variants.none

/-- What rides beside the buffers through every segment: the core owes nothing. -/
abbrev R (c : Dev nD) : sProp 𝕄 := iprop(∃ W, owes (c : Thread nD τ) (0 : CellTallies nD τ sig Unit) W)

/-- A host stretch over the core's unscoped buffers, from the valuation `W`. -/
def hseg (ops : List (HloOp τ sig (Elt F))) (hsub : ops.Forall fun op => op.bufs ⊆ StableHlo.tcRefs τ sig)
    (hf : ∀ op ∈ ops, op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h)) hf W R

theorem fresh0 : ∀ op ∈ (hostOps0 (F := F)), op.fresh = ∅ := by
  intro _ h; (repeat (cases h with | head => rfl | tail _ h => ?_)); exact nomatch h
theorem fresh0_1 : ∀ op ∈ (hostOps0_1 (F := F)), op.fresh = ∅ := by
  intro _ h; (repeat (cases h with | head => rfl | tail _ h => ?_)); exact nomatch h
theorem fresh1 : ∀ op ∈ (hostOps1 (F := F)), op.fresh = ∅ := by
  intro _ h; (repeat (cases h with | head => rfl | tail _ h => ?_)); exact nomatch h
theorem fresh1_1 : ∀ op ∈ (hostOps1_1 (F := F)), op.fresh = ∅ := by
  intro _ h; (repeat (cases h with | head => rfl | tail _ h => ?_)); exact nomatch h
theorem fresh1_2 : ∀ op ∈ (hostOps1_2 (F := F)), op.fresh = ∅ := by
  intro _ h; (repeat (cases h with | head => rfl | tail _ h => ?_)); exact nomatch h
theorem fresh1_3 : ∀ op ∈ (hostOps1_3 (F := F)), op.fresh = ∅ := by
  intro _ h; (repeat (cases h with | head => rfl | tail _ h => ?_)); exact nomatch h
theorem fresh1_4 : ∀ op ∈ (hostOps1_4 (F := F)), op.fresh = ∅ := by
  intro _ h; (repeat (cases h with | head => rfl | tail _ h => ?_)); exact nomatch h

/-! ## One array, two windows: the share cut in two and joined again -/

/-- A whole buffer at the full share is its two halves at the same contents. -/
theorem halves_split {ℓ : Loc nD τ sig} (f : Buf (Elt F) ℓ) :
    (ℓ ↦{fullShare} f : sProp 𝕄) ⊢ iprop((ℓ ↦{fullShare.left} f) ∗ ℓ ↦{fullShare.right} f) :=
  (pointsTo_share (PosShare.mem_left_op_right fullShare)).1
/-- The two halves at the same contents are the whole. -/
theorem halves_join {ℓ : Loc nD τ sig} (f : Buf (Elt F) ℓ) :
    (iprop((ℓ ↦{fullShare.left} f) ∗ ℓ ↦{fullShare.right} f) : sProp 𝕄) ⊢ ℓ ↦{fullShare} f :=
  (pointsTo_share (PosShare.mem_left_op_right fullShare)).2

/-- The pipeline's arrays, window by window: each whole array at its window's share. -/
theorem arrays_chain (c : Dev nD) (G : (w : Fin cfg0.W) → Buf (Elt F) ((cfg0.win w).arr.view.loc (c : Thread nD τ))) :
    ((dats m 0 c).arrays G : sProp 𝕄) = iprop(
      (((c : Thread nD τ).loc main_v5) ↦{fullShare.left} G 0) ∗ (((c : Thread nD τ).loc main_v5) ↦{fullShare.right} G 1)
      ∗ (((c : Thread nD τ).loc main_arg1) ↦{fullShare.left} G 2) ∗ (((c : Thread nD τ).loc main_arg1) ↦{fullShare.right} G 3)
      ∗ (((c : Thread nD τ).loc main_v6_0) ↦{fullShare} G 4) ∗ (((c : Thread nD τ).loc main_v6_1) ↦{fullShare} G 5)
      ∗ (((c : Thread nD τ).loc main_v6_2) ↦{fullShare} G 6)) := by
  have h1 : ((dats m 0 c).arrays G : sProp 𝕄)
      = bigSep Finset.univ fun w : Fin 7 => (((c : Thread nD τ).loc (Pipeline.arrRef spec0 w)) ↦{(dats m 0 c).share w} G w : sProp 𝕄) := by
    unfold Dat.arrays
    exact bigSep_congr fun w _ => by rw [(arr_whole0 w).set_eq_univ]
  rw [h1, bigSep_W0]
  rfl

/-- The five distinct buffers behind the seven windows, one by one. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄) = iprop(
      (((c : Thread nD τ).loc main_v5) ↦{fullShare} W main_v5) ∗ (((c : Thread nD τ).loc main_arg1) ↦{fullShare} W main_arg1)
      ∗ (((c : Thread nD τ).loc main_v6_0) ↦{fullShare} W main_v6_0) ∗ (((c : Thread nD τ).loc main_v6_1) ↦{fullShare} W main_v6_1)
      ∗ (((c : Thread nD τ).loc main_v6_2) ↦{fullShare} W main_v6_2)) := by
  unfold Pipeline.arrBufs
  rw [bigSep_eq_bigSepL_of_eq [main_v5, main_arg1, main_v6_0, main_v6_1, main_v6_2] (by decide) (by decide)]
  rfl

/-- ENTRY, the arrays: the five distinct buffers behind the seven windows make the pipeline's arrays, the
    embeddings' and the labels' buffer each cut in two halves. -/
theorem arrays_in (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_chain, arrays_chain]
  show _ ⊢ iprop(
      (((c : Thread nD τ).loc main_v5) ↦{fullShare.left} V m c main_v5) ∗ (((c : Thread nD τ).loc main_v5) ↦{fullShare.right} V m c main_v5)
      ∗ (((c : Thread nD τ).loc main_arg1) ↦{fullShare.left} V m c main_arg1) ∗ (((c : Thread nD τ).loc main_arg1) ↦{fullShare.right} V m c main_arg1)
      ∗ (((c : Thread nD τ).loc main_v6_0) ↦{fullShare} V m c main_v6_0) ∗ (((c : Thread nD τ).loc main_v6_1) ↦{fullShare} V m c main_v6_1)
      ∗ (((c : Thread nD τ).loc main_v6_2) ↦{fullShare} V m c main_v6_2))
  iintro ⟨H5, H1, H60, H61, H62⟩
  ihave H5 := (halves_split (V m c main_v5)) $$ H5
  icases H5 with ⟨H5l, H5r⟩
  ihave H1 := (halves_split (V m c main_arg1)) $$ H1
  icases H1 with ⟨H1l, H1r⟩
  isplitl [H5l]; · iexact H5l
  isplitl [H5r]; · iexact H5r
  isplitl [H1l]; · iexact H1l
  isplitl [H1r]; · iexact H1r
  isplitl [H60]; · iexact H60
  isplitl [H61]; · iexact H61
  iexact H62

/-- An input's array holds at the exit what it held at the entry. -/
theorem arrAt_in0 (c : Dev nD) : (dats m 0 c).arrAt 0 cfg0.N = V m c main_v5 := ((dats m 0 c).arrAt_in 0 rfl _).trans (A_eq m c 0)
theorem arrAt_in1 (c : Dev nD) : (dats m 0 c).arrAt 1 cfg0.N = V m c main_v5 := ((dats m 0 c).arrAt_in 1 rfl _).trans (A_eq m c 1)
theorem arrAt_in2 (c : Dev nD) : (dats m 0 c).arrAt 2 cfg0.N = V m c main_arg1 := ((dats m 0 c).arrAt_in 2 rfl _).trans (A_eq m c 2)
theorem arrAt_in3 (c : Dev nD) : (dats m 0 c).arrAt 3 cfg0.N = V m c main_arg1 := ((dats m 0 c).arrAt_in 3 rfl _).trans (A_eq m c 3)

/-- EXIT, the arrays: the inputs' halves join (an input's array holds what it held), the results are at what the
    pipeline wrote back: the five buffers at the exit contents. -/
theorem arrays_out (c : Dev nD) :
    (dats m 0 c).arrays ((dats m 0 c).arrAt · cfg0.N)
      ⊢ (Pipeline.arrBufs (Ix := Unit) (Name := ℕ) (U := UR sig nD τ) (Lvl := ℕ) spec0 c (fun b => Vexit m c (Proc.devRef .tc b)) : sProp 𝕄) := by
  rw [arrBufs_chain, arrays_chain]
  beta_reduce
  rw [arrAt_in0, arrAt_in1, arrAt_in2, arrAt_in3, Vexit_out4, Vexit_out5, Vexit_out6,
    Vexit_other m c main_v5 (by decide), Vexit_other m c main_arg1 (by decide)]
  iintro ⟨H5l, H5r, H1l, H1r, H60, H61, H62⟩
  isplitl [H5l H5r]
  · iapply (halves_join (V m c main_v5)); isplitl [H5l] <;> iassumption
  isplitl [H1l H1r]
  · iapply (halves_join (V m c main_arg1)); isplitl [H1l] <;> iassumption
  isplitl [H60]; · iexact H60
  isplitl [H61]; · iexact H61
  iexact H62

/-- The buffers that are no window's array are the same at the exit contents as at the entry contents. -/
theorem rest_exit (c : Dev nD) :
    (Pipeline.unscopedRest (Ix := Unit) (Name := ℕ) (U := UR sig nD τ) (Lvl := ℕ) spec0 c (fun b => Vexit m c (Proc.devRef .tc b)) : sProp 𝕄)
      = Pipeline.unscopedRest spec0 c (V m c) := by
  unfold Pipeline.unscopedRest
  exact bigSep_congr fun b hb => by
    have hb' := (Finset.mem_sdiff.mp hb).2
    beta_reduce
    rw [Vexit_other m c b ⟨fun e => hb' (by rw [e]; exact Finset.mem_image.mpr ⟨4, Finset.mem_univ _, rfl⟩),
      fun e => hb' (by rw [e]; exact Finset.mem_image.mpr ⟨5, Finset.mem_univ _, rfl⟩),
      fun e => hb' (by rw [e]; exact Finset.mem_image.mpr ⟨6, Finset.mem_univ _, rfl⟩)⟩]

/-! ## The segments -/

set_option backward.isDefEq.respectTransparency.types false in
/-- THE REGION: entered from the unscoped buffers at the entry contents, left with them at the exit contents; the
    invariant between its ends is the four scratch columns alone; every unscoped buffer that is no window's array
    bypasses it. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (Vin m c) ∗ R c)
  post c := iprop(StableHlo.held (c : Thread nD τ) (Pipeline.ucRefs τ sig) (Vexit m c) ∗ R c)
  X c := iprop(emp)
  Y c := iprop(emp)
  Z c := Pipeline.unscopedRest spec0 c (V m c)
  hentry c := by
    rw [show StableHlo.held (c : Thread nD τ) (Pipeline.ucRefs τ sig) (Vin m c) = unscopedBufs c (V m c) from (Pipeline.unscopedBufs_held c _).symm,
      Pipeline.unscopedBufs_split₀ cfgs 0 winFacts₀0.arr_unscoped c (V m c)]
    iintro ⟨⟨⟨Hab, Hur⟩, HO⟩, -, -⟩
    ihave Ha := (arrays_in m c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hur
  hin c := by
    refine BIBase.Entails.trans ?_ (Phi_in m c)
    unfold colsAny
    rw [← scopedRest_scratch c]
    iintro ⟨-, -, Hr⟩; iexact Hr
  hout c := by
    refine (Phi_out m c).trans ?_
    unfold colsAny
    rw [← scopedRest_scratch c, Pipeline.ownSems0_none]
    iintro Hr
    isplitr; · iempintro
    isplitr; · iempintro
    iexact Hr
  hexit c := by
    rw [show StableHlo.held (c : Thread nD τ) (Pipeline.ucRefs τ sig) (Vexit m c) = unscopedBufs c (fun b => Vexit m c (Proc.devRef .tc b)) from (Pipeline.unscopedBufs_held c _).symm,
      Pipeline.unscopedBufs_split₀ cfgs 0 winFacts₀0.arr_unscoped c, rest_exit]
    iintro ⟨Ha, HO, -, HZ⟩
    ihave Hab := (arrays_out m c) $$ Ha
    imodintro
    isplitr [HO]
    · isplitl [Hab] <;> iassumption
    · unfold Pipeline.Dat.owesAt Pipeline.owesWithin
      icases HO with ⟨%W, -, HO⟩; iexists W; iexact HO

/-- @main as its eight segments. -/
abbrev segs : List (Pipeline.Seg (pcfgs (F := F)) adm (dats m) () defs₀ 𝒱₀ L lv) :=
  [ .host (hseg hostOps0 hostOps0_sub fresh0 (V₀ m)),
    .host (hseg hostOps0_1 hostOps0_1_sub fresh0_1 (fun c => StableHlo.after hostOps0 (V₀ m c))),
    .region (reg0 m),
    .host (hseg hostOps1 hostOps1_sub fresh1 (Vexit m)),
    .host (hseg hostOps1_1 hostOps1_1_sub fresh1_1 (fun c => StableHlo.after hostOps1 (Vexit m c))),
    .host (hseg hostOps1_2 hostOps1_2_sub fresh1_2 (fun c => StableHlo.after hostOps1_1 (StableHlo.after hostOps1 (Vexit m c)))),
    .host (hseg hostOps1_3 hostOps1_3_sub fresh1_3 (fun c => StableHlo.after hostOps1_2 (StableHlo.after hostOps1_1 (StableHlo.after hostOps1 (Vexit m c))))),
    .host (hseg hostOps1_4 hostOps1_4_sub fresh1_4 (fun c => StableHlo.after hostOps1_3 (StableHlo.after hostOps1_2 (StableHlo.after hostOps1_1 (StableHlo.after hostOps1 (Vexit m c)))))) ]

/-! ## The run -/

set_option backward.isDefEq.respectTransparency.types false in
/-- At the compiled mesh, for any float values, from any memory with zero counters: every weakly fair execution of
    @main on the TensorCores terminates, and every final state has the result at the contents the host stretches
    compute from the region's exit, and both arguments as launched. -/
theorem run_main (ρ : Dev nD → PrngReg) : θ_run defs (onTc (τ := τ) (main (F := F))) ⟨m, fun _ => 0, ρ⟩ (fun r => ∀ c : Dev nD,
      r.2.mem ((c : Thread nD τ).loc main_v22) = Vend m c (Proc.devRef .tc main_v22)
      ∧ r.2.mem ((c : Thread nD τ).loc main_arg0) = m ((c : Thread nD τ).loc main_arg0)
      ∧ r.2.mem ((c : Thread nD τ).loc main_arg1) = m ((c : Thread nD τ).loc main_arg1)) :=
  Pipeline.θ_run_regions_kit (pcfgs (F := F)) adm (dats m) () cellOf_inj EP defs₀ 𝒱₀ L lv m ρ main (segs m)
    (fun c Q => by rw [main_chain c, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Vend m c))
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v22) = Vend m c (Proc.devRef .tc main_v22)
      ∧ s.mem ((c : Thread nD τ).loc main_arg0) = m ((c : Thread nD τ).loc main_arg0)
      ∧ s.mem ((c : Thread nD τ).loc main_arg1) = m ((c : Thread nD τ).loc main_arg1))
    (hfin := fun c s' => by
      rw [show StableHlo.held (c : Thread nD τ) (Pipeline.ucRefs τ sig) (Vend m c) = unscopedBufs c (fun b => Vend m c (Proc.devRef .tc b)) from (Pipeline.unscopedBufs_held c _).symm]
      unfold unscopedBufs
      iintro ⟨Hh, HSI⟩
      ihave Hr := (pointsTo_read_all (Finset.univ.filter fun b : Ref sig .tc => ¬ b.isScoped) (fun b => (c : Thread nD τ).loc b) (fun b => Vend m c (Proc.devRef .tc b)) s') $$ [Hh HSI]
      · isplitl [Hh] <;> iassumption
      icases Hr with ⟨%hr, HSI⟩
      imodintro
      isplitr
      · ipureintro
        exact ⟨hr main_v22 (Finset.mem_filter.mpr ⟨Finset.mem_univ _, by decide⟩),
          (hr main_arg0 (Finset.mem_filter.mpr ⟨Finset.mem_univ _, by decide⟩)).trans (Vend_arg m c main_arg0 (Or.inl rfl)),
          (hr main_arg1 (Finset.mem_filter.mpr ⟨Finset.mem_univ _, by decide⟩)).trans (Vend_arg m c main_arg1 (Or.inr rfl))⟩
      iexact HSI)
    (hQ := fun _ h => h)

end Cert.Kernel.Fr

end
-- ==== Proof.KI.Base.lean ====
/-
  The pairwise-distance kernel's frame, part 1: what every later module is stated over.

  The program normalises the rows of the embedding matrix on the host, then ONE pipelined kernel walks an
  8 x 8 grid of (anchor tile i, key tile j), 512 rows each. At a point it multiplies the anchor tile by the
  key tile, masks the 512 x 512 distances by label equality, reduces each anchor row, and folds the four row
  results into four scratch columns that live across the key axis: they are reset where j = 0 and copied to the
  three output windows where j = 7. Both operands of the product are blocks of ONE array (the normalised
  embeddings), and both label operands blocks of ONE array (the labels): two windows share an array, twice.

  Here: the buffer contents when the region is entered, each window's block of its array at a grid point, the two
  branch conditions in closed form over the 64 points, and at which points an output window is idle.
-/
import proofs.«107534_j40690520162810_1_alg».proof.Proof.Gen.KernelIdeal.Launch
import proofs.«107534_j40690520162810_1_alg».proof.Proof.Gen.KernelIdeal.Skeleton
import proofs.«107534_j40690520162810_1_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Contents at launch and at the region's entry -/

/-- Core `c`'s buffers as launched. -/
abbrev V₀ (c : Dev nD) : Valuation τ sig (Elt F) := fun b => m (c, b)
/-- Core `c`'s buffers when the region is entered: the row norms (five operations) and the division by the
    clamped norm with the change of format (six operations) have run. -/
abbrev Vin (c : Dev nD) : Valuation τ sig (Elt F) := StableHlo.after hostOps0_1 (StableHlo.after hostOps0 (V₀ m c))
/-- The same read at a TensorCore reference. -/
abbrev V (c : Dev nD) (b : Ref sig .tc) : Buf (Elt F) ((c : Thread nD τ).loc b) := Vin m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branches, decided over the grid -/

/-- "This is the first key tile" (the reset branch), as the body computes it from the grid coordinates. -/
abbrev cond0_0 (i : grid0.Coords) : Prop :=
  (Scalar.cmpi .ne (Scalar.extui (Scalar.cmpi .eq (BitVec.ofNat 32 (i 1).val) 0#32)) 0#32) = 1#1
/-- It holds exactly at the points whose key coordinate is 0. -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last key tile" (the write-out branch). -/
abbrev cond0_1 (i : grid0.Coords) : Prop := k0_cond2 i = 1#1
/-- It holds exactly at the points whose key coordinate is 7. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last key tile an output window is idle and is not written back. -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem idleAt0_6 : ∀ t : Fin cfg0.N, ¬cond0_1 (grid0.coords t) → cfg0.idle 6 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
theorem noFlush0_6 : ∀ t : Fin cfg0.N, ¬cond0_1 (grid0.coords t) → (cfg0.win 6).flush t = false := by decide +kernel
/-- At the last key tile it is live. -/
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel
theorem liveAt0_6 : ∀ t : Fin cfg0.N, cond0_1 (grid0.coords t) → cfg0.idle 6 (grid0.coords t) = false := by decide +kernel

/-! ## The memrefs the body is called with -/

abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
/-- The four scratch columns: running hardest-positive, running hardest-negative, "some positive seen",
    "some negative seen". -/
abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2
abbrev scM0_3 : Memref sig .tc .vmem S512x1 .f32 := Memref.whole cc0_scratch3
/-- One view per shape of buffer, through which contents are stated. -/
abbrev VC : View sig .tc .vmem S512x1 .f32 := scM0_0.view

/-- The scoped buffers no window stages are the four scratch columns, each owned at some contents. -/
theorem scopedRest_scratch (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)) := by
  rw [scopedRest0_eq]; simp only [scM0_0, scM0_1, scM0_2, scM0_3, owns_whole]; try rfl

end Cert.KernelIdeal.Fr

end
-- ==== Proof.KI.RunA.lean ====
/-
  The kernel body at the FIRST key tile of an anchor row: whatever the four scratch columns held is overwritten by
  the neutral starting values (minus one for the running maximum of positive distances, three for the running
  minimum of negative distances, zero for the two indicators), then folded with this tile's row results and stored
  back whole. Nothing is written out: the three output buffers are handed back untouched. What each column then
  holds is recorded as the list of its stores (the reset first, the fold over it), found by running the body.
-/
import proofs.«107534_j40690520162810_1_alg».proof.Proof.KI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
noncomputable def kernelRun0_A (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i)
    (x0 : Vec F S512x512 .bf16) (x1 : Vec F S512x512 .bf16) (l0 : Vec F S512 .i32) (l1 : Vec F S512 .i32) :
    Σ' (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi4 xi5 xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare l0 ∗ owns (c : Thread nD τ) arg5 fullShare l1
            ∗ owns (c : Thread nD τ) arg6 fullShare xi4 ∗ owns (c : Thread nD τ) arg7 fullShare xi5 ∗ owns (c : Thread nD τ) arg8 fullShare xi6
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare l0 ∗ owns (c : Thread nD τ) arg5 fullShare l1
                ∗ owns (c : Thread nD τ) arg6 fullShare xi4 ∗ owns (c : Thread nD τ) arg7 fullShare xi5 ∗ owns (c : Thread nD τ) arg8 fullShare xi6
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11 arg12 harg12) K } := by
  refine ⟨?_, ?_, ?_, ?_, fun xi4 xi5 xi6 E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.KernelIdeal.Fr

end
-- ==== Proof.KI.RunB.lean ====
/-
  The kernel body at a MIDDLE key tile (neither the first nor the last of an anchor row's eight): nothing is reset
  and nothing is written out. The four scratch columns are loaded, folded with this tile's row results — the row
  maximum of the masked positive distances, the row minimum of the masked negative distances, and the row maxima of
  the two mask indicators — and stored back whole. What each column then holds is recorded as the list of its
  stores, found by running the body.
-/
import proofs.«107534_j40690520162810_1_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At a middle key tile: from the four input blocks, the three output buffers (handed back untouched) and the four
    scratch columns at what the tile before left, the body runs and leaves each scratch column with its stores written. -/
noncomputable def kernelRun0_B (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i)
    (x0 : Vec F S512x512 .bf16) (x1 : Vec F S512x512 .bf16) (l0 : Vec F S512 .i32) (l1 : Vec F S512 .i32) (xs0 xs1 xs2 xs3 : Vec F S512x1 .f32) :
    Σ' (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi4 xi5 xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare l0 ∗ owns (c : Thread nD τ) arg5 fullShare l1
            ∗ owns (c : Thread nD τ) arg6 fullShare xi4 ∗ owns (c : Thread nD τ) arg7 fullShare xi5 ∗ owns (c : Thread nD τ) arg8 fullShare xi6
            ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare l0 ∗ owns (c : Thread nD τ) arg5 fullShare l1
                ∗ owns (c : Thread nD τ) arg6 fullShare xi4 ∗ owns (c : Thread nD τ) arg7 fullShare xi5 ∗ owns (c : Thread nD τ) arg8 fullShare xi6
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11 arg12 harg12) K } := by
  refine ⟨?_, ?_, ?_, ?_, fun xi4 xi5 xi6 E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.KernelIdeal.Fr

end
-- ==== Proof.KI.RunC.lean ====
/-
  The kernel body at the LAST key tile of an anchor row: the four scratch columns are folded with this tile's row
  results and stored back, and then the finished columns are copied out: the running maximum and the running
  minimum as they are, the two indicators as their product. What each scratch column and each output buffer then
  holds is recorded as the list of its stores, found by running the body.
-/
import proofs.«107534_j40690520162810_1_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
noncomputable def kernelRun0_C (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i)
    (x0 : Vec F S512x512 .bf16) (x1 : Vec F S512x512 .bf16) (l0 : Vec F S512 .i32) (l1 : Vec F S512 .i32) (xs0 xs1 xs2 xs3 : Vec F S512x1 .f32) :
    Σ' (L4 : List (View.Piece (Elt F) S512x1 .f32)) (L5 : List (View.Piece (Elt F) S512x1 .f32)) (L6 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare l0 ∗ owns (c : Thread nD τ) arg5 fullShare l1
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare l0 ∗ owns (c : Thread nD τ) arg5 fullShare l1
                ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, fun E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg9.eq_unread hfs0; obtain rfl := harg10.eq_unread hfs1; obtain rfl := harg11.eq_unread hfs2; obtain rfl := harg12.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    isplitl [HS1]; · iexists _; iexact HS1
    isplitl [HS2]; · iexists _; iexact HS2
    iexists _; iexact HS3

end Cert.KernelIdeal.Fr

end
-- ==== Proof.KI.Frame.lean ====
/-
  The pairwise-distance kernel's frame, part 2: the proof data of the pipeline and the body obligation.

  Along an anchor row's eight key tiles the body is in one of three cases: the first tile (reset, then fold), a
  middle tile (fold), the last tile (fold, then copy out). What the four scratch columns and the three output
  buffers hold after each of the 64 points is defined by recursion on the point from the three cases' runs
  (`outsAt0`); the invariant between points holds the scratch columns at exactly those contents; each input
  window's buffer holds its block of the normalised embeddings or of the labels. Both embedding windows read one
  array and both label windows read one array, so each such window holds HALF of its array's share.
-/
import proofs.«107534_j40690520162810_1_alg».proof.Proof.KI.RunC
import Idealize.ShloMosaic.Lib.Ring

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Stores read back -/

/-- A 512 x 1 column after the stores `L` (last first), read back over contents nothing depends on. -/
def rd (L : List (View.Piece (Elt F) S512x1 .f32)) : Vec F S512x1 .f32 := VC.read (Elt F) (VC.writes (Elt F) VC.junk L)

/-- A buffer whose stores cover it is owned at their read-back. -/
theorem owns_of_writes (c : Dev nD) (a : Memref sig .tc .vmem S512x1 .f32) (L : List (View.Piece (Elt F) S512x1 .f32))
    (hL : ∀ y, ∃ p ∈ L, y ∈ p.1.set) :
    (iprop(∃ f, a.view.loc (c : Thread nD τ) ↦[a.view.set]{fullShare} a.view.writes (Elt F) f L) : sProp 𝕄) ⊢ owns (c : Thread nD τ) a fullShare (rd L) := by
  iintro ⟨%f, H⟩
  unfold owns; iexists _; isplitr
  swap; · iexact H
  ipureintro; exact View.read_writes_of_cover _ _ _ _ _ hL

/-- The three output buffers and the four scratch columns after a point. -/
structure St (F : FTy → Type) [FloatOps F] where
  o4 : Vec F S512x1 .f32
  o5 : Vec F S512x1 .f32
  o6 : Vec F S512x1 .f32
  s0 : Vec F S512x1 .f32
  s1 : Vec F S512x1 .f32
  s2 : Vec F S512x1 .f32
  s3 : Vec F S512x1 .f32

/-! ## Each case's stores cover their buffers -/
theorem coverA_s0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x512 .bf16) (x1 : Vec F S512x512 .bf16) (l0 : Vec F S512 .i32) (l1 : Vec F S512 .i32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 l0 l1).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 l0 l1).1 S512x1.size (by sl_kernel_rfl) y
theorem coverA_s1 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x512 .bf16) (x1 : Vec F S512x512 .bf16) (l0 : Vec F S512 .i32) (l1 : Vec F S512 .i32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 l0 l1).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 l0 l1).2.1 S512x1.size (by sl_kernel_rfl) y
theorem coverA_s2 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x512 .bf16) (x1 : Vec F S512x512 .bf16) (l0 : Vec F S512 .i32) (l1 : Vec F S512 .i32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 l0 l1).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 l0 l1).2.2.1 S512x1.size (by sl_kernel_rfl) y
theorem coverA_s3 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x512 .bf16) (x1 : Vec F S512x512 .bf16) (l0 : Vec F S512 .i32) (l1 : Vec F S512 .i32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 hc0 hc1 x0 x1 l0 l1).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 hc1 x0 x1 l0 l1).2.2.2.1 S512x1.size (by sl_kernel_rfl) y
theorem coverB_s0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x512 .bf16) (x1 : Vec F S512x512 .bf16) (l0 : Vec F S512 .i32) (l1 : Vec F S512 .i32) (xs0 xs1 xs2 xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).1 S512x1.size (by sl_kernel_rfl) y
theorem coverB_s1 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x512 .bf16) (x1 : Vec F S512x512 .bf16) (l0 : Vec F S512 .i32) (l1 : Vec F S512 .i32) (xs0 xs1 xs2 xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.1 S512x1.size (by sl_kernel_rfl) y
theorem coverB_s2 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x512 .bf16) (x1 : Vec F S512x512 .bf16) (l0 : Vec F S512 .i32) (l1 : Vec F S512 .i32) (xs0 xs1 xs2 xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.1 S512x1.size (by sl_kernel_rfl) y
theorem coverB_s3 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x512 .bf16) (x1 : Vec F S512x512 .bf16) (l0 : Vec F S512 .i32) (l1 : Vec F S512 .i32) (xs0 xs1 xs2 xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.2.1 S512x1.size (by sl_kernel_rfl) y
theorem coverC_o4 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x512 .bf16) (x1 : Vec F S512x512 .bf16) (l0 : Vec F S512 .i32) (l1 : Vec F S512 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).1 S512x1.size (by sl_kernel_rfl) y
theorem coverC_o5 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x512 .bf16) (x1 : Vec F S512x512 .bf16) (l0 : Vec F S512 .i32) (l1 : Vec F S512 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.1 S512x1.size (by sl_kernel_rfl) y
theorem coverC_o6 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x512 .bf16) (x1 : Vec F S512x512 .bf16) (l0 : Vec F S512 .i32) (l1 : Vec F S512 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.1 S512x1.size (by sl_kernel_rfl) y
theorem coverC_s0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x512 .bf16) (x1 : Vec F S512x512 .bf16) (l0 : Vec F S512 .i32) (l1 : Vec F S512 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.2.1 S512x1.size (by sl_kernel_rfl) y
theorem coverC_s1 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x512 .bf16) (x1 : Vec F S512x512 .bf16) (l0 : Vec F S512 .i32) (l1 : Vec F S512 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.2.2.1 S512x1.size (by sl_kernel_rfl) y
theorem coverC_s2 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x512 .bf16) (x1 : Vec F S512x512 .bf16) (l0 : Vec F S512 .i32) (l1 : Vec F S512 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.2.2.2.1 S512x1.size (by sl_kernel_rfl) y
theorem coverC_s3 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x512 .bf16) (x1 : Vec F S512x512 .bf16) (l0 : Vec F S512 .i32) (l1 : Vec F S512 .i32) (xs0 xs1 xs2 xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.2.2.2.2.1 S512x1.size (by sl_kernel_rfl) y

/-! ## The three cases at a grid point -/

/-- The first key tile's run at point `t`. -/
abbrev runA (c : Dev nD) (t : Fin cfg0.N) (h0 : t.val % 8 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (fun h => by have := (hcond0_1 t).mp h; omega) (iblk m c 0 t) (iblk m c 1 t) (iblk m c 2 t) (iblk m c 3 t)
/-- A middle key tile's run at point `t`, from the columns `p` the tile before left. -/
abbrev runB (c : Dev nD) (t : Fin cfg0.N) (h0 : ¬t.val % 8 = 0) (h1 : ¬t.val % 8 = 7) (p : St F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) p.s0 p.s1 p.s2 p.s3
/-- The last key tile's run at point `t`, from the columns `p` the tile before left. -/
abbrev runC (c : Dev nD) (t : Fin cfg0.N) (h0 : ¬t.val % 8 = 0) (h1 : t.val % 8 = 7) (p : St F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) p.s0 p.s1 p.s2 p.s3

/-- What the first key tile leaves: the columns reset and folded once; the outputs are not stored (their components
    are placeholders nothing consults). -/
def stA (c : Dev nD) (t : Fin cfg0.N) (h0 : t.val % 8 = 0) : St F :=
  ⟨rd [], rd [], rd [], rd (runA m c t h0).1, rd (runA m c t h0).2.1, rd (runA m c t h0).2.2.1, rd (runA m c t h0).2.2.2.1⟩
/-- What a middle key tile leaves: the columns folded once more. -/
def stB (c : Dev nD) (t : Fin cfg0.N) (h0 : ¬t.val % 8 = 0) (h1 : ¬t.val % 8 = 7) (p : St F) : St F :=
  ⟨rd [], rd [], rd [], rd (runB m c t h0 h1 p).1, rd (runB m c t h0 h1 p).2.1, rd (runB m c t h0 h1 p).2.2.1, rd (runB m c t h0 h1 p).2.2.2.1⟩
/-- What the last key tile leaves: the columns folded once more, and the outputs at the finished columns. -/
def stC (c : Dev nD) (t : Fin cfg0.N) (h0 : ¬t.val % 8 = 0) (h1 : t.val % 8 = 7) (p : St F) : St F :=
  ⟨rd (runC m c t h0 h1 p).1, rd (runC m c t h0 h1 p).2.1, rd (runC m c t h0 h1 p).2.2.1, rd (runC m c t h0 h1 p).2.2.2.1,
   rd (runC m c t h0 h1 p).2.2.2.2.1, rd (runC m c t h0 h1 p).2.2.2.2.2.1, rd (runC m c t h0 h1 p).2.2.2.2.2.2.1⟩

/-! ## The covers at a grid point -/
theorem coverA_s0_at (c : Dev nD) (t : Fin cfg0.N) (h0 : t.val % 8 = 0) (y : S512x1.Idx) : ∃ pc ∈ (runA m c t h0).1, y ∈ pc.1.set :=
  coverA_s0 c _ _ _ _ _ _ _ _ _ _ _ _ _ _ _ _ _ _ _ _ _ _ _ _ _ _ _ _ _ y
theorem coverA_s1_at (c : Dev nD) (t : Fin cfg0.N) (h0 : t.val % 8 = 0) (y : S512x1.Idx) : ∃ pc ∈ (runA m c t h0).2.1, y ∈ pc.1.set :=
  coverA_s1 c _ _ _ _ _ _ _ _ _ _ _ _ _ _ _ _ _ _ _ _ _ _ _ _ _ _ _ _ _ y
theorem coverA_s2_at (c : Dev nD) (t : Fin cfg0.N) (h0 : t.val % 8 = 0) (y : S512x1.Idx) : ∃ pc ∈ (runA m c t h0).2.2.1, y ∈ pc.1.set :=
  coverA_s2 c _ _ _ _ _ _ _ _ _ _ _ _ _ _ _ _ _ _ _ _ _ _ _ _ _ _ _ _ _ y
theorem coverA_s3_at (c : Dev nD) (t : Fin cfg0.N) (h0 : t.val % 8 = 0) (y : S512x1.Idx) : ∃ pc ∈ (runA m c t h0).2.2.2.1, y ∈ pc.1.set :=
  coverA_s3 c _ _ _ _ _ _ _ _ _ _ _ _ _ _ _ _ _ _ _ _ _ _ _ _ _ _ _ _ _ y
theorem coverB_s0_at (c : Dev nD) (t : Fin cfg0.N) (h0 : ¬t.val % 8 = 0) (h1 : ¬t.val % 8 = 7) (p : St F) (y : S512x1.Idx) : ∃ pc ∈ (runB m c t h0 h1 p).1, y ∈ pc.1.set :=
  coverB_s0 c _ _ _ _ _ _ _ _ _ _ _ _ _ _ _ _ _ _ _ _ _ _ _ _ _ _ _ _ _ _ _ _ _ y
theorem coverB_s1_at (c : Dev nD) (t : Fin cfg0.N) (h0 : ¬t.val % 8 = 0) (h1 : ¬t.val % 8 = 7) (p : St F) (y : S512x1.Idx) : ∃ pc ∈ (runB m c t h0 h1 p).2.1, y ∈ pc.1.set :=
  coverB_s1 c _ _ _ _ _ _ _ _ _ _ _ _ _ _ _ _ _ _ _ _ _ _ _ _ _ _ _ _ _ _ _ _ _ y
theorem coverB_s2_at (c : Dev nD) (t : Fin cfg0.N) (h0 : ¬t.val % 8 = 0) (h1 : ¬t.val % 8 = 7) (p : St F) (y : S512x1.Idx) : ∃ pc ∈ (runB m c t h0 h1 p).2.2.1, y ∈ pc.1.set :=
  coverB_s2 c _ _ _ _ _ _ _ _ _ _ _ _ _ _ _ _ _ _ _ _ _ _ _ _ _ _ _ _ _ _ _ _ _ y
theorem coverB_s3_at (c : Dev nD) (t : Fin cfg0.N) (h0 : ¬t.val % 8 = 0) (h1 : ¬t.val % 8 = 7) (p : St F) (y : S512x1.Idx) : ∃ pc ∈ (runB m c t h0 h1 p).2.2.2.1, y ∈ pc.1.set :=
  coverB_s3 c _ _ _ _ _ _ _ _ _ _ _ _ _ _ _ _ _ _ _ _ _ _ _ _ _ _ _ _ _ _ _ _ _ y
theorem coverC_o4_at (c : Dev nD) (t : Fin cfg0.N) (h0 : ¬t.val % 8 = 0) (h1 : t.val % 8 = 7) (p : St F) (y : S512x1.Idx) : ∃ pc ∈ (runC m c t h0 h1 p).1, y ∈ pc.1.set :=
  coverC_o4 c _ _ _ _ _ _ _ _ _ _ _ _ _ _ _ _ _ _ _ _ _ _ _ _ _ _ _ _ _ _ _ _ _ y
theorem coverC_o5_at (c : Dev nD) (t : Fin cfg0.N) (h0 : ¬t.val % 8 = 0) (h1 : t.val % 8 = 7) (p : St F) (y : S512x1.Idx) : ∃ pc ∈ (runC m c t h0 h1 p).2.1, y ∈ pc.1.set :=
  coverC_o5 c _ _ _ _ _ _ _ _ _ _ _ _ _ _ _ _ _ _ _ _ _ _ _ _ _ _ _ _ _ _ _ _ _ y
theorem coverC_o6_at (c : Dev nD) (t : Fin cfg0.N) (h0 : ¬t.val % 8 = 0) (h1 : t.val % 8 = 7) (p : St F) (y : S512x1.Idx) : ∃ pc ∈ (runC m c t h0 h1 p).2.2.1, y ∈ pc.1.set :=
  coverC_o6 c _ _ _ _ _ _ _ _ _ _ _ _ _ _ _ _ _ _ _ _ _ _ _ _ _ _ _ _ _ _ _ _ _ y
theorem coverC_s0_at (c : Dev nD) (t : Fin cfg0.N) (h0 : ¬t.val % 8 = 0) (h1 : t.val % 8 = 7) (p : St F) (y : S512x1.Idx) : ∃ pc ∈ (runC m c t h0 h1 p).2.2.2.1, y ∈ pc.1.set :=
  coverC_s0 c _ _ _ _ _ _ _ _ _ _ _ _ _ _ _ _ _ _ _ _ _ _ _ _ _ _ _ _ _ _ _ _ _ y
theorem coverC_s1_at (c : Dev nD) (t : Fin cfg0.N) (h0 : ¬t.val % 8 = 0) (h1 : t.val % 8 = 7) (p : St F) (y : S512x1.Idx) : ∃ pc ∈ (runC m c t h0 h1 p).2.2.2.2.1, y ∈ pc.1.set :=
  coverC_s1 c _ _ _ _ _ _ _ _ _ _ _ _ _ _ _ _ _ _ _ _ _ _ _ _ _ _ _ _ _ _ _ _ _ y
theorem coverC_s2_at (c : Dev nD) (t : Fin cfg0.N) (h0 : ¬t.val % 8 = 0) (h1 : t.val % 8 = 7) (p : St F) (y : S512x1.Idx) : ∃ pc ∈ (runC m c t h0 h1 p).2.2.2.2.2.1, y ∈ pc.1.set :=
  coverC_s2 c _ _ _ _ _ _ _ _ _ _ _ _ _ _ _ _ _ _ _ _ _ _ _ _ _ _ _ _ _ _ _ _ _ y
theorem coverC_s3_at (c : Dev nD) (t : Fin cfg0.N) (h0 : ¬t.val % 8 = 0) (h1 : t.val % 8 = 7) (p : St F) (y : S512x1.Idx) : ∃ pc ∈ (runC m c t h0 h1 p).2.2.2.2.2.2.1, y ∈ pc.1.set :=
  coverC_s3 c _ _ _ _ _ _ _ _ _ _ _ _ _ _ _ _ _ _ _ _ _ _ _ _ _ _ _ _ _ _ _ _ _ y

/-! ## What the buffers hold after each point -/

/-- THE ACCUMULATION over the grid, by recursion on the point: the case the point's key coordinate selects, a middle
    or last tile run from what the point before left. -/
def outsAt0 (c : Dev nD) : (n : ℕ) → n < cfg0.N → St F
  | 0, hn => stA m c ⟨0, hn⟩ (Nat.zero_mod _)
  | n + 1, hn =>
    if h0 : (n + 1) % 8 = 0 then stA m c ⟨n + 1, hn⟩ h0
    else if h1 : (n + 1) % 8 = 7 then stC m c ⟨n + 1, hn⟩ h0 h1 (outsAt0 c n (Nat.lt_of_succ_lt hn))
    else stB m c ⟨n + 1, hn⟩ h0 h1 (outsAt0 c n (Nat.lt_of_succ_lt hn))

theorem outsAt0_A (c : Dev nD) (t : Fin cfg0.N) (h0 : t.val % 8 = 0) : outsAt0 m c t.val t.isLt = stA m c t h0 := by
  obtain ⟨n, hn⟩ := t
  cases n with
  | zero => rfl
  | succ n => exact dif_pos h0

theorem outsAt0_B (c : Dev nD) (t : Fin cfg0.N) (h0 : ¬t.val % 8 = 0) (h1 : ¬t.val % 8 = 7) :
    outsAt0 m c t.val t.isLt = stB m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 8 = 0) (h1 : t.val % 8 = 7) :
    outsAt0 m c t.val t.isLt = stC m c t h0 h1 (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-! ## The invariant between points -/

/-- The four scratch columns owned at given contents. -/
def colsAt (c : Dev nD) (p : St F) : sProp 𝕄 :=
  iprop(owns (c : Thread nD τ) scM0_0 fullShare p.s0 ∗ owns (c : Thread nD τ) scM0_1 fullShare p.s1
    ∗ owns (c : Thread nD τ) scM0_2 fullShare p.s2 ∗ owns (c : Thread nD τ) scM0_3 fullShare p.s3)
/-- The four scratch columns owned at some contents. -/
def colsAny (c : Dev nD) : sProp 𝕄 :=
  iprop((∃ d, owns (c : Thread nD τ) scM0_0 fullShare d) ∗ (∃ d, owns (c : Thread nD τ) scM0_1 fullShare d)
    ∗ (∃ d, owns (c : Thread nD τ) scM0_2 fullShare d) ∗ (∃ d, owns (c : Thread nD τ) scM0_3 fullShare d))

theorem colsAt_any (c : Dev nD) (p : St F) : (colsAt c p : sProp 𝕄) ⊢ colsAny c := by
  unfold colsAt colsAny
  iintro ⟨H0, H1, H2, H3⟩
  isplitl [H0]; · iexists _; iexact H0
  isplitl [H1]; · iexists _; iexact H1
  isplitl [H2]; · iexists _; iexact H2
  iexists _; iexact H3

/-- Before the first point the scratch columns hold anything; before any later point what the point before left. -/
def PhiS (c : Dev nD) : (n : ℕ) → n ≤ cfg0.N → sProp 𝕄
  | 0, _ => colsAny c
  | n + 1, hn => colsAt c (outsAt0 m c n hn)

theorem PhiS_zero (c : Dev nD) (n : ℕ) (h : n ≤ cfg0.N) (hz : n = 0) : PhiS m c n h = colsAny c := by subst hz; rfl
theorem PhiS_succ (c : Dev nD) (n : ℕ) (hn : n < cfg0.N) : PhiS m c (n + 1) hn = colsAt c (outsAt0 m c n hn) := rfl
theorem PhiS_pos (c : Dev nD) (n : ℕ) (h : n ≤ cfg0.N) (hz : n ≠ 0) :
    PhiS m c n h = colsAt c (outsAt0 m c (n - 1) (by omega)) := by
  cases n with
  | zero => exact absurd rfl hz
  | succ n => rfl

/-! ## The pipeline's proof data -/

/-- The proof data on core `c`: the arrays as the region finds them; after the body each input's buffer at its block,
    each output's at `outsAt0`'s component; the invariant `PhiS`; nothing owed; of the two windows on one array the
    first holds the left half of its share and the second the right half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).o4
    | ⟨5, _⟩ => (outsAt0 m c t.val t.isLt).o5
    | ⟨6, _⟩ => (outsAt0 m c t.val t.isLt).o6
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by dsimp only [dats]

theorem PhiS_castSucc (c : Dev nD) (t : Fin cfg0.N) : (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).o4 := by dsimp only [dats]
theorem after0_5 (c : Dev nD) (t : Fin cfg0.N) : (dats m 0 c).after 5 t = (outsAt0 m c t.val t.isLt).o5 := by dsimp only [dats]
theorem after0_6 (c : Dev nD) (t : Fin cfg0.N) : (dats m 0 c).after 6 t = (outsAt0 m c t.val t.isLt).o6 := by dsimp only [dats]

/-- Input window 0's current buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

/-- Input window 1's current buffer holds its block at every point, fetched there or not. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-- Input window 2's current buffer holds its block at every point, fetched there or not. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-- Input window 3's current buffer holds its block at every point, fetched there or not. -/
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-- Before any point the scratch columns are owned at something. -/
theorem PhiS_any (c : Dev nD) (n : ℕ) (h : n ≤ cfg0.N) : PhiS m c n h ⊢ colsAny c := by
  cases n with
  | zero => exact .rfl
  | succ n => exact colsAt_any c _

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point. The inputs' buffers hold their blocks; the point's key coordinate says which case it is in;
    the invariant hands the body the scratch columns at what the point before left (at anything before the first) and
    takes them back at this point's contents; at the last key tile the output buffers come back at the finished
    columns, elsewhere untouched; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ, PhiS_castSucc m c t]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  have hN : t.val < 64 := lt_of_lt_of_eq t.isLt (show cfg0.N = 64 from N_0)
  by_cases h0 : t.val % 8 = 0
  · have h1 : ¬t.val % 8 = 7 := by omega
    have hc1 : ¬cond0_1 (grid0.coords t) := fun h => h1 ((hcond0_1 t).mp h)
    rw [Dat.leavesExact_idle (dats m 0 c) 4 t (idleAt0_4 t hc1) (noFlush0_4 t hc1)]
    rw [Dat.leavesExact_idle (dats m 0 c) 5 t (idleAt0_5 t hc1) (noFlush0_5 t hc1)]
    rw [Dat.leavesExact_idle (dats m 0 c) 6 t (idleAt0_6 t hc1) (noFlush0_6 t hc1)]
    rw [outsAt0_A m c t h0]
    unfold stA
    iintro ⟨HΦ, Ho, ⟨%d0, H0⟩, ⟨%d1, H1⟩, ⟨%d2, H2⟩, ⟨%d3, H3⟩, ⟨%d4, H4⟩, ⟨%d5, H5⟩, ⟨%d6, H6⟩⟩
    ihave HS := (PhiS_any m c t.val (Nat.le_of_lt t.isLt)) $$ HΦ
    unfold colsAny
    icases HS with ⟨HS0, HS1, HS2, HS3⟩
    iapply ((runA m c t h0).2.2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3]
    · unfold colsAt; dsimp only
      isplitl [HS0]; · iapply (owns_of_writes c scM0_0 _ (coverA_s0_at m c t h0)) $$ HS0
      isplitl [HS1]; · iapply (owns_of_writes c scM0_1 _ (coverA_s1_at m c t h0)) $$ HS1
      isplitl [HS2]; · iapply (owns_of_writes c scM0_2 _ (coverA_s2_at m c t h0)) $$ HS2
      iapply (owns_of_writes c scM0_3 _ (coverA_s3_at m c t h0)) $$ HS3
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexists _; iexact H6
  · have hz : t.val ≠ 0 := fun e => h0 (by rw [e])
    rw [PhiS_pos m c _ _ hz]
    by_cases h1 : t.val % 8 = 7
    · have hc1 : cond0_1 (grid0.coords t) := (hcond0_1 t).mpr h1
      rw [show (dats m 0 c).leavesExact 4 t = owns (c : Thread nD τ) (ms0_4 t) fullShare ((dats m 0 c).after 4 t) from by
        unfold Dat.leavesExact; rw [liveAt0_4 t hc1], after0_4]
      rw [show (dats m 0 c).leavesExact 5 t = owns (c : Thread nD τ) (ms0_5 t) fullShare ((dats m 0 c).after 5 t) from by
        unfold Dat.leavesExact; rw [liveAt0_5 t hc1], after0_5]
      rw [show (dats m 0 c).leavesExact 6 t = owns (c : Thread nD τ) (ms0_6 t) fullShare ((dats m 0 c).after 6 t) from by
        unfold Dat.leavesExact; rw [liveAt0_6 t hc1], after0_6]
      rw [outsAt0_C m c t h0 h1]
      unfold stC colsAt
      iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩⟩
      iapply ((runC m c t h0 h1 _).2.2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, H6, HS0, HS1, HS2, HS3⟩
      isplitl [HS0 HS1 HS2 HS3]
      · dsimp only
        isplitl [HS0]; · iapply (owns_of_writes c scM0_0 _ (coverC_s0_at m c t h0 h1 _)) $$ HS0
        isplitl [HS1]; · iapply (owns_of_writes c scM0_1 _ (coverC_s1_at m c t h0 h1 _)) $$ HS1
        isplitl [HS2]; · iapply (owns_of_writes c scM0_2 _ (coverC_s2_at m c t h0 h1 _)) $$ HS2
        iapply (owns_of_writes c scM0_3 _ (coverC_s3_at m c t h0 h1 _)) $$ HS3
      isplitl [Ho]; · iexact Ho
      isplitl [H0]; · iexact H0
      isplitl [H1]; · iexact H1
      isplitl [H2]; · iexact H2
      isplitl [H3]; · iexact H3
      dsimp only
      isplitl [H4]; · iapply (owns_of_writes c (ms0_4 t) _ (coverC_o4_at m c t h0 h1 _)) $$ H4
      isplitl [H5]; · iapply (owns_of_writes c (ms0_5 t) _ (coverC_o5_at m c t h0 h1 _)) $$ H5
      iapply (owns_of_writes c (ms0_6 t) _ (coverC_o6_at m c t h0 h1 _)) $$ H6
    · have hc1 : ¬cond0_1 (grid0.coords t) := fun h => h1 ((hcond0_1 t).mp h)
      rw [Dat.leavesExact_idle (dats m 0 c) 4 t (idleAt0_4 t hc1) (noFlush0_4 t hc1)]
      rw [Dat.leavesExact_idle (dats m 0 c) 5 t (idleAt0_5 t hc1) (noFlush0_5 t hc1)]
      rw [Dat.leavesExact_idle (dats m 0 c) 6 t (idleAt0_6 t hc1) (noFlush0_6 t hc1)]
      rw [outsAt0_B m c t h0 h1]
      unfold stB colsAt
      iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩⟩
      iapply ((runB m c t h0 h1 _).2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, HS0, HS1, HS2, HS3⟩
      isplitl [HS0 HS1 HS2 HS3]
      · dsimp only
        isplitl [HS0]; · iapply (owns_of_writes c scM0_0 _ (coverB_s0_at m c t h0 h1 _)) $$ HS0
        isplitl [HS1]; · iapply (owns_of_writes c scM0_1 _ (coverB_s1_at m c t h0 h1 _)) $$ HS1
        isplitl [HS2]; · iapply (owns_of_writes c scM0_2 _ (coverB_s2_at m c t h0 h1 _)) $$ HS2
        iapply (owns_of_writes c scM0_3 _ (coverB_s3_at m c t h0 h1 _)) $$ HS3
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- Any contents of the scratch columns make the invariant before the first point. -/
theorem Phi_in (c : Dev nD) : (colsAny c : sProp 𝕄) ⊢ (dats m 0 c).Φ 0 := by
  rw [show (dats m 0 c).Φ 0 = PhiS m c 0 (Nat.zero_le _) from rfl, PhiS_zero m c 0 _ rfl]

/-- After the last point the invariant gives the scratch columns back at something. -/
theorem Phi_out (c : Dev nD) : (dats m 0 c).Φ (Fin.last cfg0.N) ⊢ (colsAny c : sProp 𝕄) := by
  rw [show (dats m 0 c).Φ (Fin.last cfg0.N) = PhiS m c (Fin.last cfg0.N).val (Nat.le_of_lt_succ (Fin.last cfg0.N).isLt) from rfl]
  exact PhiS_any m c _ _

end Cert.KernelIdeal.Fr

end
-- ==== Proof.KI.Launch.lean ====
/-
  The pairwise-distance kernel's frame, part 3: the launch.

  @main is two host stretches (the row norms; the division by the clamped norm and the change of format), ONE
  kernel region, and five host stretches that reduce the three result columns to the loss. Here the pieces are put
  in a row: each host stretch takes the core's unscoped buffers from one valuation to the next; the region takes
  them from the contents at its entry to the contents at its exit, which differ in the three result arrays only.

  Both embedding windows read one array and both label windows read one array. At the region's entry that array's
  points-to is cut along its share, the left half to the first window on it and the right half to the second; at the
  exit an input's array holds what it held, so the two halves agree and join to the full share again.
-/
import proofs.«107534_j40690520162810_1_alg».proof.Proof.KI.Frame
import Idealize.ShloMosaic.Lib.Pipeline.Frame
import Idealize.ShloMosaic.Lib.Pipeline.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Contents at the region's exit and at the end -/

/-- Core `c`'s buffers when the region is left: the three result arrays at what the pipeline wrote back over the
    64 points, every other buffer as the region found it. -/
def Vexit (c : Dev nD) : Valuation τ sig (Elt F) :=
  Function.update (Function.update (Function.update (Vin m c)
    (Proc.devRef .tc main_v6_0) ((dats m 0 c).arrAt 4 cfg0.N))
    (Proc.devRef .tc main_v6_1) ((dats m 0 c).arrAt 5 cfg0.N))
    (Proc.devRef .tc main_v6_2) ((dats m 0 c).arrAt 6 cfg0.N)

/-- Core `c`'s buffers at the return: the five host stretches after the region have run. -/
abbrev Vend (c : Dev nD) : Valuation τ sig (Elt F) :=
  StableHlo.after hostOps1_4 (StableHlo.after hostOps1_3 (StableHlo.after hostOps1_2 (StableHlo.after hostOps1_1
    (StableHlo.after hostOps1 (Vexit m c)))))

theorem Vexit_out4 (c : Dev nD) : Vexit m c (Proc.devRef .tc main_v6_0) = (dats m 0 c).arrAt 4 cfg0.N := by
  unfold Vexit
  rw [Function.update_of_ne (StableHlo.devRef_ne_of_ne (by decide)), Function.update_of_ne (StableHlo.devRef_ne_of_ne (by decide)),
    Function.update_self]
theorem Vexit_out5 (c : Dev nD) : Vexit m c (Proc.devRef .tc main_v6_1) = (dats m 0 c).arrAt 5 cfg0.N := by
  unfold Vexit
  rw [Function.update_of_ne (StableHlo.devRef_ne_of_ne (by decide)), Function.update_self]
theorem Vexit_out6 (c : Dev nD) : Vexit m c (Proc.devRef .tc main_v6_2) = (dats m 0 c).arrAt 6 cfg0.N := by
  unfold Vexit
  rw [Function.update_self]
/-- A buffer that is none of the three results leaves the region as it entered. -/
theorem Vexit_other (c : Dev nD) (b : Ref sig .tc) (h : b ≠ main_v6_0 ∧ b ≠ main_v6_1 ∧ b ≠ main_v6_2) :
    Vexit m c (Proc.devRef .tc b) = V m c b := by
  unfold Vexit
  rw [Function.update_of_ne (StableHlo.devRef_ne_of_ne h.2.2), Function.update_of_ne (StableHlo.devRef_ne_of_ne h.2.1),
    Function.update_of_ne (StableHlo.devRef_ne_of_ne h.1)]

/-! ## The two arguments are never written -/

theorem nw0 (b : Ref sig .tc) (hb : b = main_arg0 ∨ b = main_arg1) : ∀ op ∈ (hostOps0 (F := F)), Proc.devRef .tc b ∉ op.writes := by
  rcases hb with rfl | rfl <;> exact by
    refine List.forall_iff_forall_mem.mp ?_
    refine ⟨?_, ?_, ?_, ?_, ?_⟩ <;> (show _ ∉ _) <;>
      simp only [StableHlo.nullary_writes, StableHlo.unary_writes, StableHlo.binary_writes, StableHlo.ternary_writes, StableHlo.reshape_writes, Finset.mem_singleton] <;>
      exact fun e => absurd (Proc.devRef_injective _ e) (by decide)
theorem nw0_1 (b : Ref sig .tc) (hb : b = main_arg0 ∨ b = main_arg1) : ∀ op ∈ (hostOps0_1 (F := F)), Proc.devRef .tc b ∉ op.writes := by
  rcases hb with rfl | rfl <;> exact by
    refine List.forall_iff_forall_mem.mp ?_
    refine ⟨?_, ?_, ?_, ?_, ?_, ?_⟩ <;> (show _ ∉ _) <;>
      simp only [StableHlo.nullary_writes, StableHlo.unary_writes, StableHlo.binary_writes, StableHlo.ternary_writes, StableHlo.reshape_writes, Finset.mem_singleton] <;>
      exact fun e => absurd (Proc.devRef_injective _ e) (by decide)
theorem nw1 (b : Ref sig .tc) (hb : b = main_arg0 ∨ b = main_arg1) : ∀ op ∈ (hostOps1 (F := F)), Proc.devRef .tc b ∉ op.writes := by
  rcases hb with rfl | rfl <;> exact by
    refine List.forall_iff_forall_mem.mp ?_
    refine ⟨?_, ?_, ?_, ?_, ?_, ?_, ?_, ?_, ?_, ?_⟩ <;> (show _ ∉ _) <;>
      simp only [StableHlo.nullary_writes, StableHlo.unary_writes, StableHlo.binary_writes, StableHlo.ternary_writes, StableHlo.reshape_writes, Finset.mem_singleton] <;>
      exact fun e => absurd (Proc.devRef_injective _ e) (by decide)
theorem nw1_1 (b : Ref sig .tc) (hb : b = main_arg0 ∨ b = main_arg1) : ∀ op ∈ (hostOps1_1 (F := F)), Proc.devRef .tc b ∉ op.writes := by
  rcases hb with rfl | rfl <;> exact by
    refine List.forall_iff_forall_mem.mp ?_
    refine ⟨?_, ?_, ?_⟩ <;> (show _ ∉ _) <;>
      simp only [StableHlo.nullary_writes, StableHlo.unary_writes, StableHlo.binary_writes, StableHlo.ternary_writes, StableHlo.reshape_writes, Finset.mem_singleton] <;>
      exact fun e => absurd (Proc.devRef_injective _ e) (by decide)
theorem nw1_2 (b : Ref sig .tc) (hb : b = main_arg0 ∨ b = main_arg1) : ∀ op ∈ (hostOps1_2 (F := F)), Proc.devRef .tc b ∉ op.writes := by
  rcases hb with rfl | rfl <;> exact by
    refine List.forall_iff_forall_mem.mp ?_
    show _ ∉ _
    simp only [StableHlo.nullary_writes, StableHlo.unary_writes, StableHlo.binary_writes, StableHlo.ternary_writes, StableHlo.reshape_writes, Finset.mem_singleton]
    exact fun e => absurd (Proc.devRef_injective _ e) (by decide)
theorem nw1_3 (b : Ref sig .tc) (hb : b = main_arg0 ∨ b = main_arg1) : ∀ op ∈ (hostOps1_3 (F := F)), Proc.devRef .tc b ∉ op.writes := by
  rcases hb with rfl | rfl <;> exact by
    refine List.forall_iff_forall_mem.mp ?_
    refine ⟨?_, ?_, ?_⟩ <;> (show _ ∉ _) <;>
      simp only [StableHlo.nullary_writes, StableHlo.unary_writes, StableHlo.binary_writes, StableHlo.ternary_writes, StableHlo.reshape_writes, Finset.mem_singleton] <;>
      exact fun e => absurd (Proc.devRef_injective _ e) (by decide)
theorem nw1_4 (b : Ref sig .tc) (hb : b = main_arg0 ∨ b = main_arg1) : ∀ op ∈ (hostOps1_4 (F := F)), Proc.devRef .tc b ∉ op.writes := by
  rcases hb with rfl | rfl <;> exact by
    refine List.forall_iff_forall_mem.mp ?_
    refine ⟨?_, ?_, ?_, ?_, ?_, ?_, ?_, ?_, ?_⟩ <;> (show _ ∉ _) <;>
      simp only [StableHlo.nullary_writes, StableHlo.unary_writes, StableHlo.binary_writes, StableHlo.ternary_writes, StableHlo.reshape_writes, Finset.mem_singleton] <;>
      exact fun e => absurd (Proc.devRef_injective _ e) (by decide)

/-- An argument reaches the region as launched, -/
theorem V_arg (c : Dev nD) (b : Ref sig .tc) (hb : b = main_arg0 ∨ b = main_arg1) : V m c b = m ((c : Thread nD τ).loc b) :=
  (StableHlo.after_of_forall_not_mem (b := Proc.devRef .tc b) hostOps0_1 _ (nw0_1 b hb)).trans
    (StableHlo.after_of_forall_not_mem (b := Proc.devRef .tc b) hostOps0 (V₀ m c) (nw0 b hb))
/-- and the return likewise. -/
theorem Vend_arg (c : Dev nD) (b : Ref sig .tc) (hb : b = main_arg0 ∨ b = main_arg1) :
    Vend m c (Proc.devRef .tc b) = m ((c : Thread nD τ).loc b) := by
  unfold Vend
  rw [StableHlo.after_of_forall_not_mem hostOps1_4 _ (nw1_4 b hb), StableHlo.after_of_forall_not_mem hostOps1_3 _ (nw1_3 b hb),
    StableHlo.after_of_forall_not_mem hostOps1_2 _ (nw1_2 b hb), StableHlo.after_of_forall_not_mem hostOps1_1 _ (nw1_1 b hb),
    StableHlo.after_of_forall_not_mem hostOps1 _ (nw1 b hb),
    Vexit_other m c b (by rcases hb with rfl | rfl <;> decide), V_arg m c b hb]

/-! ## The launch's fixed data -/

/-- The pipeline library's algebra is the certificate's. -/
abbrev EP : Emb (UR sig nD τ) (MT nD τ sig Unit (Elt F) ℕ (UR sig nD τ) ℕ) := emb₁
/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm
abbrev 𝒱₀ : Variants := Variants.none

/-- What rides beside the buffers through every segment: the core owes nothing. -/
abbrev R (c : Dev nD) : sProp 𝕄 := iprop(∃ W, owes (c : Thread nD τ) (0 : CellTallies nD τ sig Unit) W)

/-- A host stretch over the core's unscoped buffers, from the valuation `W`. -/
def hseg (ops : List (HloOp τ sig (Elt F))) (hsub : ops.Forall fun op => op.bufs ⊆ StableHlo.tcRefs τ sig)
    (hf : ∀ op ∈ ops, op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h)) hf W R

theorem fresh0 : ∀ op ∈ (hostOps0 (F := F)), op.fresh = ∅ := by
  intro _ h; (repeat (cases h with | head => rfl | tail _ h => ?_)); exact nomatch h
theorem fresh0_1 : ∀ op ∈ (hostOps0_1 (F := F)), op.fresh = ∅ := by
  intro _ h; (repeat (cases h with | head => rfl | tail _ h => ?_)); exact nomatch h
theorem fresh1 : ∀ op ∈ (hostOps1 (F := F)), op.fresh = ∅ := by
  intro _ h; (repeat (cases h with | head => rfl | tail _ h => ?_)); exact nomatch h
theorem fresh1_1 : ∀ op ∈ (hostOps1_1 (F := F)), op.fresh = ∅ := by
  intro _ h; (repeat (cases h with | head => rfl | tail _ h => ?_)); exact nomatch h
theorem fresh1_2 : ∀ op ∈ (hostOps1_2 (F := F)), op.fresh = ∅ := by
  intro _ h; (repeat (cases h with | head => rfl | tail _ h => ?_)); exact nomatch h
theorem fresh1_3 : ∀ op ∈ (hostOps1_3 (F := F)), op.fresh = ∅ := by
  intro _ h; (repeat (cases h with | head => rfl | tail _ h => ?_)); exact nomatch h
theorem fresh1_4 : ∀ op ∈ (hostOps1_4 (F := F)), op.fresh = ∅ := by
  intro _ h; (repeat (cases h with | head => rfl | tail _ h => ?_)); exact nomatch h

/-! ## One array, two windows: the share cut in two and joined again -/

/-- A whole buffer at the full share is its two halves at the same contents. -/
theorem halves_split {ℓ : Loc nD τ sig} (f : Buf (Elt F) ℓ) :
    (ℓ ↦{fullShare} f : sProp 𝕄) ⊢ iprop((ℓ ↦{fullShare.left} f) ∗ ℓ ↦{fullShare.right} f) :=
  (pointsTo_share (PosShare.mem_left_op_right fullShare)).1
/-- The two halves at the same contents are the whole. -/
theorem halves_join {ℓ : Loc nD τ sig} (f : Buf (Elt F) ℓ) :
    (iprop((ℓ ↦{fullShare.left} f) ∗ ℓ ↦{fullShare.right} f) : sProp 𝕄) ⊢ ℓ ↦{fullShare} f :=
  (pointsTo_share (PosShare.mem_left_op_right fullShare)).2

/-- The pipeline's arrays, window by window: each whole array at its window's share. -/
theorem arrays_chain (c : Dev nD) (G : (w : Fin cfg0.W) → Buf (Elt F) ((cfg0.win w).arr.view.loc (c : Thread nD τ))) :
    ((dats m 0 c).arrays G : sProp 𝕄) = iprop(
      (((c : Thread nD τ).loc main_v5) ↦{fullShare.left} G 0) ∗ (((c : Thread nD τ).loc main_v5) ↦{fullShare.right} G 1)
      ∗ (((c : Thread nD τ).loc main_arg1) ↦{fullShare.left} G 2) ∗ (((c : Thread nD τ).loc main_arg1) ↦{fullShare.right} G 3)
      ∗ (((c : Thread nD τ).loc main_v6_0) ↦{fullShare} G 4) ∗ (((c : Thread nD τ).loc main_v6_1) ↦{fullShare} G 5)
      ∗ (((c : Thread nD τ).loc main_v6_2) ↦{fullShare} G 6)) := by
  have h1 : ((dats m 0 c).arrays G : sProp 𝕄)
      = bigSep Finset.univ fun w : Fin 7 => (((c : Thread nD τ).loc (Pipeline.arrRef spec0 w)) ↦{(dats m 0 c).share w} G w : sProp 𝕄) := by
    unfold Dat.arrays
    exact bigSep_congr fun w _ => by rw [(arr_whole0 w).set_eq_univ]
  rw [h1, bigSep_W0]
  rfl

/-- The five distinct buffers behind the seven windows, one by one. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄) = iprop(
      (((c : Thread nD τ).loc main_v5) ↦{fullShare} W main_v5) ∗ (((c : Thread nD τ).loc main_arg1) ↦{fullShare} W main_arg1)
      ∗ (((c : Thread nD τ).loc main_v6_0) ↦{fullShare} W main_v6_0) ∗ (((c : Thread nD τ).loc main_v6_1) ↦{fullShare} W main_v6_1)
      ∗ (((c : Thread nD τ).loc main_v6_2) ↦{fullShare} W main_v6_2)) := by
  unfold Pipeline.arrBufs
  rw [bigSep_eq_bigSepL_of_eq [main_v5, main_arg1, main_v6_0, main_v6_1, main_v6_2] (by decide) (by decide)]
  rfl

/-- ENTRY, the arrays: the five distinct buffers behind the seven windows make the pipeline's arrays, the
    embeddings' and the labels' buffer each cut in two halves. -/
theorem arrays_in (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_chain, arrays_chain]
  show _ ⊢ iprop(
      (((c : Thread nD τ).loc main_v5) ↦{fullShare.left} V m c main_v5) ∗ (((c : Thread nD τ).loc main_v5) ↦{fullShare.right} V m c main_v5)
      ∗ (((c : Thread nD τ).loc main_arg1) ↦{fullShare.left} V m c main_arg1) ∗ (((c : Thread nD τ).loc main_arg1) ↦{fullShare.right} V m c main_arg1)
      ∗ (((c : Thread nD τ).loc main_v6_0) ↦{fullShare} V m c main_v6_0) ∗ (((c : Thread nD τ).loc main_v6_1) ↦{fullShare} V m c main_v6_1)
      ∗ (((c : Thread nD τ).loc main_v6_2) ↦{fullShare} V m c main_v6_2))
  iintro ⟨H5, H1, H60, H61, H62⟩
  ihave H5 := (halves_split (V m c main_v5)) $$ H5
  icases H5 with ⟨H5l, H5r⟩
  ihave H1 := (halves_split (V m c main_arg1)) $$ H1
  icases H1 with ⟨H1l, H1r⟩
  isplitl [H5l]; · iexact H5l
  isplitl [H5r]; · iexact H5r
  isplitl [H1l]; · iexact H1l
  isplitl [H1r]; · iexact H1r
  isplitl [H60]; · iexact H60
  isplitl [H61]; · iexact H61
  iexact H62

/-- An input's array holds at the exit what it held at the entry. -/
theorem arrAt_in0 (c : Dev nD) : (dats m 0 c).arrAt 0 cfg0.N = V m c main_v5 := ((dats m 0 c).arrAt_in 0 rfl _).trans (A_eq m c 0)
theorem arrAt_in1 (c : Dev nD) : (dats m 0 c).arrAt 1 cfg0.N = V m c main_v5 := ((dats m 0 c).arrAt_in 1 rfl _).trans (A_eq m c 1)
theorem arrAt_in2 (c : Dev nD) : (dats m 0 c).arrAt 2 cfg0.N = V m c main_arg1 := ((dats m 0 c).arrAt_in 2 rfl _).trans (A_eq m c 2)
theorem arrAt_in3 (c : Dev nD) : (dats m 0 c).arrAt 3 cfg0.N = V m c main_arg1 := ((dats m 0 c).arrAt_in 3 rfl _).trans (A_eq m c 3)

/-- EXIT, the arrays: the inputs' halves join (an input's array holds what it held), the results are at what the
    pipeline wrote back: the five buffers at the exit contents. -/
theorem arrays_out (c : Dev nD) :
    (dats m 0 c).arrays ((dats m 0 c).arrAt · cfg0.N)
      ⊢ (Pipeline.arrBufs (Ix := Unit) (Name := ℕ) (U := UR sig nD τ) (Lvl := ℕ) spec0 c (fun b => Vexit m c (Proc.devRef .tc b)) : sProp 𝕄) := by
  rw [arrBufs_chain, arrays_chain]
  beta_reduce
  rw [arrAt_in0, arrAt_in1, arrAt_in2, arrAt_in3, Vexit_out4, Vexit_out5, Vexit_out6,
    Vexit_other m c main_v5 (by decide), Vexit_other m c main_arg1 (by decide)]
  iintro ⟨H5l, H5r, H1l, H1r, H60, H61, H62⟩
  isplitl [H5l H5r]
  · iapply (halves_join (V m c main_v5)); isplitl [H5l] <;> iassumption
  isplitl [H1l H1r]
  · iapply (halves_join (V m c main_arg1)); isplitl [H1l] <;> iassumption
  isplitl [H60]; · iexact H60
  isplitl [H61]; · iexact H61
  iexact H62

/-- The buffers that are no window's array are the same at the exit contents as at the entry contents. -/
theorem rest_exit (c : Dev nD) :
    (Pipeline.unscopedRest (Ix := Unit) (Name := ℕ) (U := UR sig nD τ) (Lvl := ℕ) spec0 c (fun b => Vexit m c (Proc.devRef .tc b)) : sProp 𝕄)
      = Pipeline.unscopedRest spec0 c (V m c) := by
  unfold Pipeline.unscopedRest
  exact bigSep_congr fun b hb => by
    have hb' := (Finset.mem_sdiff.mp hb).2
    beta_reduce
    rw [Vexit_other m c b ⟨fun e => hb' (by rw [e]; exact Finset.mem_image.mpr ⟨4, Finset.mem_univ _, rfl⟩),
      fun e => hb' (by rw [e]; exact Finset.mem_image.mpr ⟨5, Finset.mem_univ _, rfl⟩),
      fun e => hb' (by rw [e]; exact Finset.mem_image.mpr ⟨6, Finset.mem_univ _, rfl⟩)⟩]

/-! ## The segments -/

set_option backward.isDefEq.respectTransparency.types false in
/-- THE REGION: entered from the unscoped buffers at the entry contents, left with them at the exit contents; the
    invariant between its ends is the four scratch columns alone; every unscoped buffer that is no window's array
    bypasses it. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (Vin m c) ∗ R c)
  post c := iprop(StableHlo.held (c : Thread nD τ) (Pipeline.ucRefs τ sig) (Vexit m c) ∗ R c)
  X c := iprop(emp)
  Y c := iprop(emp)
  Z c := Pipeline.unscopedRest spec0 c (V m c)
  hentry c := by
    rw [show StableHlo.held (c : Thread nD τ) (Pipeline.ucRefs τ sig) (Vin m c) = unscopedBufs c (V m c) from (Pipeline.unscopedBufs_held c _).symm,
      Pipeline.unscopedBufs_split₀ cfgs 0 winFacts₀0.arr_unscoped c (V m c)]
    iintro ⟨⟨⟨Hab, Hur⟩, HO⟩, -, -⟩
    ihave Ha := (arrays_in m c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hur
  hin c := by
    refine BIBase.Entails.trans ?_ (Phi_in m c)
    unfold colsAny
    rw [← scopedRest_scratch c]
    iintro ⟨-, -, Hr⟩; iexact Hr
  hout c := by
    refine (Phi_out m c).trans ?_
    unfold colsAny
    rw [← scopedRest_scratch c, Pipeline.ownSems0_none]
    iintro Hr
    isplitr; · iempintro
    isplitr; · iempintro
    iexact Hr
  hexit c := by
    rw [show StableHlo.held (c : Thread nD τ) (Pipeline.ucRefs τ sig) (Vexit m c) = unscopedBufs c (fun b => Vexit m c (Proc.devRef .tc b)) from (Pipeline.unscopedBufs_held c _).symm,
      Pipeline.unscopedBufs_split₀ cfgs 0 winFacts₀0.arr_unscoped c, rest_exit]
    iintro ⟨Ha, HO, -, HZ⟩
    ihave Hab := (arrays_out m c) $$ Ha
    imodintro
    isplitr [HO]
    · isplitl [Hab] <;> iassumption
    · unfold Pipeline.Dat.owesAt Pipeline.owesWithin
      icases HO with ⟨%W, -, HO⟩; iexists W; iexact HO

/-- @main as its eight segments. -/
abbrev segs : List (Pipeline.Seg (pcfgs (F := F)) adm (dats m) () defs₀ 𝒱₀ L lv) :=
  [ .host (hseg hostOps0 hostOps0_sub fresh0 (V₀ m)),
    .host (hseg hostOps0_1 hostOps0_1_sub fresh0_1 (fun c => StableHlo.after hostOps0 (V₀ m c))),
    .region (reg0 m),
    .host (hseg hostOps1 hostOps1_sub fresh1 (Vexit m)),
    .host (hseg hostOps1_1 hostOps1_1_sub fresh1_1 (fun c => StableHlo.after hostOps1 (Vexit m c))),
    .host (hseg hostOps1_2 hostOps1_2_sub fresh1_2 (fun c => StableHlo.after hostOps1_1 (StableHlo.after hostOps1 (Vexit m c)))),
    .host (hseg hostOps1_3 hostOps1_3_sub fresh1_3 (fun c => StableHlo.after hostOps1_2 (StableHlo.after hostOps1_1 (StableHlo.after hostOps1 (Vexit m c))))),
    .host (hseg hostOps1_4 hostOps1_4_sub fresh1_4 (fun c => StableHlo.after hostOps1_3 (StableHlo.after hostOps1_2 (StableHlo.after hostOps1_1 (StableHlo.after hostOps1 (Vexit m c)))))) ]

/-! ## The run -/

set_option backward.isDefEq.respectTransparency.types false in
/-- At the compiled mesh, for any float values, from any memory with zero counters: every weakly fair execution of
    @main on the TensorCores terminates, and every final state has the result at the contents the host stretches
    compute from the region's exit, and both arguments as launched. -/
theorem run_main (ρ : Dev nD → PrngReg) : θ_run defs (onTc (τ := τ) (main (F := F))) ⟨m, fun _ => 0, ρ⟩ (fun r => ∀ c : Dev nD,
      r.2.mem ((c : Thread nD τ).loc main_v22) = Vend m c (Proc.devRef .tc main_v22)
      ∧ r.2.mem ((c : Thread nD τ).loc main_arg0) = m ((c : Thread nD τ).loc main_arg0)
      ∧ r.2.mem ((c : Thread nD τ).loc main_arg1) = m ((c : Thread nD τ).loc main_arg1)) :=
  Pipeline.θ_run_regions_kit (pcfgs (F := F)) adm (dats m) () cellOf_inj EP defs₀ 𝒱₀ L lv m ρ main (segs m)
    (fun c Q => by rw [main_chain c, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Vend m c))
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v22) = Vend m c (Proc.devRef .tc main_v22)
      ∧ s.mem ((c : Thread nD τ).loc main_arg0) = m ((c : Thread nD τ).loc main_arg0)
      ∧ s.mem ((c : Thread nD τ).loc main_arg1) = m ((c : Thread nD τ).loc main_arg1))
    (hfin := fun c s' => by
      rw [show StableHlo.held (c : Thread nD τ) (Pipeline.ucRefs τ sig) (Vend m c) = unscopedBufs c (fun b => Vend m c (Proc.devRef .tc b)) from (Pipeline.unscopedBufs_held c _).symm]
      unfold unscopedBufs
      iintro ⟨Hh, HSI⟩
      ihave Hr := (pointsTo_read_all (Finset.univ.filter fun b : Ref sig .tc => ¬ b.isScoped) (fun b => (c : Thread nD τ).loc b) (fun b => Vend m c (Proc.devRef .tc b)) s') $$ [Hh HSI]
      · isplitl [Hh] <;> iassumption
      icases Hr with ⟨%hr, HSI⟩
      imodintro
      isplitr
      · ipureintro
        exact ⟨hr main_v22 (Finset.mem_filter.mpr ⟨Finset.mem_univ _, by decide⟩),
          (hr main_arg0 (Finset.mem_filter.mpr ⟨Finset.mem_univ _, by decide⟩)).trans (Vend_arg m c main_arg0 (Or.inl rfl)),
          (hr main_arg1 (Finset.mem_filter.mpr ⟨Finset.mem_univ _, by decide⟩)).trans (Vend_arg m c main_arg1 (Or.inr rfl))⟩
      iexact HSI)
    (hQ := fun _ h => h)

end Cert.KernelIdeal.Fr

end
-- ==== Proof.KI.Arrays.lean ====
/-
  The pairwise-distance kernel, from blocks to arrays.

  A grid point t = 8 a + j has anchor tile a and key tile j. Each input window's block at the point is a run of 512
  consecutive rows of its whole array: rows 512 a ... of the normalised embeddings (window 0) and of the labels
  (window 2), rows 512 j ... of the same two arrays (windows 1 and 3). Each output array is written back only at an
  anchor row's last key tile, t = 8 a + 7, whose block is rows 512 a ... of the array; the eight such blocks tile the
  4096 rows, so row 512 a + p of an output array ends at entry p of what point 8 a + 7 left in the output buffer.
-/
import proofs.«107534_j40690520162810_1_alg».proof.Proof.KI.Frame
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx (ix1 ix2 eq_ix1 eq_ix2)

variable {F : FTy → Type} [FloatOps F]

variable (m : (ℓ : Loc nD τ sig) → Buf (Elt F) ℓ)

/-! ## Rows and points -/

/-- Row `p` of tile `a`: the tiles are 512 rows each. -/
def row (a : Fin 8) (p : Fin 512) : Fin 4096 := ⟨512 * a.val + p.val, by omega⟩

/-- The grid point of anchor tile `a` and key tile `j`: the key axis runs fastest. -/
def pt (a j : Fin 8) : Fin cfg0.N := ⟨8 * a.val + j.val, by rw [show cfg0.N = 64 from N_0]; omega⟩

theorem pt_val (a j : Fin 8) : (pt a j).val = 8 * a.val + j.val := rfl

/-- The point's first coordinate is its anchor tile, -/
theorem coords_pt0 (a j : Fin 8) : grid0.coords (pt a j) 0 = a :=
  Fin.ext ((by decide +kernel : ∀ a j : Fin 8, (grid0.coords (pt a j) 0).val = a.val) a j)
/-- and its second the key tile. -/
theorem coords_pt1 (a j : Fin 8) : grid0.coords (pt a j) 1 = j :=
  Fin.ext ((by decide +kernel : ∀ a j : Fin 8, (grid0.coords (pt a j) 1).val = j.val) a j)

/-! ## The index maps over the grid -/

/-- The printed index maps, decided over the 64 points: the anchor windows (the first embedding window, the first
    label window, the three outputs) are at block `t / 8`, the key windows at block `t % 8`, and the second axis of
    every rank-2 window is at block 0. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 1) = t.val / 8
    ∧ win0_3.index t (0 : Fin 1) = t.val % 8
    ∧ win0_4.index t (0 : Fin 2) = t.val / 8 ∧ win0_4.index t (1 : Fin 2) = 0
    ∧ win0_5.index t (0 : Fin 2) = t.val / 8 ∧ win0_5.index t (1 : Fin 2) = 0
    ∧ win0_6.index t (0 : Fin 2) = t.val / 8 ∧ win0_6.index t (1 : Fin 2) = 0 :=
  (by decide +kernel : ∀ t : Fin grid0.N, _)

/-! ## Each input block, entry by entry -/

/-- The anchor tile of the embeddings: row `p` of the block at point `(a, j)` is row `512 a + p` of the array. -/
theorem iblk0_apply (c : Dev nD) (a j : Fin 8) (p k : Fin 512) :
    (iblk m c 0 (pt a j) : Vec F S512x512 .bf16) (ix2 p k) = (V m c main_v5 : S4096x512.Idx → Elt F .bf16) (ix2 (row a p) k) := by
  obtain ⟨e0, e1, -⟩ := idx_facts (pt a j)
  unfold iblk
  rw [View.read_apply]
  show V m c main_v5 (((cfg0.win 0).blk (pt a j)).view.emb (ix2 p k)) = V m c main_v5 (ix2 (row a p) k)
  congr 1
  funext d
  apply Fin.ext
  match d with
  | ⟨0, _⟩ => show win0_0.index (pt a j) (0 : Fin 2) * 512 + 1 * p.val = 512 * a.val + p.val; rw [e0, pt_val]; omega
  | ⟨1, _⟩ => show win0_0.index (pt a j) (1 : Fin 2) * 512 + 1 * k.val = k.val; rw [e1]; omega

/-- The key tile of the embeddings: row `q` of the block at point `(a, j)` is row `512 j + q` of the same array. -/
theorem iblk1_apply (c : Dev nD) (a j : Fin 8) (q k : Fin 512) :
    (iblk m c 1 (pt a j) : Vec F S512x512 .bf16) (ix2 q k) = (V m c main_v5 : S4096x512.Idx → Elt F .bf16) (ix2 (row j q) k) := by
  obtain ⟨-, -, e0, e1, -⟩ := idx_facts (pt a j)
  unfold iblk
  rw [View.read_apply]
  show V m c main_v5 (((cfg0.win 1).blk (pt a j)).view.emb (ix2 q k)) = V m c main_v5 (ix2 (row j q) k)
  congr 1
  funext d
  apply Fin.ext
  match d with
  | ⟨0, _⟩ => show win0_1.index (pt a j) (0 : Fin 2) * 512 + 1 * q.val = 512 * j.val + q.val; rw [e0, pt_val]; omega
  | ⟨1, _⟩ => show win0_1.index (pt a j) (1 : Fin 2) * 512 + 1 * k.val = k.val; rw [e1]; omega

/-- The anchor tile of the labels: entry `p` of the block at point `(a, j)` is entry `512 a + p` of the labels. -/
theorem iblk2_apply (c : Dev nD) (a j : Fin 8) (p : Fin 512) :
    (iblk m c 2 (pt a j) : Vec F S512 .i32) (ix1 p) = (V m c main_arg1 : S4096.Idx → Elt F .i32) (ix1 (row a p)) := by
  obtain ⟨-, -, -, -, e0, -⟩ := idx_facts (pt a j)
  unfold iblk
  rw [View.read_apply]
  show V m c main_arg1 (((cfg0.win 2).blk (pt a j)).view.emb (ix1 p)) = V m c main_arg1 (ix1 (row a p))
  congr 1
  funext d
  apply Fin.ext
  match d with
  | ⟨0, _⟩ => show win0_2.index (pt a j) (0 : Fin 1) * 512 + 1 * p.val = 512 * a.val + p.val; rw [e0, pt_val]; omega

/-- The key tile of the labels: entry `q` of the block at point `(a, j)` is entry `512 j + q` of the labels. -/
theorem iblk3_apply (c : Dev nD) (a j : Fin 8) (q : Fin 512) :
    (iblk m c 3 (pt a j) : Vec F S512 .i32) (ix1 q) = (V m c main_arg1 : S4096.Idx → Elt F .i32) (ix1 (row j q)) := by
  obtain ⟨-, -, -, -, -, e0, -⟩ := idx_facts (pt a j)
  unfold iblk
  rw [View.read_apply]
  show V m c main_arg1 (((cfg0.win 3).blk (pt a j)).view.emb (ix1 q)) = V m c main_arg1 (ix1 (row j q))
  congr 1
  funext d
  apply Fin.ext
  match d with
  | ⟨0, _⟩ => show win0_3.index (pt a j) (0 : Fin 1) * 512 + 1 * q.val = 512 * j.val + q.val; rw [e0, pt_val]; omega

/-! ## The output arrays after the run

An output window is written back only at an anchor row's last key tile, the point `8 a + 7`, and its block there is
rows `512 a ...` of the array. So the whole array that every write-back is a block of reads, at row `r`, entry
`r % 512` of what point `8 (r / 512) + 7` left in the output buffer. -/

/-- The last key tile of the anchor row that holds array row `r` is a grid point. -/
theorem lastPt_lt (r : Nat) (hr : r < 4096) : 8 * (r / 512) + 7 < cfg0.N := by rw [show cfg0.N = 64 from N_0]; omega

/-- Array row `r` of an output, read off component `f` (one of the three output buffers) of what the row's last key
    tile left. -/
def atRow (f : St F → Vec F S512x1 .f32) (c : Dev nD) (r : Nat) (hr : r < 4096) : Elt F .f32 :=
  f (outsAt0 m c (8 * (r / 512) + 7) (lastPt_lt r hr)) (ix2 (⟨r % 512, Nat.mod_lt _ (by decide)⟩ : Fin 512) (0 : Fin 1))

/-- At row `512 (n / 8) + p`, for a last key tile `n`, that is entry `p` of what point `n` left. -/
theorem atRow_eq (f : St F → Vec F S512x1 .f32) (c : Dev nD) (r : Nat) (hr : r < 4096) (n : Nat) (hn : n < cfg0.N) (p : Fin 512)
    (h7 : n % 8 = 7) (e : r = 512 * (n / 8) + p.val) :
    atRow m f c r hr = f (outsAt0 m c n hn) (ix2 p (0 : Fin 1)) := by
  have hp : p.val < 512 := p.isLt
  have en : 8 * (r / 512) + 7 = n := by omega
  have ep : (⟨r % 512, Nat.mod_lt _ (by decide)⟩ : Fin 512) = p := Fin.ext (by show r % 512 = p.val; omega)
  unfold atRow
  rw [ep]
  subst en
  rfl

/-- The three whole arrays. -/
def G4 (c : Dev nD) : S4096x1.Idx → Elt F .f32 := fun i => atRow m St.o4 c (i 0).val (ValueIdx.idx2_lt0 i)
def G5 (c : Dev nD) : S4096x1.Idx → Elt F .f32 := fun i => atRow m St.o5 c (i 0).val (ValueIdx.idx2_lt0 i)
def G6 (c : Dev nD) : S4096x1.Idx → Elt F .f32 := fun i => atRow m St.o6 c (i 0).val (ValueIdx.idx2_lt0 i)

/-- WHAT A LAST KEY TILE WRITES BACK into the first output is its block of `G4`. -/
theorem flushed4_eq (c : Dev nD) (t : Fin cfg0.N) (hf : (cfg0.win 4).flush t = true) :
    (dats m 0 c).flushed 4 t = ((cfg0.win 4).blk t).view.read (Elt F) (G4 m c) := by
  have h7 : t.val % 8 = 7 := (flush0_4 t).mp hf
  obtain ⟨-, -, -, -, -, -, e0, e1, -⟩ := idx_facts t
  show (cfg0.win 4).cut (grid0.coords t) ((dats m 0 c).after 4 t) = _
  rw [after0_4]
  funext y
  rw [View.read_apply]
  show (outsAt0 m c t.val t.isLt).o4 ((cfg0.win 4).xinj (grid0.coords t) y) = atRow m St.o4 c ((((cfg0.win 4).blk t).view.emb y) 0).val (ValueIdx.idx2_lt0 ((((cfg0.win 4).blk t).view.emb y : S4096x1.Idx)))
  have hy0 : (y 0).val < 512 := (y 0).isLt
  have hr : ((((cfg0.win 4).blk t).view.emb y) 0).val = 512 * (t.val / 8) + (y 0).val := by
    show win0_4.index t (0 : Fin 2) * 512 + 1 * (y 0).val = _
    rw [e0]; omega
  refine Eq.trans ?_ (atRow_eq m St.o4 c _ _ t.val t.isLt (y 0) h7 hr).symm
  congr 1
  funext d
  match d with
  | ⟨0, _⟩ => rfl
  | ⟨1, _⟩ => exact Fin.ext (by have h1 : (y 1).val < 1 := (y 1).isLt; show (y 1).val = 0; omega)

/-- An index of the first output array is in point `t`'s block iff each coordinate is in the block's range on its axis. -/
theorem mem_blk4 (t : Fin cfg0.N) (i : S4096x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v6_0).slice (win0_4.rect t)).set ↔ _
  rw [View.set_slice_whole, Rect.mem_set_unit]
  exact Iff.rfl

/-- Every row of the first output array is in the block of its anchor row's last key tile, which writes back. -/
theorem cover4 (i : S4096x1.Idx) : ∃ t : Fin cfg0.N, (cfg0.win 4).flush t = true ∧ i ∈ ((cfg0.win 4).blk t).view.set := by
  have h0 : (i 0).val < 4096 := ValueIdx.idx2_lt0 i
  have h1 : (i 1).val < 1 := ValueIdx.idx2_lt1 i
  obtain ⟨t, ht⟩ : ∃ t : Fin cfg0.N, t.val = 8 * ((i 0).val / 512) + 7 := ⟨⟨_, lastPt_lt _ h0⟩, rfl⟩
  refine ⟨t, (flush0_4 t).mpr (by omega), ?_⟩
  obtain ⟨-, -, -, -, -, -, e0, e1, -⟩ := idx_facts t
  rw [mem_blk4]
  intro a
  match a with
  | ⟨0, _⟩ => show win0_4.index t (0 : Fin 2) * 512 ≤ (i 0).val ∧ (i 0).val < win0_4.index t (0 : Fin 2) * 512 + 512; rw [e0]; omega
  | ⟨1, _⟩ => show win0_4.index t (1 : Fin 2) * 1 ≤ (i 1).val ∧ (i 1).val < win0_4.index t (1 : Fin 2) * 1 + 1; rw [e1]; omega

/-- THE FIRST OUTPUT ARRAY after the run is `G4`. -/
theorem arr4_eq (c : Dev nD) : (dats m 0 c).arrAt 4 cfg0.N = G4 m c :=
  (dats m 0 c).arrAt_eq_of_cover 4 (G4 m c) (fun t hf => flushed4_eq m c t hf) cover4

/-- Row `512 a + p` of the first output array ends at entry `p` of what point `8 a + 7` left in its buffer. -/
theorem final4 (c : Dev nD) (a : Fin 8) (p : Fin 512) :
    ((dats m 0 c).arrAt 4 cfg0.N : S4096x1.Idx → Elt F .f32) (ix2 (row a p) (0 : Fin 1))
      = (outsAt0 m c (8 * a.val + 7) (by rw [show cfg0.N = 64 from N_0]; omega)).o4 (ix2 p (0 : Fin 1)) := by
  have ha : a.val < 8 := a.isLt
  have hp : p.val < 512 := p.isLt
  refine (congrFun (arr4_eq m c) _).trans ?_
  exact atRow_eq m St.o4 c _ _ (8 * a.val + 7) _ p (by omega) (by show 512 * a.val + p.val = _; omega)

/-- WHAT A LAST KEY TILE WRITES BACK into the second output is its block of `G5`. -/
theorem flushed5_eq (c : Dev nD) (t : Fin cfg0.N) (hf : (cfg0.win 5).flush t = true) :
    (dats m 0 c).flushed 5 t = ((cfg0.win 5).blk t).view.read (Elt F) (G5 m c) := by
  have h7 : t.val % 8 = 7 := (flush0_5 t).mp hf
  obtain ⟨-, -, -, -, -, -, -, -, e0, e1, -⟩ := idx_facts t
  show (cfg0.win 5).cut (grid0.coords t) ((dats m 0 c).after 5 t) = _
  rw [after0_5]
  funext y
  rw [View.read_apply]
  show (outsAt0 m c t.val t.isLt).o5 ((cfg0.win 5).xinj (grid0.coords t) y) = atRow m St.o5 c ((((cfg0.win 5).blk t).view.emb y) 0).val (ValueIdx.idx2_lt0 ((((cfg0.win 5).blk t).view.emb y : S4096x1.Idx)))
  have hy0 : (y 0).val < 512 := (y 0).isLt
  have hr : ((((cfg0.win 5).blk t).view.emb y) 0).val = 512 * (t.val / 8) + (y 0).val := by
    show win0_5.index t (0 : Fin 2) * 512 + 1 * (y 0).val = _
    rw [e0]; omega
  refine Eq.trans ?_ (atRow_eq m St.o5 c _ _ t.val t.isLt (y 0) h7 hr).symm
  congr 1
  funext d
  match d with
  | ⟨0, _⟩ => rfl
  | ⟨1, _⟩ => exact Fin.ext (by have h1 : (y 1).val < 1 := (y 1).isLt; show (y 1).val = 0; omega)

/-- An index of the second output array is in point `t`'s block iff each coordinate is in the block's range on its axis. -/
theorem mem_blk5 (t : Fin cfg0.N) (i : S4096x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v6_1).slice (win0_5.rect t)).set ↔ _
  rw [View.set_slice_whole, Rect.mem_set_unit]
  exact Iff.rfl

/-- Every row of the second output array is in the block of its anchor row's last key tile, which writes back. -/
theorem cover5 (i : S4096x1.Idx) : ∃ t : Fin cfg0.N, (cfg0.win 5).flush t = true ∧ i ∈ ((cfg0.win 5).blk t).view.set := by
  have h0 : (i 0).val < 4096 := ValueIdx.idx2_lt0 i
  have h1 : (i 1).val < 1 := ValueIdx.idx2_lt1 i
  obtain ⟨t, ht⟩ : ∃ t : Fin cfg0.N, t.val = 8 * ((i 0).val / 512) + 7 := ⟨⟨_, lastPt_lt _ h0⟩, rfl⟩
  refine ⟨t, (flush0_5 t).mpr (by omega), ?_⟩
  obtain ⟨-, -, -, -, -, -, -, -, e0, e1, -⟩ := idx_facts t
  rw [mem_blk5]
  intro a
  match a with
  | ⟨0, _⟩ => show win0_5.index t (0 : Fin 2) * 512 ≤ (i 0).val ∧ (i 0).val < win0_5.index t (0 : Fin 2) * 512 + 512; rw [e0]; omega
  | ⟨1, _⟩ => show win0_5.index t (1 : Fin 2) * 1 ≤ (i 1).val ∧ (i 1).val < win0_5.index t (1 : Fin 2) * 1 + 1; rw [e1]; omega

/-- THE SECOND OUTPUT ARRAY after the run is `G5`. -/
theorem arr5_eq (c : Dev nD) : (dats m 0 c).arrAt 5 cfg0.N = G5 m c :=
  (dats m 0 c).arrAt_eq_of_cover 5 (G5 m c) (fun t hf => flushed5_eq m c t hf) cover5

/-- Row `512 a + p` of the second output array ends at entry `p` of what point `8 a + 7` left in its buffer. -/
theorem final5 (c : Dev nD) (a : Fin 8) (p : Fin 512) :
    ((dats m 0 c).arrAt 5 cfg0.N : S4096x1.Idx → Elt F .f32) (ix2 (row a p) (0 : Fin 1))
      = (outsAt0 m c (8 * a.val + 7) (by rw [show cfg0.N = 64 from N_0]; omega)).o5 (ix2 p (0 : Fin 1)) := by
  have ha : a.val < 8 := a.isLt
  have hp : p.val < 512 := p.isLt
  refine (congrFun (arr5_eq m c) _).trans ?_
  exact atRow_eq m St.o5 c _ _ (8 * a.val + 7) _ p (by omega) (by show 512 * a.val + p.val = _; omega)

/-- WHAT A LAST KEY TILE WRITES BACK into the third output is its block of `G6`. -/
theorem flushed6_eq (c : Dev nD) (t : Fin cfg0.N) (hf : (cfg0.win 6).flush t = true) :
    (dats m 0 c).flushed 6 t = ((cfg0.win 6).blk t).view.read (Elt F) (G6 m c) := by
  have h7 : t.val % 8 = 7 := (flush0_6 t).mp hf
  obtain ⟨-, -, -, -, -, -, -, -, -, -, e0, e1⟩ := idx_facts t
  show (cfg0.win 6).cut (grid0.coords t) ((dats m 0 c).after 6 t) = _
  rw [after0_6]
  funext y
  rw [View.read_apply]
  show (outsAt0 m c t.val t.isLt).o6 ((cfg0.win 6).xinj (grid0.coords t) y) = atRow m St.o6 c ((((cfg0.win 6).blk t).view.emb y) 0).val (ValueIdx.idx2_lt0 ((((cfg0.win 6).blk t).view.emb y : S4096x1.Idx)))
  have hy0 : (y 0).val < 512 := (y 0).isLt
  have hr : ((((cfg0.win 6).blk t).view.emb y) 0).val = 512 * (t.val / 8) + (y 0).val := by
    show win0_6.index t (0 : Fin 2) * 512 + 1 * (y 0).val = _
    rw [e0]; omega
  refine Eq.trans ?_ (atRow_eq m St.o6 c _ _ t.val t.isLt (y 0) h7 hr).symm
  congr 1
  funext d
  match d with
  | ⟨0, _⟩ => rfl
  | ⟨1, _⟩ => exact Fin.ext (by have h1 : (y 1).val < 1 := (y 1).isLt; show (y 1).val = 0; omega)

/-- An index of the third output array is in point `t`'s block iff each coordinate is in the block's range on its axis. -/
theorem mem_blk6 (t : Fin cfg0.N) (i : S4096x1.Idx) :
    i ∈ ((cfg0.win 6).blk t).view.set ↔ ∀ a : Fin 2, win0_6.index t a * S512x1.size a ≤ (i a).val ∧ (i a).val < win0_6.index t a * S512x1.size a + S512x1.size a := by
  show i ∈ ((View.whole main_v6_2).slice (win0_6.rect t)).set ↔ _
  rw [View.set_slice_whole, Rect.mem_set_unit]
  exact Iff.rfl

/-- Every row of the third output array is in the block of its anchor row's last key tile, which writes back. -/
theorem cover6 (i : S4096x1.Idx) : ∃ t : Fin cfg0.N, (cfg0.win 6).flush t = true ∧ i ∈ ((cfg0.win 6).blk t).view.set := by
  have h0 : (i 0).val < 4096 := ValueIdx.idx2_lt0 i
  have h1 : (i 1).val < 1 := ValueIdx.idx2_lt1 i
  obtain ⟨t, ht⟩ : ∃ t : Fin cfg0.N, t.val = 8 * ((i 0).val / 512) + 7 := ⟨⟨_, lastPt_lt _ h0⟩, rfl⟩
  refine ⟨t, (flush0_6 t).mpr (by omega), ?_⟩
  obtain ⟨-, -, -, -, -, -, -, -, -, -, e0, e1⟩ := idx_facts t
  rw [mem_blk6]
  intro a
  match a with
  | ⟨0, _⟩ => show win0_6.index t (0 : Fin 2) * 512 ≤ (i 0).val ∧ (i 0).val < win0_6.index t (0 : Fin 2) * 512 + 512; rw [e0]; omega
  | ⟨1, _⟩ => show win0_6.index t (1 : Fin 2) * 1 ≤ (i 1).val ∧ (i 1).val < win0_6.index t (1 : Fin 2) * 1 + 1; rw [e1]; omega

/-- THE THIRD OUTPUT ARRAY after the run is `G6`. -/
theorem arr6_eq (c : Dev nD) : (dats m 0 c).arrAt 6 cfg0.N = G6 m c :=
  (dats m 0 c).arrAt_eq_of_cover 6 (G6 m c) (fun t hf => flushed6_eq m c t hf) cover6

/-- Row `512 a + p` of the third output array ends at entry `p` of what point `8 a + 7` left in its buffer. -/
theorem final6 (c : Dev nD) (a : Fin 8) (p : Fin 512) :
    ((dats m 0 c).arrAt 6 cfg0.N : S4096x1.Idx → Elt F .f32) (ix2 (row a p) (0 : Fin 1))
      = (outsAt0 m c (8 * a.val + 7) (by rw [show cfg0.N = 64 from N_0]; omega)).o6 (ix2 p (0 : Fin 1)) := by
  have ha : a.val < 8 := a.isLt
  have hp : p.val < 512 := p.isLt
  refine (congrFun (arr6_eq m c) _).trans ?_
  exact atRow_eq m St.o6 c _ _ (8 * a.val + 7) _ p (by omega) (by show 512 * a.val + p.val = _; omega)

end Cert.KernelIdeal.Fr

end
-- ==== Proof.KI.Acc.lean ====
/-
  One grid point's effect on the four running columns, as pure functions of the point's four input blocks: the
  anchor tile's rows x0 and the key tile's rows x1 of the normalised embeddings, and their labels l0, l1.

  With d(p, q) = 1 - sum_k x0(p, k) * x1(q, k) the distance of anchor row p to key row q of the tiles, the point
  replaces the running maximum s0(p) by max(s0(p), max_q [d(p, q) where q is a positive of p, else -1]), the running
  minimum s1(p) by min(s1(p), min_q [d(p, q) where q is a negative, else 3]), and the two indicator columns s2, s3 by
  their maxima with "some key of this tile is a positive" and "some key of this tile is a negative" (as 0 or 1).
  At the first key tile the columns start from -1, 3, 0, 0; at the last the outputs are s0, s1 and s2 * s3.
-/
import proofs.«107534_j40690520162810_1_alg».proof.Proof.KI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four running columns. -/
structure Cols4 (F : FTy → Type) [FloatOps F] where
  s0 : Vec F S512x1 .f32
  s1 : Vec F S512x1 .f32
  s2 : Vec F S512x1 .f32
  s3 : Vec F S512x1 .f32

/-- The columns' starting values at an anchor row's first key tile: -1, 3, 0, 0. -/
def init4 : Cols4 F := ⟨k0_pay6, k0_pay7, k0_pay8, k0_pay9⟩

/-- One point's fold of the columns `p` with the tile's row results. -/
def upd4 (i : grid0.Coords) (x0 x1 : Vec F S512x512 .bf16) (l0 l1 : Vec F S512 .i32) (p : Cols4 F) : Cols4 F :=
  ⟨k0_pay1 (k0_pay14 i x0 x1 l0 l1) p.s0, k0_pay2 (k0_pay15 x0 x1 l0 l1) p.s1, k0_pay3 (k0_pay16 i l0 l1) p.s2, k0_pay4 (k0_pay13 l0 l1) p.s3⟩

/-- The third output at the last key tile: the product of the two indicator columns. -/
def out6 (p : Cols4 F) : Vec F S512x1 .f32 := k0_pay5 p.s2 p.s3

end Cert.KernelIdeal.Fr

end
-- ==== Proof.KI.PiecesDefs.lean ====
/-
  Reading one grid point's stores back as values: what the piece lemmas of the three control cases share. A
  whole-buffer load or store goes through the rectangle of the buffer's own sizes at zero offsets, however the
  zeros are spelt; and a point's contents carry the four running columns.
-/
import proofs.«107534_j40690520162810_1_alg».proof.Proof.KI.Frame
import proofs.«107534_j40690520162810_1_alg».proof.Proof.KI.Acc
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer load or store, rank 2 and rank 1. -/
theorem hz2 : (![0, 0] : Fin 2 → Nat) = fun _ => 0 := funext fun a => by fin_cases a <;> rfl
theorem hz1 : (![0] : Fin 1 → Nat) = fun _ => 0 := funext fun a => by fin_cases a; rfl

/-- The four columns of a point's contents. -/
def cols (p : St F) : Cols4 F := ⟨p.s0, p.s1, p.s2, p.s3⟩

end Cert.KernelIdeal.Fr

end
-- ==== Proof.KI.PiecesA.lean ====
/-
  The first key tile of an anchor row, read back as values. Each scratch column is stored twice: first its starting
  value, then the fold, whose payload's load reads that starting value back. The later store covers the column, so
  the column ends at the fold of its starting value with the point's blocks.
-/
import proofs.«107534_j40690520162810_1_alg».proof.Proof.KI.PiecesDefs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Column 0 after the first tile: the fold of its starting value. -/
theorem pieceA_s0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x512 .bf16) (x1 : Vec F S512x512 .bf16) (l0 : Vec F S512 .i32) (l1 : Vec F S512 .i32) :
    rd (kernelRun0_A c i arg2 harg2 arg3 harg3 arg4 harg4 arg5 harg5 arg6 harg6 arg7 harg7 arg8 harg8 arg9 harg9 arg10 harg10 arg11 harg11 arg12 harg12 hc0 hc1 x0 x1 l0 l1).1 = k0_pay1 (k0_pay14 i x0 x1 l0 l1) k0_pay6 := by
  unfold rd
  rw [View.read_writes_eq_canon _ _ _ (coverA_s0 c i arg2 harg2 arg3 harg3 arg4 harg4 arg5 harg5 arg6 harg6 arg7 harg7 arg8 harg8 arg9 harg9 arg10 harg10 arg11 harg11 arg12 harg12 hc0 hc1 x0 x1 l0 l1)]
  unfold kernelRun0_A
  dsimp only
  sl_unfold_words
  rw [View.canon_cons_unit_zero (S := S512x1) hz2, View.readCov_unit_zero (S := S512x1) _ hz2]
  simp only [View.readAt_eq_ld, harg2.read_unread, harg3.read_unread, harg4.read_unread, harg5.read_unread, View.ld_unit_zero (S := S512x1) hz2, View.ld_unit_zero (S := S512x512) hz2, View.ld_unit_zero (S := S512) hz1]

/-- Column 1 after the first tile: the fold of its starting value. -/
theorem pieceA_s1 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x512 .bf16) (x1 : Vec F S512x512 .bf16) (l0 : Vec F S512 .i32) (l1 : Vec F S512 .i32) :
    rd (kernelRun0_A c i arg2 harg2 arg3 harg3 arg4 harg4 arg5 harg5 arg6 harg6 arg7 harg7 arg8 harg8 arg9 harg9 arg10 harg10 arg11 harg11 arg12 harg12 hc0 hc1 x0 x1 l0 l1).2.1 = k0_pay2 (k0_pay15 x0 x1 l0 l1) k0_pay7 := by
  unfold rd
  rw [View.read_writes_eq_canon _ _ _ (coverA_s1 c i arg2 harg2 arg3 harg3 arg4 harg4 arg5 harg5 arg6 harg6 arg7 harg7 arg8 harg8 arg9 harg9 arg10 harg10 arg11 harg11 arg12 harg12 hc0 hc1 x0 x1 l0 l1)]
  unfold kernelRun0_A
  dsimp only
  sl_unfold_words
  rw [View.canon_cons_unit_zero (S := S512x1) hz2, View.readCov_unit_zero (S := S512x1) _ hz2]
  simp only [View.readAt_eq_ld, harg2.read_unread, harg3.read_unread, harg4.read_unread, harg5.read_unread, View.ld_unit_zero (S := S512x1) hz2, View.ld_unit_zero (S := S512x512) hz2, View.ld_unit_zero (S := S512) hz1]

/-- Column 2 after the first tile: the fold of its starting value. -/
theorem pieceA_s2 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x512 .bf16) (x1 : Vec F S512x512 .bf16) (l0 : Vec F S512 .i32) (l1 : Vec F S512 .i32) :
    rd (kernelRun0_A c i arg2 harg2 arg3 harg3 arg4 harg4 arg5 harg5 arg6 harg6 arg7 harg7 arg8 harg8 arg9 harg9 arg10 harg10 arg11 harg11 arg12 harg12 hc0 hc1 x0 x1 l0 l1).2.2.1 = k0_pay3 (k0_pay16 i l0 l1) k0_pay8 := by
  unfold rd
  rw [View.read_writes_eq_canon _ _ _ (coverA_s2 c i arg2 harg2 arg3 harg3 arg4 harg4 arg5 harg5 arg6 harg6 arg7 harg7 arg8 harg8 arg9 harg9 arg10 harg10 arg11 harg11 arg12 harg12 hc0 hc1 x0 x1 l0 l1)]
  unfold kernelRun0_A
  dsimp only
  sl_unfold_words
  rw [View.canon_cons_unit_zero (S := S512x1) hz2, View.readCov_unit_zero (S := S512x1) _ hz2]
  simp only [View.readAt_eq_ld, harg2.read_unread, harg3.read_unread, harg4.read_unread, harg5.read_unread, View.ld_unit_zero (S := S512x1) hz2, View.ld_unit_zero (S := S512x512) hz2, View.ld_unit_zero (S := S512) hz1]

/-- Column 3 after the first tile: the fold of its starting value. -/
theorem pieceA_s3 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x512 .bf16) (x1 : Vec F S512x512 .bf16) (l0 : Vec F S512 .i32) (l1 : Vec F S512 .i32) :
    rd (kernelRun0_A c i arg2 harg2 arg3 harg3 arg4 harg4 arg5 harg5 arg6 harg6 arg7 harg7 arg8 harg8 arg9 harg9 arg10 harg10 arg11 harg11 arg12 harg12 hc0 hc1 x0 x1 l0 l1).2.2.2.1 = k0_pay4 (k0_pay13 l0 l1) k0_pay9 := by
  unfold rd
  rw [View.read_writes_eq_canon _ _ _ (coverA_s3 c i arg2 harg2 arg3 harg3 arg4 harg4 arg5 harg5 arg6 harg6 arg7 harg7 arg8 harg8 arg9 harg9 arg10 harg10 arg11 harg11 arg12 harg12 hc0 hc1 x0 x1 l0 l1)]
  unfold kernelRun0_A
  dsimp only
  sl_unfold_words
  rw [View.canon_cons_unit_zero (S := S512x1) hz2, View.readCov_unit_zero (S := S512x1) _ hz2]
  simp only [View.readAt_eq_ld, harg2.read_unread, harg3.read_unread, harg4.read_unread, harg5.read_unread, View.ld_unit_zero (S := S512x1) hz2, View.ld_unit_zero (S := S512x512) hz2, View.ld_unit_zero (S := S512) hz1]

/-! ## At a grid point -/

theorem stA_s0 (c : Dev nD) (t : Fin cfg0.N) (h0 : t.val % 8 = 0) :
    rd (runA m c t h0).1 = k0_pay1 (k0_pay14 (grid0.coords t) (iblk m c 0 t) (iblk m c 1 t) (iblk m c 2 t) (iblk m c 3 t)) k0_pay6 :=
  pieceA_s0 _ _ _ _ _ _ _ _ _ _ _ _ _ _ _ _ _ _ _ _ _ _ _ _ _ _ _ _ _ _

theorem stA_s1 (c : Dev nD) (t : Fin cfg0.N) (h0 : t.val % 8 = 0) :
    rd (runA m c t h0).2.1 = k0_pay2 (k0_pay15 (iblk m c 0 t) (iblk m c 1 t) (iblk m c 2 t) (iblk m c 3 t)) k0_pay7 :=
  pieceA_s1 _ _ _ _ _ _ _ _ _ _ _ _ _ _ _ _ _ _ _ _ _ _ _ _ _ _ _ _ _ _

theorem stA_s2 (c : Dev nD) (t : Fin cfg0.N) (h0 : t.val % 8 = 0) :
    rd (runA m c t h0).2.2.1 = k0_pay3 (k0_pay16 (grid0.coords t) (iblk m c 2 t) (iblk m c 3 t)) k0_pay8 :=
  pieceA_s2 _ _ _ _ _ _ _ _ _ _ _ _ _ _ _ _ _ _ _ _ _ _ _ _ _ _ _ _ _ _

theorem stA_s3 (c : Dev nD) (t : Fin cfg0.N) (h0 : t.val % 8 = 0) :
    rd (runA m c t h0).2.2.2.1 = k0_pay4 (k0_pay13 (iblk m c 2 t) (iblk m c 3 t)) k0_pay9 :=
  pieceA_s3 _ _ _ _ _ _ _ _ _ _ _ _ _ _ _ _ _ _ _ _ _ _ _ _ _ _ _ _ _ _

/-- The first key tile leaves the fold of the starting columns with the point's blocks. -/
theorem stA_cols (c : Dev nD) (t : Fin cfg0.N) (h0 : t.val % 8 = 0) :
    cols (stA m c t h0) = upd4 (grid0.coords t) (iblk m c 0 t) (iblk m c 1 t) (iblk m c 2 t) (iblk m c 3 t) init4 := by
  unfold stA cols upd4 init4
  dsimp only
  exact congr (congr (congr (congrArg Cols4.mk (stA_s0 m c t h0)) (stA_s1 m c t h0)) (stA_s2 m c t h0)) (stA_s3 m c t h0)

end Cert.KernelIdeal.Fr

end
-- ==== Proof.KI.PiecesB.lean ====
/-
  A middle key tile, read back as values. Each scratch column is written through ONE covering store whose payload
  folds the tile's row result into what the store's own load read: the column as the tile before left it. So the
  four columns after the point are one fold of the columns before it with the point's four blocks.
-/
import proofs.«107534_j40690520162810_1_alg».proof.Proof.KI.PiecesDefs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Column 0 after a middle tile: its one covering store's payload, over the blocks and the column before. -/
theorem pieceB_s0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x512 .bf16) (x1 : Vec F S512x512 .bf16) (l0 : Vec F S512 .i32) (l1 : Vec F S512 .i32) (xs0 xs1 xs2 xs3 : Vec F S512x1 .f32) :
    rd (kernelRun0_B c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).1 = k0_pay1 (k0_pay14 i x0 x1 l0 l1) xs0 := by
  unfold rd
  rw [View.read_writes_eq_canon _ _ _ (coverB_s0 c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3)]
  unfold kernelRun0_B
  dsimp only
  sl_unfold_words
  rw [View.canon_unit_zero hz2]
  simp only [View.readAt_eq_ld, harg2.read_unread, harg3.read_unread, harg4.read_unread, harg5.read_unread, harg9.read_unread, harg10.read_unread, harg11.read_unread, harg12.read_unread, View.ld_unit_zero (S := S512x1) hz2, View.ld_unit_zero (S := S512x512) hz2, View.ld_unit_zero (S := S512) hz1]

/-- Column 1 after a middle tile: its one covering store's payload, over the blocks and the column before. -/
theorem pieceB_s1 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x512 .bf16) (x1 : Vec F S512x512 .bf16) (l0 : Vec F S512 .i32) (l1 : Vec F S512 .i32) (xs0 xs1 xs2 xs3 : Vec F S512x1 .f32) :
    rd (kernelRun0_B c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.1 = k0_pay2 (k0_pay15 x0 x1 l0 l1) xs1 := by
  unfold rd
  rw [View.read_writes_eq_canon _ _ _ (coverB_s1 c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3)]
  unfold kernelRun0_B
  dsimp only
  sl_unfold_words
  rw [View.canon_unit_zero hz2]
  simp only [View.readAt_eq_ld, harg2.read_unread, harg3.read_unread, harg4.read_unread, harg5.read_unread, harg9.read_unread, harg10.read_unread, harg11.read_unread, harg12.read_unread, View.ld_unit_zero (S := S512x1) hz2, View.ld_unit_zero (S := S512x512) hz2, View.ld_unit_zero (S := S512) hz1]

/-- Column 2 after a middle tile: its one covering store's payload, over the blocks and the column before. -/
theorem pieceB_s2 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x512 .bf16) (x1 : Vec F S512x512 .bf16) (l0 : Vec F S512 .i32) (l1 : Vec F S512 .i32) (xs0 xs1 xs2 xs3 : Vec F S512x1 .f32) :
    rd (kernelRun0_B c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.1 = k0_pay3 (k0_pay16 i l0 l1) xs2 := by
  unfold rd
  rw [View.read_writes_eq_canon _ _ _ (coverB_s2 c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3)]
  unfold kernelRun0_B
  dsimp only
  sl_unfold_words
  rw [View.canon_unit_zero hz2]
  simp only [View.readAt_eq_ld, harg2.read_unread, harg3.read_unread, harg4.read_unread, harg5.read_unread, harg9.read_unread, harg10.read_unread, harg11.read_unread, harg12.read_unread, View.ld_unit_zero (S := S512x1) hz2, View.ld_unit_zero (S := S512x512) hz2, View.ld_unit_zero (S := S512) hz1]

/-- Column 3 after a middle tile: its one covering store's payload, over the blocks and the column before. -/
theorem pieceB_s3 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x512 .bf16) (x1 : Vec F S512x512 .bf16) (l0 : Vec F S512 .i32) (l1 : Vec F S512 .i32) (xs0 xs1 xs2 xs3 : Vec F S512x1 .f32) :
    rd (kernelRun0_B c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.2.1 = k0_pay4 (k0_pay13 l0 l1) xs3 := by
  unfold rd
  rw [View.read_writes_eq_canon _ _ _ (coverB_s3 c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3)]
  unfold kernelRun0_B
  dsimp only
  sl_unfold_words
  rw [View.canon_unit_zero hz2]
  simp only [View.readAt_eq_ld, harg2.read_unread, harg3.read_unread, harg4.read_unread, harg5.read_unread, harg9.read_unread, harg10.read_unread, harg11.read_unread, harg12.read_unread, View.ld_unit_zero (S := S512x1) hz2, View.ld_unit_zero (S := S512x512) hz2, View.ld_unit_zero (S := S512) hz1]

/-! ## At a grid point -/

theorem stB_s0 (c : Dev nD) (t : Fin cfg0.N) (h0 : ¬t.val % 8 = 0) (h1 : ¬t.val % 8 = 7) (p : St F) :
    rd (runB m c t h0 h1 p).1 = k0_pay1 (k0_pay14 (grid0.coords t) (iblk m c 0 t) (iblk m c 1 t) (iblk m c 2 t) (iblk m c 3 t)) p.s0 :=
  pieceB_s0 _ _ _ _ _ _ _ _ _ _ _ _ _ _ _ _ _ _ _ _ _ _ _ _ _ _ _ _ _ _ _ _ _ _

theorem stB_s1 (c : Dev nD) (t : Fin cfg0.N) (h0 : ¬t.val % 8 = 0) (h1 : ¬t.val % 8 = 7) (p : St F) :
    rd (runB m c t h0 h1 p).2.1 = k0_pay2 (k0_pay15 (iblk m c 0 t) (iblk m c 1 t) (iblk m c 2 t) (iblk m c 3 t)) p.s1 :=
  pieceB_s1 _ _ _ _ _ _ _ _ _ _ _ _ _ _ _ _ _ _ _ _ _ _ _ _ _ _ _ _ _ _ _ _ _ _

theorem stB_s2 (c : Dev nD) (t : Fin cfg0.N) (h0 : ¬t.val % 8 = 0) (h1 : ¬t.val % 8 = 7) (p : St F) :
    rd (runB m c t h0 h1 p).2.2.1 = k0_pay3 (k0_pay16 (grid0.coords t) (iblk m c 2 t) (iblk m c 3 t)) p.s2 :=
  pieceB_s2 _ _ _ _ _ _ _ _ _ _ _ _ _ _ _ _ _ _ _ _ _ _ _ _ _ _ _ _ _ _ _ _ _ _

theorem stB_s3 (c : Dev nD) (t : Fin cfg0.N) (h0 : ¬t.val % 8 = 0) (h1 : ¬t.val % 8 = 7) (p : St F) :
    rd (runB m c t h0 h1 p).2.2.2.1 = k0_pay4 (k0_pay13 (iblk m c 2 t) (iblk m c 3 t)) p.s3 :=
  pieceB_s3 _ _ _ _ _ _ _ _ _ _ _ _ _ _ _ _ _ _ _ _ _ _ _ _ _ _ _ _ _ _ _ _ _ _

/-- A middle key tile folds the columns the tile before left with the point's blocks. -/
theorem stB_cols (c : Dev nD) (t : Fin cfg0.N) (h0 : ¬t.val % 8 = 0) (h1 : ¬t.val % 8 = 7) (p : St F) :
    cols (stB m c t h0 h1 p) = upd4 (grid0.coords t) (iblk m c 0 t) (iblk m c 1 t) (iblk m c 2 t) (iblk m c 3 t) (cols p) := by
  unfold stB cols upd4
  dsimp only
  exact congr (congr (congr (congrArg Cols4.mk (stB_s0 m c t h0 h1 p)) (stB_s1 m c t h0 h1 p)) (stB_s2 m c t h0 h1 p)) (stB_s3 m c t h0 h1 p)

end Cert.KernelIdeal.Fr

end
-- ==== Proof.KI.PiecesC.lean ====
/-
  The last key tile, read back as values. The four scratch columns are folded exactly as at a middle tile; then
  each output buffer is written through one covering store whose payload is what a load of the finished column
  reads — the fold just stored — or, for the third output, the product of the two such loads of the indicator
  columns.
-/
import proofs.«107534_j40690520162810_1_alg».proof.Proof.KI.PiecesDefs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Column 0 after the last tile: folded once more. -/
theorem pieceC_s0 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x512 .bf16) (x1 : Vec F S512x512 .bf16) (l0 : Vec F S512 .i32) (l1 : Vec F S512 .i32) (xs0 xs1 xs2 xs3 : Vec F S512x1 .f32) :
    rd (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.2.1 = k0_pay1 (k0_pay14 i x0 x1 l0 l1) xs0 := by
  unfold rd
  rw [View.read_writes_eq_canon _ _ _ (coverC_s0 c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3)]
  unfold kernelRun0_C
  dsimp only
  sl_unfold_words
  rw [View.canon_unit_zero hz2]
  simp only [View.readAt_eq_ld, harg2.read_unread, harg3.read_unread, harg4.read_unread, harg5.read_unread, harg9.read_unread, harg10.read_unread, harg11.read_unread, harg12.read_unread, View.ld_unit_zero (S := S512x1) hz2, View.ld_unit_zero (S := S512x512) hz2, View.ld_unit_zero (S := S512) hz1]

/-- Column 1 after the last tile: folded once more. -/
theorem pieceC_s1 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x512 .bf16) (x1 : Vec F S512x512 .bf16) (l0 : Vec F S512 .i32) (l1 : Vec F S512 .i32) (xs0 xs1 xs2 xs3 : Vec F S512x1 .f32) :
    rd (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.2.2.1 = k0_pay2 (k0_pay15 x0 x1 l0 l1) xs1 := by
  unfold rd
  rw [View.read_writes_eq_canon _ _ _ (coverC_s1 c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3)]
  unfold kernelRun0_C
  dsimp only
  sl_unfold_words
  rw [View.canon_unit_zero hz2]
  simp only [View.readAt_eq_ld, harg2.read_unread, harg3.read_unread, harg4.read_unread, harg5.read_unread, harg9.read_unread, harg10.read_unread, harg11.read_unread, harg12.read_unread, View.ld_unit_zero (S := S512x1) hz2, View.ld_unit_zero (S := S512x512) hz2, View.ld_unit_zero (S := S512) hz1]

/-- Column 2 after the last tile: folded once more. -/
theorem pieceC_s2 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x512 .bf16) (x1 : Vec F S512x512 .bf16) (l0 : Vec F S512 .i32) (l1 : Vec F S512 .i32) (xs0 xs1 xs2 xs3 : Vec F S512x1 .f32) :
    rd (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.2.2.2.1 = k0_pay3 (k0_pay16 i l0 l1) xs2 := by
  unfold rd
  rw [View.read_writes_eq_canon _ _ _ (coverC_s2 c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3)]
  unfold kernelRun0_C
  dsimp only
  sl_unfold_words
  rw [View.canon_unit_zero hz2]
  simp only [View.readAt_eq_ld, harg2.read_unread, harg3.read_unread, harg4.read_unread, harg5.read_unread, harg9.read_unread, harg10.read_unread, harg11.read_unread, harg12.read_unread, View.ld_unit_zero (S := S512x1) hz2, View.ld_unit_zero (S := S512x512) hz2, View.ld_unit_zero (S := S512) hz1]

/-- Column 3 after the last tile: folded once more. -/
theorem pieceC_s3 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x512 .bf16) (x1 : Vec F S512x512 .bf16) (l0 : Vec F S512 .i32) (l1 : Vec F S512 .i32) (xs0 xs1 xs2 xs3 : Vec F S512x1 .f32) :
    rd (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.2.2.2.2.1 = k0_pay4 (k0_pay13 l0 l1) xs3 := by
  unfold rd
  rw [View.read_writes_eq_canon _ _ _ (coverC_s3 c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3)]
  unfold kernelRun0_C
  dsimp only
  sl_unfold_words
  rw [View.canon_unit_zero hz2]
  simp only [View.readAt_eq_ld, harg2.read_unread, harg3.read_unread, harg4.read_unread, harg5.read_unread, harg9.read_unread, harg10.read_unread, harg11.read_unread, harg12.read_unread, View.ld_unit_zero (S := S512x1) hz2, View.ld_unit_zero (S := S512x512) hz2, View.ld_unit_zero (S := S512) hz1]

/-- The first output: the finished first column, read back after its fold. -/
theorem pieceC_o4 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x512 .bf16) (x1 : Vec F S512x512 .bf16) (l0 : Vec F S512 .i32) (l1 : Vec F S512 .i32) (xs0 xs1 xs2 xs3 : Vec F S512x1 .f32) :
    rd (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).1 = k0_pay1 (k0_pay14 i x0 x1 l0 l1) xs0 := by
  unfold rd
  rw [View.read_writes_eq_canon _ _ _ (coverC_o4 c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3)]
  unfold kernelRun0_C
  dsimp only
  sl_unfold_words
  rw [View.canon_unit_zero hz2]
  simp only [View.readCov_unit_zero (S := S512x1) _ hz2, View.readAt_eq_ld, harg2.read_unread, harg3.read_unread, harg4.read_unread, harg5.read_unread, harg9.read_unread, harg10.read_unread, harg11.read_unread, harg12.read_unread, View.ld_unit_zero (S := S512x1) hz2, View.ld_unit_zero (S := S512x512) hz2, View.ld_unit_zero (S := S512) hz1]

/-- The second output: the finished second column. -/
theorem pieceC_o5 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x512 .bf16) (x1 : Vec F S512x512 .bf16) (l0 : Vec F S512 .i32) (l1 : Vec F S512 .i32) (xs0 xs1 xs2 xs3 : Vec F S512x1 .f32) :
    rd (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.1 = k0_pay2 (k0_pay15 x0 x1 l0 l1) xs1 := by
  unfold rd
  rw [View.read_writes_eq_canon _ _ _ (coverC_o5 c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3)]
  unfold kernelRun0_C
  dsimp only
  sl_unfold_words
  rw [View.canon_unit_zero hz2]
  simp only [View.readCov_unit_zero (S := S512x1) _ hz2, View.readAt_eq_ld, harg2.read_unread, harg3.read_unread, harg4.read_unread, harg5.read_unread, harg9.read_unread, harg10.read_unread, harg11.read_unread, harg12.read_unread, View.ld_unit_zero (S := S512x1) hz2, View.ld_unit_zero (S := S512x512) hz2, View.ld_unit_zero (S := S512) hz1]

/-- The third output: the product of the finished third and fourth columns. -/
theorem pieceC_o6 (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512 .i32) (harg4 : arg4.IsWhole) (arg5 : Memref sig .tc .vmem S512 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x512 .bf16) (x1 : Vec F S512x512 .bf16) (l0 : Vec F S512 .i32) (l1 : Vec F S512 .i32) (xs0 xs1 xs2 xs3 : Vec F S512x1 .f32) :
    rd (kernelRun0_C c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3).2.2.1 = k0_pay5 (k0_pay3 (k0_pay16 i l0 l1) xs2) (k0_pay4 (k0_pay13 l0 l1) xs3) := by
  unfold rd
  rw [View.read_writes_eq_canon _ _ _ (coverC_o6 c i arg2 harg2 arg3 harg3 arg4 harg4 arg5 harg5 arg6 harg6 arg7 harg7 arg8 harg8 arg9 harg9 arg10 harg10 arg11 harg11 arg12 harg12 hc0 hc1 x0 x1 l0 l1 xs0 xs1 xs2 xs3)]
  unfold kernelRun0_C
  dsimp only
  sl_unfold_words
  rw [View.canon_unit_zero hz2]
  simp only [View.readCov_unit_zero (S := S512x1) _ hz2, View.readAt_eq_ld, harg2.read_unread, harg3.read_unread, harg4.read_unread, harg5.read_unread, harg9.read_unread, harg10.read_unread, harg11.read_unread, harg12.read_unread, View.ld_unit_zero (S := S512x1) hz2, View.ld_unit_zero (S := S512x512) hz2, View.ld_unit_zero (S := S512) hz1]

/-! ## At a grid point -/

theorem stC_s0 (c : Dev nD) (t : Fin cfg0.N) (h0 : ¬t.val % 8 = 0) (h1 : t.val % 8 = 7) (p : St F) :
    rd (runC m c t h0 h1 p).2.2.2.1 = k0_pay1 (k0_pay14 (grid0.coords t) (iblk m c 0 t) (iblk m c 1 t) (iblk m c 2 t) (iblk m c 3 t)) p.s0 :=
  pieceC_s0 _ _ _ _ _ _ _ _ _ _ _ _ _ _ _ _ _ _ _ _ _ _ _ _ _ _ _ _ _ _ _ _ _ _

theorem stC_s1 (c : Dev nD) (t : Fin cfg0.N) (h0 : ¬t.val % 8 = 0) (h1 : t.val % 8 = 7) (p : St F) :
    rd (runC m c t h0 h1 p).2.2.2.2.1 = k0_pay2 (k0_pay15 (iblk m c 0 t) (iblk m c 1 t) (iblk m c 2 t) (iblk m c 3 t)) p.s1 :=
  pieceC_s1 _ _ _ _ _ _ _ _ _ _ _ _ _ _ _ _ _ _ _ _ _ _ _ _ _ _ _ _ _ _ _ _ _ _

theorem stC_s2 (c : Dev nD) (t : Fin cfg0.N) (h0 : ¬t.val % 8 = 0) (h1 : t.val % 8 = 7) (p : St F) :
    rd (runC m c t h0 h1 p).2.2.2.2.2.1 = k0_pay3 (k0_pay16 (grid0.coords t) (iblk m c 2 t) (iblk m c 3 t)) p.s2 :=
  pieceC_s2 _ _ _ _ _ _ _ _ _ _ _ _ _ _ _ _ _ _ _ _ _ _ _ _ _ _ _ _ _ _ _ _ _ _

theorem stC_s3 (c : Dev nD) (t : Fin cfg0.N) (h0 : ¬t.val % 8 = 0) (h1 : t.val % 8 = 7) (p : St F) :
    rd (runC m c t h0 h1 p).2.2.2.2.2.2.1 = k0_pay4 (k0_pay13 (iblk m c 2 t) (iblk m c 3 t)) p.s3 :=
  pieceC_s3 _ _ _ _ _ _ _ _ _ _ _ _ _ _ _ _ _ _ _ _ _ _ _ _ _ _ _ _ _ _ _ _ _ _

/-- The last key tile folds the columns once more, -/
theorem stC_cols (c : Dev nD) (t : Fin cfg0.N) (h0 : ¬t.val % 8 = 0) (h1 : t.val % 8 = 7) (p : St F) :
    cols (stC m c t h0 h1 p) = upd4 (grid0.coords t) (iblk m c 0 t) (iblk m c 1 t) (iblk m c 2 t) (iblk m c 3 t) (cols p) := by
  unfold stC cols upd4
  dsimp only
  exact congr (congr (congr (congrArg Cols4.mk (stC_s0 m c t h0 h1 p)) (stC_s1 m c t h0 h1 p)) (stC_s2 m c t h0 h1 p)) (stC_s3 m c t h0 h1 p)

theorem stC_w4 (c : Dev nD) (t : Fin cfg0.N) (h0 : ¬t.val % 8 = 0) (h1 : t.val % 8 = 7) (p : St F) :
    rd (runC m c t h0 h1 p).1 = k0_pay1 (k0_pay14 (grid0.coords t) (iblk m c 0 t) (iblk m c 1 t) (iblk m c 2 t) (iblk m c 3 t)) p.s0 :=
  pieceC_o4 _ _ _ _ _ _ _ _ _ _ _ _ _ _ _ _ _ _ _ _ _ _ _ _ _ _ _ _ _ _ _ _ _ _

theorem stC_w5 (c : Dev nD) (t : Fin cfg0.N) (h0 : ¬t.val % 8 = 0) (h1 : t.val % 8 = 7) (p : St F) :
    rd (runC m c t h0 h1 p).2.1 = k0_pay2 (k0_pay15 (iblk m c 0 t) (iblk m c 1 t) (iblk m c 2 t) (iblk m c 3 t)) p.s1 :=
  pieceC_o5 _ _ _ _ _ _ _ _ _ _ _ _ _ _ _ _ _ _ _ _ _ _ _ _ _ _ _ _ _ _ _ _ _ _

theorem stC_w6 (c : Dev nD) (t : Fin cfg0.N) (h0 : ¬t.val % 8 = 0) (h1 : t.val % 8 = 7) (p : St F) :
    rd (runC m c t h0 h1 p).2.2.1 = k0_pay5 (k0_pay3 (k0_pay16 (grid0.coords t) (iblk m c 2 t) (iblk m c 3 t)) p.s2) (k0_pay4 (k0_pay13 (iblk m c 2 t) (iblk m c 3 t)) p.s3) :=
  pieceC_o6 _ _ _ _ _ _ _ _ _ _ _ _ _ _ _ _ _ _ _ _ _ _ _ _ _ _ _ _ _ _ _ _ _ _

/-- hands the first finished column to the first output, -/
theorem stC_o4 (c : Dev nD) (t : Fin cfg0.N) (h0 : ¬t.val % 8 = 0) (h1 : t.val % 8 = 7) (p : St F) :
    (stC m c t h0 h1 p).o4 = (upd4 (grid0.coords t) (iblk m c 0 t) (iblk m c 1 t) (iblk m c 2 t) (iblk m c 3 t) (cols p)).s0 := by
  unfold stC cols upd4
  dsimp only
  exact stC_w4 m c t h0 h1 p

/-- the second to the second, -/
theorem stC_o5 (c : Dev nD) (t : Fin cfg0.N) (h0 : ¬t.val % 8 = 0) (h1 : t.val % 8 = 7) (p : St F) :
    (stC m c t h0 h1 p).o5 = (upd4 (grid0.coords t) (iblk m c 0 t) (iblk m c 1 t) (iblk m c 2 t) (iblk m c 3 t) (cols p)).s1 := by
  unfold stC cols upd4
  dsimp only
  exact stC_w5 m c t h0 h1 p

/-- and the product of the last two to the third. -/
theorem stC_o6 (c : Dev nD) (t : Fin cfg0.N) (h0 : ¬t.val % 8 = 0) (h1 : t.val % 8 = 7) (p : St F) :
    (stC m c t h0 h1 p).o6 = out6 (upd4 (grid0.coords t) (iblk m c 0 t) (iblk m c 1 t) (iblk m c 2 t) (iblk m c 3 t) (cols p)) := by
  unfold stC out6 cols upd4
  dsimp only
  exact stC_w6 m c t h0 h1 p

end Cert.KernelIdeal.Fr

end
-- ==== Proof.KI.AccRow.lean ====
/-
  The accumulation along one anchor row. Anchor row a's eight key tiles are the grid points 8a, 8a + 1, ..., 8a + 7.
  The first resets the four running columns and folds them once, each later one folds them once more with its own
  blocks, and the last also copies the finished columns out. So after key tile j the columns are the (j + 1)-fold
  iterate `accRow a j` of the one-point fold from the starting columns, and the three outputs written at the row's last
  tile are the first two columns and the product of the last two of `accRow a 7`.
-/
import proofs.«107534_j40690520162810_1_alg».proof.Proof.KI.PiecesA
import proofs.«107534_j40690520162810_1_alg».proof.Proof.KI.PiecesB
import proofs.«107534_j40690520162810_1_alg».proof.Proof.KI.PiecesC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Key tile `j` of anchor row `a` is a grid point. -/
theorem rowLt (a : Fin 8) (j : ℕ) (hj : j < 8) : 8 * a.val + j < cfg0.N := by
  rw [show cfg0.N = 64 from N_0]; omega

/-- The four columns after key tile `j` of anchor row `a`: the fold of the starting columns over tiles 0 to `j`. -/
def accRow (c : Dev nD) (a : Fin 8) : (j : ℕ) → j < 8 → Cols4 F
  | 0, h => upd4 (grid0.coords (⟨8 * a.val + 0, rowLt a 0 h⟩ : Fin cfg0.N)) (iblk m c 0 (⟨8 * a.val + 0, rowLt a 0 h⟩ : Fin cfg0.N)) (iblk m c 1 (⟨8 * a.val + 0, rowLt a 0 h⟩ : Fin cfg0.N)) (iblk m c 2 (⟨8 * a.val + 0, rowLt a 0 h⟩ : Fin cfg0.N)) (iblk m c 3 (⟨8 * a.val + 0, rowLt a 0 h⟩ : Fin cfg0.N)) init4
  | j + 1, h => upd4 (grid0.coords (⟨8 * a.val + j + 1, rowLt a (j + 1) h⟩ : Fin cfg0.N)) (iblk m c 0 (⟨8 * a.val + j + 1, rowLt a (j + 1) h⟩ : Fin cfg0.N)) (iblk m c 1 (⟨8 * a.val + j + 1, rowLt a (j + 1) h⟩ : Fin cfg0.N)) (iblk m c 2 (⟨8 * a.val + j + 1, rowLt a (j + 1) h⟩ : Fin cfg0.N)) (iblk m c 3 (⟨8 * a.val + j + 1, rowLt a (j + 1) h⟩ : Fin cfg0.N))
      (accRow c a j (Nat.lt_of_succ_lt h))

theorem accRow_zero (c : Dev nD) (a : Fin 8) (h : 0 < 8) :
    accRow m c a 0 h = upd4 (grid0.coords (⟨8 * a.val + 0, rowLt a 0 h⟩ : Fin cfg0.N)) (iblk m c 0 (⟨8 * a.val + 0, rowLt a 0 h⟩ : Fin cfg0.N)) (iblk m c 1 (⟨8 * a.val + 0, rowLt a 0 h⟩ : Fin cfg0.N)) (iblk m c 2 (⟨8 * a.val + 0, rowLt a 0 h⟩ : Fin cfg0.N)) (iblk m c 3 (⟨8 * a.val + 0, rowLt a 0 h⟩ : Fin cfg0.N)) init4 := rfl

theorem accRow_succ (c : Dev nD) (a : Fin 8) (j : ℕ) (hj : j + 1 < 8) :
    accRow m c a (j + 1) hj = upd4 (grid0.coords (⟨8 * a.val + j + 1, rowLt a (j + 1) hj⟩ : Fin cfg0.N)) (iblk m c 0 (⟨8 * a.val + j + 1, rowLt a (j + 1) hj⟩ : Fin cfg0.N)) (iblk m c 1 (⟨8 * a.val + j + 1, rowLt a (j + 1) hj⟩ : Fin cfg0.N)) (iblk m c 2 (⟨8 * a.val + j + 1, rowLt a (j + 1) hj⟩ : Fin cfg0.N)) (iblk m c 3 (⟨8 * a.val + j + 1, rowLt a (j + 1) hj⟩ : Fin cfg0.N))
      (accRow m c a j (Nat.lt_of_succ_lt hj)) := rfl

/-- The contents after a point do not depend on how the point's number is written. -/
theorem outsAt0_congr (c : Dev nD) (n n' : ℕ) (e : n = n') (h : n < cfg0.N) (h' : n' < cfg0.N) :
    outsAt0 m c n h = outsAt0 m c n' h' := by subst e; rfl

/-- After key tile `j` of anchor row `a` the scratch columns hold `accRow a j`. -/
theorem outsAt0_row (c : Dev nD) (a : Fin 8) : ∀ (j : ℕ) (hj : j < 8),
    cols (outsAt0 m c (8 * a.val + j) (rowLt a j hj)) = accRow m c a j hj
  | 0, hj => by
    have h0 : (⟨8 * a.val + 0, rowLt a 0 hj⟩ : Fin cfg0.N).val % 8 = 0 := by show (8 * a.val + 0) % 8 = 0; omega
    have e := outsAt0_A m c (⟨8 * a.val + 0, rowLt a 0 hj⟩ : Fin cfg0.N) h0
    rw [show outsAt0 m c (8 * a.val + 0) (rowLt a 0 hj) = stA m c (⟨8 * a.val + 0, rowLt a 0 hj⟩ : Fin cfg0.N) h0 from e, stA_cols m c (⟨8 * a.val + 0, rowLt a 0 hj⟩ : Fin cfg0.N) h0]
    rfl
  | j + 1, hj => by
    have h0 : ¬(⟨8 * a.val + j + 1, rowLt a (j + 1) hj⟩ : Fin cfg0.N).val % 8 = 0 := by show ¬(8 * a.val + (j + 1)) % 8 = 0; omega
    have ih := outsAt0_row c a j (Nat.lt_of_succ_lt hj)
    have eprev : outsAt0 m c ((⟨8 * a.val + j + 1, rowLt a (j + 1) hj⟩ : Fin cfg0.N).val - 1) (Nat.lt_of_le_of_lt (Nat.sub_le _ _) (⟨8 * a.val + j + 1, rowLt a (j + 1) hj⟩ : Fin cfg0.N).isLt)
        = outsAt0 m c (8 * a.val + j) (rowLt a j (Nat.lt_of_succ_lt hj)) :=
      outsAt0_congr m c _ _ (by show 8 * a.val + (j + 1) - 1 = 8 * a.val + j; omega) _ _
    by_cases h1 : (⟨8 * a.val + j + 1, rowLt a (j + 1) hj⟩ : Fin cfg0.N).val % 8 = 7
    · have e := outsAt0_C m c (⟨8 * a.val + j + 1, rowLt a (j + 1) hj⟩ : Fin cfg0.N) h0 h1
      rw [show outsAt0 m c (8 * a.val + (j + 1)) (rowLt a (j + 1) hj) = _ from e, stC_cols m c (⟨8 * a.val + j + 1, rowLt a (j + 1) hj⟩ : Fin cfg0.N) h0 h1, eprev, ih]
      rfl
    · have e := outsAt0_B m c (⟨8 * a.val + j + 1, rowLt a (j + 1) hj⟩ : Fin cfg0.N) h0 h1
      rw [show outsAt0 m c (8 * a.val + (j + 1)) (rowLt a (j + 1) hj) = _ from e, stB_cols m c (⟨8 * a.val + j + 1, rowLt a (j + 1) hj⟩ : Fin cfg0.N) h0 h1, eprev, ih]
      rfl

/-- What the row's last tile leaves: from the columns after tile 6. -/
theorem outsAt0_last (c : Dev nD) (a : Fin 8) :
    ∃ (h0 : ¬(⟨8 * a.val + 7, rowLt a (7) (by decide)⟩ : Fin cfg0.N).val % 8 = 0) (h1 : (⟨8 * a.val + 7, rowLt a (7) (by decide)⟩ : Fin cfg0.N).val % 8 = 7),
      outsAt0 m c (8 * a.val + 7) (rowLt a 7 (by decide))
        = stC m c (⟨8 * a.val + 7, rowLt a (7) (by decide)⟩ : Fin cfg0.N) h0 h1 (outsAt0 m c (8 * a.val + 6) (rowLt a 6 (by decide))) := by
  have h0 : ¬(⟨8 * a.val + 7, rowLt a (7) (by decide)⟩ : Fin cfg0.N).val % 8 = 0 := by show ¬(8 * a.val + 7) % 8 = 0; omega
  have h1 : (⟨8 * a.val + 7, rowLt a (7) (by decide)⟩ : Fin cfg0.N).val % 8 = 7 := by show (8 * a.val + 7) % 8 = 7; omega
  refine ⟨h0, h1, ?_⟩
  have e := outsAt0_C m c (⟨8 * a.val + 7, rowLt a (7) (by decide)⟩ : Fin cfg0.N) h0 h1
  rw [show outsAt0 m c (8 * a.val + 7) (rowLt a 7 (by decide)) = _ from e]
  rw [outsAt0_congr m c ((⟨8 * a.val + 7, rowLt a (7) (by decide)⟩ : Fin cfg0.N).val - 1) (8 * a.val + 6) (by show 8 * a.val + 7 - 1 = 8 * a.val + 6; omega) _ (rowLt a 6 (by decide))]

/-- The first output of anchor row `a`: the finished first column. -/
theorem out_row4 (c : Dev nD) (a : Fin 8) :
    (outsAt0 m c (8 * a.val + 7) (rowLt a 7 (by decide))).o4 = (accRow m c a 7 (by decide)).s0 := by
  obtain ⟨h0, h1, e⟩ := outsAt0_last m c a
  rw [e, stC_o4 m c _ h0 h1, outsAt0_row m c a 6 (by decide)]
  rfl

/-- The second output: the finished second column. -/
theorem out_row5 (c : Dev nD) (a : Fin 8) :
    (outsAt0 m c (8 * a.val + 7) (rowLt a 7 (by decide))).o5 = (accRow m c a 7 (by decide)).s1 := by
  obtain ⟨h0, h1, e⟩ := outsAt0_last m c a
  rw [e, stC_o5 m c _ h0 h1, outsAt0_row m c a 6 (by decide)]
  rfl

/-- The third output: the product of the finished third and fourth columns. -/
theorem out_row6 (c : Dev nD) (a : Fin 8) :
    (outsAt0 m c (8 * a.val + 7) (rowLt a 7 (by decide))).o6 = out6 (accRow m c a 7 (by decide)) := by
  obtain ⟨h0, h1, e⟩ := outsAt0_last m c a
  rw [e, stC_o6 m c _ h0 h1, outsAt0_row m c a 6 (by decide)]
  rfl

end Cert.KernelIdeal.Fr

end
-- ==== Proof.Spec.lean ====
import Idealize.ShloMosaic.PureOps.Ideal
import Idealize.ShloMosaic.PureOps.Ideal.Laws
import Idealize.ShloMosaic.Lib.ValueIdx
import Mathlib.Data.EReal.Basic
import Mathlib.Order.CompleteLattice.Finset
import Mathlib.Data.Fintype.Prod
import Mathlib.Logic.Equiv.Fin.Basic

/-!
The mathematical statement both programs compute, over the extended reals.

Rows of a normalised embedding matrix `e` are compared by the cosine distance
`dist r q = 1 - ⟨e r, e q⟩`. For an anchor row `r`, a key row `q` is *positive* when it carries
the same label and is another row, *negative* when it carries another label. The hardest positive
is the largest distance over the positives, the hardest negative the smallest over the negatives;
the two are written as a supremum and an infimum over ALL keys of a masked distance whose value off
the mask is a sentinel (`-1`, resp. `3`). An anchor is *valid* when it has a positive and a
negative. The epilogue `tail` turns the three per-row quantities into the mean hinge loss.
-/

noncomputable section

namespace Cert.Spec

open Idealize.ShloMosaic

/-- Anchor (and key) rows. -/
abbrev Rows := Fin 4096
/-- Embedding coordinates. -/
abbrev Cols := Fin 512

/-- Cosine distance of rows `r` and `q` of `e`: one minus their inner product. -/
def dist (e : Rows → Cols → EReal) (r q : Rows) : EReal :=
  Ideal.ofBits .f32 0x3F800000#32 - ∑ k : Cols, e r k * e q k

/-- `q` is a positive for anchor `r`: same label, another row. -/
def pos (lab : Rows → BitVec 32) (r q : Rows) : Prop := lab r = lab q ∧ r ≠ q

/-- `q` is a negative for anchor `r`: another label. -/
def neg (lab : Rows → BitVec 32) (r q : Rows) : Prop := lab r ≠ lab q

instance (lab : Rows → BitVec 32) (r q : Rows) : Decidable (pos lab r q) := by
  unfold pos; infer_instance

instance (lab : Rows → BitVec 32) (r q : Rows) : Decidable (neg lab r q) := by
  unfold neg; infer_instance

/-- The distance on the positives, the sentinel `-1` elsewhere. -/
def dpos (e : Rows → Cols → EReal) (lab : Rows → BitVec 32) (r q : Rows) : EReal :=
  if pos lab r q then dist e r q else Ideal.ofBits .f32 0xBF800000#32

/-- The distance on the negatives, the sentinel `3` elsewhere. -/
def dneg (e : Rows → Cols → EReal) (lab : Rows → BitVec 32) (r q : Rows) : EReal :=
  if neg lab r q then dist e r q else Ideal.ofBits .f32 0x40400000#32

/-- Hardest positive of anchor `r`: the largest masked distance over all keys. -/
def rowPos (e : Rows → Cols → EReal) (lab : Rows → BitVec 32) (r : Rows) : EReal :=
  Finset.univ.sup (dpos e lab r)

/-- Hardest negative of anchor `r`: the smallest masked distance over all keys. -/
def rowNeg (e : Rows → Cols → EReal) (lab : Rows → BitVec 32) (r : Rows) : EReal :=
  Finset.univ.inf (dneg e lab r)

/-- Anchor `r` has a positive and a negative. -/
def valid (lab : Rows → BitVec 32) (r : Rows) : Prop := (∃ q, pos lab r q) ∧ (∃ q, neg lab r q)

instance (lab : Rows → BitVec 32) (r : Rows) : Decidable (valid lab r) := by
  unfold valid; infer_instance

/-- A matrix of extended reals by its row and column. -/
def eOf (y : FVec Ideal ⟨2, ![4096, 512]⟩ .f32) : Rows → Cols → EReal :=
  fun r k => y (ValueIdx.ix2 r k)

/-- A vector of labels by its row. -/
def labOf (l : IVec ⟨1, ![4096]⟩ 32) : Rows → BitVec 32 :=
  fun r => l (ValueIdx.ix1 r)

/-- The epilogue: from the per-row hardest positive `hp`, hardest negative `hn` and validity bit
    `vd`, the hinge `max (hp - hn + 0.2) 0` on the valid rows and `0` elsewhere, summed, divided by
    the number of valid rows (at least one). -/
def tail (hp hn : FVec Ideal ⟨1, ![4096]⟩ .f32) (vd : IVec ⟨1, ![4096]⟩ 1) : FVec Ideal ⟨0, ![]⟩ .f32 :=
  Host.divf
    (Host.reduceAdd
      (select vd
        (maximumf
          (addf (subf hp hn)
            (broadcastInDim ⟨1, ![4096]⟩ ![] (by decide) (constant (F := Ideal) ⟨0, ![]⟩ .f32 0x3E4CCCCD#32)))
          (broadcastInDim ⟨1, ![4096]⟩ ![] (by decide) (constant (F := Ideal) ⟨0, ![]⟩ .f32 0x00000000#32)))
        (broadcastInDim ⟨1, ![4096]⟩ ![] (by decide) (id (constant (F := Ideal) ⟨0, ![]⟩ .f32 0x00000000#32))))
      (constant (F := Ideal) ⟨0, ![]⟩ .f32 0x00000000#32)
      (show (⟨1, ![4096]⟩ : Shape).ReducesTo [0] ⟨0, ![]⟩ by decide) (show 0 < (⟨0, ![]⟩ : Shape).numel by decide))
    (sitofp .f32
      (maxsi
        (Host.reduce IntOp.addi (extui 32 vd (by decide)) (constantI ⟨0, ![]⟩ 32 0#32)
          (show (⟨1, ![4096]⟩ : Shape).ReducesTo [0] ⟨0, ![]⟩ by decide) (show 0 < (⟨0, ![]⟩ : Shape).numel by decide))
        (constantI ⟨0, ![]⟩ 32 1#32)))

end Cert.Spec

end
-- ==== Proof.SpecLaws.lean ====
import Idealize.ShloMosaic.PureOps.Ideal
import Mathlib.Data.EReal.Basic
import Mathlib.Order.CompleteLattice.Finset
import Mathlib.Data.Finset.Lattice.Prod
import Mathlib.Data.Finset.Lattice.Fold
import Mathlib.Data.Fintype.Basic
import Mathlib.Data.Fintype.Prod
import Mathlib.Data.Finset.BooleanAlgebra

/-!
Lattice laws over the extended reals, free of any program.

A row of 4096 keys is cut into 8 tiles of 512. Taking the maximum of each tile and folding the
tile maxima into a running maximum that starts at a value `c` gives the maximum over the whole
row, provided `c` is itself one of the row's values (it is then absorbed). Dually for minima.
The keys of tile `j` are `512 * j + p`, which is a bijection of `Fin 8 × Fin 512` with `Fin 4096`.
Last, the product of two indicators exceeds one half exactly when both are one, and the maximum
of an indicator over a finite nonempty type is the indicator of existence.
-/

noncomputable section

namespace Cert.Spec

open Idealize.ShloMosaic

/-! ### A running maximum over a list is the maximum with the supremum of the list -/

theorem foldl_max_eq {ι : Type} [DecidableEq ι] (g : ι → EReal) (l : List ι) (c : EReal) :
    l.foldl (fun a j => max a (g j)) c = max c (l.toFinset.sup g) := by
  induction l generalizing c with
  | nil => simp
  | cons j l ih =>
    rw [List.foldl_cons, ih, List.toFinset_cons, Finset.sup_insert, max_assoc]

theorem foldl_min_eq {ι : Type} [DecidableEq ι] (g : ι → EReal) (l : List ι) (c : EReal) :
    l.foldl (fun a j => min a (g j)) c = min c (l.toFinset.inf g) := by
  induction l generalizing c with
  | nil => simp
  | cons j l ih =>
    rw [List.foldl_cons, ih, List.toFinset_cons, Finset.inf_insert, min_assoc]

/-! ### Eight tiles of 512 -/

/-- Folding the eight tile maxima into a running maximum started at `c`, a value the data attains,
    is the maximum over all tiles and positions. -/
theorem fold_max_tiles (f : Fin 8 → Fin 512 → EReal) (c : EReal) (hc : ∃ j p, f j p = c) :
    (List.finRange 8).foldl (fun a j => max a (Finset.univ.sup (f j))) c
      = Finset.univ.sup (fun jp : Fin 8 × Fin 512 => f jp.1 jp.2) := by
  rw [foldl_max_eq, List.toFinset_finRange]
  have h2 : Finset.univ.sup (fun j : Fin 8 => Finset.univ.sup (f j))
      = Finset.univ.sup (fun jp : Fin 8 × Fin 512 => f jp.1 jp.2) := by
    rw [← Finset.univ_product_univ, Finset.sup_product_left]
  rw [h2]
  obtain ⟨j, p, rfl⟩ := hc
  exact max_eq_right (Finset.le_sup (f := fun jp : Fin 8 × Fin 512 => f jp.1 jp.2) (Finset.mem_univ (j, p)))

/-- Folding the eight tile minima into a running minimum started at `c`, a value the data attains,
    is the minimum over all tiles and positions. -/
theorem fold_min_tiles (f : Fin 8 → Fin 512 → EReal) (c : EReal) (hc : ∃ j p, f j p = c) :
    (List.finRange 8).foldl (fun a j => min a (Finset.univ.inf (f j))) c
      = Finset.univ.inf (fun jp : Fin 8 × Fin 512 => f jp.1 jp.2) := by
  rw [foldl_min_eq, List.toFinset_finRange]
  have h2 : Finset.univ.inf (fun j : Fin 8 => Finset.univ.inf (f j))
      = Finset.univ.inf (fun jp : Fin 8 × Fin 512 => f jp.1 jp.2) := by
    rw [← Finset.univ_product_univ, Finset.inf_product_left]
  rw [h2]
  obtain ⟨j, p, rfl⟩ := hc
  exact min_eq_right (Finset.inf_le (f := fun jp : Fin 8 × Fin 512 => f jp.1 jp.2) (Finset.mem_univ (j, p)))

/-- The same fold with its eight steps written out. -/
theorem fold_max_tiles_explicit (f : Fin 8 → Fin 512 → EReal) (c : EReal) (hc : ∃ j p, f j p = c) :
    max (max (max (max (max (max (max (max c (Finset.univ.sup (f 0))) (Finset.univ.sup (f 1))) (Finset.univ.sup (f 2)))
      (Finset.univ.sup (f 3))) (Finset.univ.sup (f 4))) (Finset.univ.sup (f 5))) (Finset.univ.sup (f 6))) (Finset.univ.sup (f 7))
      = Finset.univ.sup (fun jp : Fin 8 × Fin 512 => f jp.1 jp.2) := by
  rw [← fold_max_tiles f c hc]; rfl

theorem fold_min_tiles_explicit (f : Fin 8 → Fin 512 → EReal) (c : EReal) (hc : ∃ j p, f j p = c) :
    min (min (min (min (min (min (min (min c (Finset.univ.inf (f 0))) (Finset.univ.inf (f 1))) (Finset.univ.inf (f 2)))
      (Finset.univ.inf (f 3))) (Finset.univ.inf (f 4))) (Finset.univ.inf (f 5))) (Finset.univ.inf (f 6))) (Finset.univ.inf (f 7))
      = Finset.univ.inf (fun jp : Fin 8 × Fin 512 => f jp.1 jp.2) := by
  rw [← fold_min_tiles f c hc]; rfl

/-- Key `512 * j + p` of tile `j`, position `p`. -/
def tileEquiv : Fin 8 × Fin 512 ≃ Fin 4096 where
  toFun jp := ⟨512 * jp.1.val + jp.2.val, by omega⟩
  invFun q := (⟨q.val / 512, by omega⟩, ⟨q.val % 512, by omega⟩)
  left_inv := by
    rintro ⟨j, p⟩
    refine Prod.ext (Fin.ext ?_) (Fin.ext ?_)
    · show (512 * j.val + p.val) / 512 = j.val; omega
    · show (512 * j.val + p.val) % 512 = p.val; omega
  right_inv := by
    intro q
    refine Fin.ext ?_
    show 512 * (q.val / 512) + q.val % 512 = q.val; omega

theorem tileEquiv_val (j : Fin 8) (p : Fin 512) : (tileEquiv (j, p)).val = 512 * j.val + p.val := rfl

/-- The maximum over tiles and positions is the maximum over keys. -/
theorem sup_tiles (g : Fin 4096 → EReal) :
    Finset.univ.sup (fun jp : Fin 8 × Fin 512 => g (tileEquiv jp)) = Finset.univ.sup g := by
  rw [← Finset.map_univ_equiv tileEquiv, Finset.sup_map]; rfl

/-- The minimum over tiles and positions is the minimum over keys. -/
theorem inf_tiles (g : Fin 4096 → EReal) :
    Finset.univ.inf (fun jp : Fin 8 × Fin 512 => g (tileEquiv jp)) = Finset.univ.inf g := by
  rw [← Finset.map_univ_equiv tileEquiv, Finset.inf_map]; rfl

/-- The tiled running maximum of a row of 4096 keys is the row's maximum. -/
theorem fold_max_row (g : Fin 4096 → EReal) (c : EReal) (hc : ∃ q, g q = c) :
    (List.finRange 8).foldl (fun a j => max a (Finset.univ.sup fun p : Fin 512 => g (tileEquiv (j, p)))) c
      = Finset.univ.sup g := by
  rw [← sup_tiles g]
  refine fold_max_tiles (fun j p => g (tileEquiv (j, p))) c ?_
  obtain ⟨q, hq⟩ := hc
  exact ⟨(tileEquiv.symm q).1, (tileEquiv.symm q).2, by rw [Prod.mk.eta, Equiv.apply_symm_apply, hq]⟩

/-- The tiled running minimum of a row of 4096 keys is the row's minimum. -/
theorem fold_min_row (g : Fin 4096 → EReal) (c : EReal) (hc : ∃ q, g q = c) :
    (List.finRange 8).foldl (fun a j => min a (Finset.univ.inf fun p : Fin 512 => g (tileEquiv (j, p)))) c
      = Finset.univ.inf g := by
  rw [← inf_tiles g]
  refine fold_min_tiles (fun j p => g (tileEquiv (j, p))) c ?_
  obtain ⟨q, hq⟩ := hc
  exact ⟨(tileEquiv.symm q).1, (tileEquiv.symm q).2, by rw [Prod.mk.eta, Equiv.apply_symm_apply, hq]⟩

/-! ### Indicators -/

/-- The word `0x3F000000` denotes one half. -/
theorem ofBits_half : Ideal.ofBits .f32 0x3F000000#32 = (((1 : ℝ) / 2 : ℝ) : EReal) := by
  simp [Ideal.ofBits, Ideal.ieee, -EReal.coe_mul]; norm_num

/-- A product of two indicators exceeds one half exactly when both are one. -/
theorem valid_of_indicators (a b : EReal) (ha : a = 0 ∨ a = 1) (hb : b = 0 ∨ b = 1) :
    Ideal.ofBits .f32 0x3F000000#32 < a * b ↔ a = 1 ∧ b = 1 := by
  rw [ofBits_half]
  have h01 : ¬ ((((1 : ℝ) / 2 : ℝ) : EReal) < 0) := by
    rw [← EReal.coe_zero, EReal.coe_lt_coe_iff]; norm_num
  have h11 : (((1 : ℝ) / 2 : ℝ) : EReal) < 1 := by
    rw [← EReal.coe_one, EReal.coe_lt_coe_iff]; norm_num
  have hne : (0 : EReal) ≠ 1 := zero_ne_one
  rcases ha with rfl | rfl <;> rcases hb with rfl | rfl
  · rw [zero_mul]; exact ⟨fun h => absurd h h01, fun h => absurd h.1 hne⟩
  · rw [zero_mul]; exact ⟨fun h => absurd h h01, fun h => absurd h.1 hne⟩
  · rw [mul_zero]; exact ⟨fun h => absurd h h01, fun h => absurd h.2 hne⟩
  · rw [one_mul]; exact ⟨fun _ => ⟨rfl, rfl⟩, fun _ => h11⟩

/-- The maximum of an indicator over a finite nonempty type is the indicator of existence. -/
theorem sup_indicator {ι : Type} [Fintype ι] [Nonempty ι] (P : ι → Prop) [DecidablePred P] :
    Finset.univ.sup (fun q => if P q then (1 : EReal) else 0) = if ∃ q, P q then 1 else 0 := by
  by_cases h : ∃ q, P q
  · rw [if_pos h]
    obtain ⟨q, hq⟩ := h
    refine le_antisymm (Finset.sup_le fun i _ => ?_) ?_
    · by_cases hi : P i
      · rw [if_pos hi]
      · rw [if_neg hi]; exact zero_le_one
    · have := Finset.le_sup (f := fun q => if P q then (1 : EReal) else 0) (Finset.mem_univ q)
      simpa [hq] using this
  · rw [if_neg h]
    have hall : ∀ i, ¬ P i := fun i hi => h ⟨i, hi⟩
    refine le_antisymm (Finset.sup_le fun i _ => ?_) ?_
    · rw [if_neg (hall i)]
    · obtain ⟨i⟩ := ‹Nonempty ι›
      have := Finset.le_sup (f := fun q => if P q then (1 : EReal) else 0) (Finset.mem_univ i)
      simpa [hall i] using this

end Cert.Spec

end
-- ==== Proof.KI.AccMasks.lean ====
/-
  One grid point's label arithmetic read at an index, in the terms of the specification.

  Entry (p, q) of the label test compares the label of row 512 a + p of the anchor tile with the label of row
  512 j + q of the key tile. The diagonal test compares the two row numbers as 32-bit words; both are below 4096,
  so the words are equal exactly when the rows are. A one-bit mask widened and converted is the indicator 0 or 1,
  a lane maximum from minus infinity is the supremum over the key tile, and the fold into a running column is the
  maximum with it.
-/
import proofs.«107534_j40690520162810_1_alg».proof.Proof.KI.Acc
import proofs.«107534_j40690520162810_1_alg».proof.Proof.Spec
import proofs.«107534_j40690520162810_1_alg».proof.Proof.SpecLaws
import Idealize.ShloMosaic.PureOps.Ideal.Laws
import Idealize.ShloMosaic.Lib.ValueIdx
import Idealize.ShloMosaic.Lib.ValueLayout

set_option maxRecDepth 16384

noncomputable section

namespace Cert.KernelIdeal.Fr

open Cert.KernelIdeal Cert.KernelIdeal.Gen
open Idealize.ShloMosaic Idealize.ShloMosaic.ValueIdx
open Cert.Spec (tileEquiv)

/-! ### Layout: a vector as a column, a column spread over the lanes -/

/-- An [n] vector cast to an [n, 1] column reads, at (p, u), the vector at p. -/
theorem shapeCast_a_a1_apply {α : Type} {n : ℕ} (x : (⟨1, ![n]⟩ : Shape).Idx → α)
    (h : (⟨1, ![n]⟩ : Shape).ShapeCasts ⟨2, ![n, 1]⟩) (p : Fin n) (u : Fin 1) :
    shapeCast ⟨2, ![n, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [n, 1] column broadcast to [n, m] reads, at (p, q), the column at p. -/
theorem broadcastTo_a1_ab_apply {α : Type} {n m : ℕ} (hn : n ≠ 1) (v : (⟨2, ![n, 1]⟩ : Shape).Idx → α)
    (h : (⟨2, ![n, 1]⟩ : Shape).Broadcasts ⟨2, ![n, m]⟩) (p : Fin n) (q : Fin m) :
    broadcastTo ⟨2, ![n, m]⟩ v h (ix2 p q) = v (ix2 p (0 : Fin 1)) := by
  refine broadcastTo_apply v h (ix2 p q) (ix2 p (0 : Fin 1)) fun ax => ?_
  match ax with
  | ⟨0, _⟩ =>
    show p.val = if n = 1 then 0 else p.val
    rw [if_neg hn]
  | ⟨1, _⟩ =>
    show 0 = if (1 : ℕ) = 1 then 0 else q.val
    rw [if_pos rfl]

/-! ### Words -/

/-- The equality test of two words as a one-bit word. -/
theorem cmpi_eq_ite {w : ℕ} (x y : BitVec w) : IntOp.cmpi .eq x y = if x = y then 1#1 else 0#1 := by
  by_cases h : x = y
  · subst h; simp [IntOp.cmpi]
  · rw [if_neg h]
    show BitVec.ofBool (x == y) = 0#1
    rw [beq_eq_false_iff_ne.mpr h]; rfl

/-- Two numbers below 4096 are equal exactly when their 32-bit words are. -/
theorem ofNat32_inj {m n : ℕ} (hm : m < 4096) (hn : n < 4096) : BitVec.ofNat 32 m = BitVec.ofNat 32 n ↔ m = n := by
  constructor
  · intro h
    have := congrArg BitVec.toNat h
    simp only [BitVec.toNat_ofNat] at this
    omega
  · intro h; rw [h]

/-- Row 512 t + p as a word: the tile number times 512 plus the position, in 32-bit arithmetic. -/
theorem rowWord (t p : ℕ) :
    IntOp.addi (Scalar.muli (BitVec.ofNat 32 t) 512#32) (BitVec.ofNat 32 p) = BitVec.ofNat 32 (512 * t + p) := by
  show BitVec.ofNat 32 t * 512#32 + BitVec.ofNat 32 p = _
  rw [show (512#32 : BitVec 32) = BitVec.ofNat 32 512 from rfl, ← BitVec.ofNat_mul, ← BitVec.ofNat_add, Nat.mul_comm]

/-- A one-bit word widened to 32 bits and converted is the indicator of the bit. -/
theorem sitofp_bit (b : BitVec 1) :
    (FloatOps.sitofp (F := Ideal) .f32 (b.setWidth 32) : EReal) = if b = 1#1 then (1 : EReal) else 0 := by
  rcases BitVec.eq_zero_or_eq_one b with h | h
  · subst h
    show (((BitVec.setWidth 32 (0#1)).toInt : ℝ) : EReal) = _
    simp
  · subst h
    show (((BitVec.setWidth 32 (1#1)).toInt : ℝ) : EReal) = _
    simp

/-! ### Lane reductions from the infinities -/

/-- Folding the maximum from b over a finite set is the maximum of b and the set's supremum. -/
theorem fold_max_eq_sup {ι : Type} (b : EReal) (f : ι → EReal) (s : Finset ι) :
    s.fold max b f = max b (s.sup f) := by
  classical
  induction s using Finset.induction_on with
  | empty => simp
  | insert x s hx ih => rw [Finset.fold_insert hx, ih, Finset.sup_insert, max_left_comm]

/-- Folding the minimum from b over a finite set is the minimum of b and the set's infimum. -/
theorem fold_min_eq_inf {ι : Type} (b : EReal) (f : ι → EReal) (s : Finset ι) :
    s.fold min b f = min b (s.inf f) := by
  classical
  induction s using Finset.induction_on with
  | empty => simp
  | insert x s hx ih => rw [Finset.fold_insert hx, ih, Finset.inf_insert, min_left_comm]

/-- The word of minus infinity denotes the bottom of the extended reals. -/
theorem ofBits_negInf : Ideal.ofBits .f32 0xFF800000#32 = (⊥ : EReal) := by simp [Ideal.ofBits, Ideal.ieee]
/-- The word of plus infinity denotes the top of the extended reals. -/
theorem ofBits_posInf : Ideal.ofBits .f32 0x7F800000#32 = (⊤ : EReal) := by simp [Ideal.ofBits, Ideal.ieee]

/-- The index of a 512 x 512 matrix over row p of its lane reduction, at lane q, is (p, q). -/
theorem lift_lane (p q : Fin 512) : reduces_S512x512_S512.lift (ix1 p) q = ix2 p q := by
  funext c
  apply Fin.ext
  match c with
  | ⟨0, _⟩ => rfl
  | ⟨1, _⟩ => rfl

/-- A lane maximum from minus infinity, at row p, is the supremum over the lanes of row p. -/
theorem lane_max (src : FVec Ideal S512x512 .f32) (hφ : FKind.Formats .f32)
    (hacc : (0xFF800000#32 : BitVec 32) = FKind.maximumf.neutral .f32 hφ) (p : Fin 512) :
    multiReduction .maximumf [1] S512 src 0xFF800000#32 reduces_S512x512_S512 hφ hacc (ix1 p)
      = Finset.univ.sup fun q : Fin 512 => (src (ix2 p q) : EReal) := by
  refine (Ideal.multiReduction_maximumf_single src _ reduces_S512x512_S512 hφ hacc (ix1 p)).trans ?_
  refine (fold_max_eq_sup _ _ _).trans ?_
  refine (congrArg (fun b : EReal => max b _) ofBits_negInf).trans ?_
  refine (bot_sup_eq _).trans ?_
  exact Finset.sup_congr rfl fun q _ => congrArg src (lift_lane p q)

/-- A lane minimum from plus infinity, at row p, is the infimum over the lanes of row p. -/
theorem lane_min (src : FVec Ideal S512x512 .f32) (hφ : FKind.Formats .f32)
    (hacc : (0x7F800000#32 : BitVec 32) = FKind.minimumf.neutral .f32 hφ) (p : Fin 512) :
    multiReduction .minimumf [1] S512 src 0x7F800000#32 reduces_S512x512_S512 hφ hacc (ix1 p)
      = Finset.univ.inf fun q : Fin 512 => (src (ix2 p q) : EReal) := by
  refine (multiReduction_minimumf_eq_fold src _ reduces_S512x512_S512 hφ hacc (ix1 p)).trans ?_
  refine (reduces_S512x512_S512.fold_filter_drop_single _ _ src (ix1 p)).trans ?_
  refine (fold_min_eq_inf _ _ _).trans ?_
  refine (congrArg (fun b : EReal => min b _) ofBits_posInf).trans ?_
  refine (top_inf_eq _).trans ?_
  exact Finset.inf_congr rfl fun q _ => congrArg src (lift_lane p q)

/-! ### The label masks at an entry -/

section Labels

variable {lab : Cert.Spec.Rows → BitVec 32} {a j : Fin 8}
  {i : grid0.Coords} (hi0 : (i 0).val = a.val) (hi1 : (i 1).val = j.val)
  {l0 l1 : Vec Ideal S512 .i32}
  (hl0 : ∀ p : Fin 512, l0 (ix1 p) = lab (tileEquiv (a, p)))
  (hl1 : ∀ q : Fin 512, l1 (ix1 q) = lab (tileEquiv (j, q)))

include hl0 hl1 in
/-- The label test at (p, q) compares the labels of row 512 a + p and row 512 j + q. -/
theorem pay11_apply (p q : Fin 512) :
    k0_pay11 (F := Ideal) l0 l1 (ix2 p q)
      = if lab (tileEquiv (a, p)) = lab (tileEquiv (j, q)) then 1#1 else 0#1 := by
  unfold k0_pay11
  show IntOp.cmpi .eq
      (broadcastTo S512x512 (shapeCast S512x1 l0 shapeCasts_S512_S512x1) broadcasts_S512x1_S512x512 (ix2 p q))
      (broadcastTo S512x512 (shapeCast S1x512 l1 shapeCasts_S512_S1x512) broadcasts_S1x512_S512x512 (ix2 p q)) = _
  rw [broadcastTo_a1_ab_apply (by decide), shapeCast_a_a1_apply, broadcastTo_1b_ab_apply, shapeCast_a_1a_apply,
    hl0, hl1, cmpi_eq_ite]

include hl0 hl1 in
/-- The negative mask at (p, q): another label. -/
theorem pay13_apply (p q : Fin 512) :
    k0_pay13 (F := Ideal) l0 l1 (ix2 p q)
      = if Cert.Spec.neg lab (tileEquiv (a, p)) (tileEquiv (j, q)) then 1#1 else 0#1 := by
  unfold k0_pay13
  show IntOp.xori (k0_pay11 (F := Ideal) l0 l1 (ix2 p q)) 1#1 = _
  rw [pay11_apply hl0 hl1]
  by_cases h : lab (tileEquiv (a, p)) = lab (tileEquiv (j, q))
  · rw [if_pos h, if_neg (show ¬ Cert.Spec.neg lab (tileEquiv (a, p)) (tileEquiv (j, q)) from not_not.mpr h)]; rfl
  · rw [if_neg h, if_pos (show Cert.Spec.neg lab (tileEquiv (a, p)) (tileEquiv (j, q)) from h)]; rfl

include hi0 hi1 hl0 hl1 in
/-- The positive mask at (p, q): same label and another row. -/
theorem pay12_apply (p q : Fin 512) :
    k0_pay12 (F := Ideal) i l0 l1 (ix2 p q)
      = if Cert.Spec.pos lab (tileEquiv (a, p)) (tileEquiv (j, q)) then 1#1 else 0#1 := by
  unfold k0_pay12
  show IntOp.andi (k0_pay11 (F := Ideal) l0 l1 (ix2 p q))
      (IntOp.xori (IntOp.cmpi .eq
        (IntOp.addi (Scalar.muli (BitVec.ofNat 32 (i 0).val) 512#32)
          (iota .tc S512x512 32 [0] iota_S512x512_d0_w32 (ix2 p q)))
        (IntOp.addi (Scalar.muli (BitVec.ofNat 32 (i 1).val) 512#32)
          (iota .tc S512x512 32 [1] iota_S512x512_d1_w32 (ix2 p q)))) 1#1) = _
  rw [pay11_apply hl0 hl1, iota_single_apply, iota_single_apply, hi0, hi1]
  show IntOp.andi _
      (IntOp.xori (IntOp.cmpi .eq
        (IntOp.addi (Scalar.muli (BitVec.ofNat 32 a.val) 512#32) (BitVec.ofNat 32 p.val))
        (IntOp.addi (Scalar.muli (BitVec.ofNat 32 j.val) 512#32) (BitVec.ofNat 32 q.val))) 1#1) = _
  rw [rowWord, rowWord, cmpi_eq_ite]
  have hd : BitVec.ofNat 32 (512 * a.val + p.val) = BitVec.ofNat 32 (512 * j.val + q.val)
      ↔ tileEquiv (a, p) = tileEquiv (j, q) :=
    (ofNat32_inj (by omega) (by omega)).trans (by rw [Fin.ext_iff]; rfl)
  by_cases hL : lab (tileEquiv (a, p)) = lab (tileEquiv (j, q))
  · by_cases hD : tileEquiv (a, p) = tileEquiv (j, q)
    · rw [if_pos hL, if_pos (hd.mpr hD),
        if_neg (show ¬ Cert.Spec.pos lab (tileEquiv (a, p)) (tileEquiv (j, q)) from fun h => h.2 hD)]; rfl
    · rw [if_pos hL, if_neg (fun h => hD (hd.mp h)),
        if_pos (show Cert.Spec.pos lab (tileEquiv (a, p)) (tileEquiv (j, q)) from ⟨hL, hD⟩)]; rfl
  · by_cases hD : tileEquiv (a, p) = tileEquiv (j, q)
    · rw [if_neg hL, if_pos (hd.mpr hD),
        if_neg (show ¬ Cert.Spec.pos lab (tileEquiv (a, p)) (tileEquiv (j, q)) from fun h => hL h.1)]; rfl
    · rw [if_neg hL, if_neg (fun h => hD (hd.mp h)),
        if_neg (show ¬ Cert.Spec.pos lab (tileEquiv (a, p)) (tileEquiv (j, q)) from fun h => hL h.1)]; rfl

include hi0 hi1 hl0 hl1 in
/-- The positive mask as a number: the indicator of "q is a positive of p". -/
theorem pay16_apply (p q : Fin 512) :
    (k0_pay16 (F := Ideal) i l0 l1 (ix2 p q) : EReal)
      = if Cert.Spec.pos lab (tileEquiv (a, p)) (tileEquiv (j, q)) then (1 : EReal) else 0 := by
  unfold k0_pay16
  show (FloatOps.sitofp (F := Ideal) .f32 ((k0_pay12 (F := Ideal) i l0 l1 (ix2 p q)).setWidth 32) : EReal) = _
  rw [sitofp_bit, pay12_apply hi0 hi1 hl0 hl1]
  by_cases h : Cert.Spec.pos lab (tileEquiv (a, p)) (tileEquiv (j, q))
  · simp only [if_pos h]; exact if_pos trivial
  · simp only [if_neg h]; exact if_neg (by decide)

include hl0 hl1 in
/-- The negative mask as a number: the indicator of "q is a negative of p". -/
theorem pay13_num_apply (p q : Fin 512) :
    (FloatOps.sitofp (F := Ideal) .f32 ((k0_pay13 (F := Ideal) l0 l1 (ix2 p q)).setWidth 32) : EReal)
      = if Cert.Spec.neg lab (tileEquiv (a, p)) (tileEquiv (j, q)) then (1 : EReal) else 0 := by
  rw [sitofp_bit, pay13_apply hl0 hl1]
  by_cases h : Cert.Spec.neg lab (tileEquiv (a, p)) (tileEquiv (j, q))
  · simp only [if_pos h]; exact if_pos trivial
  · simp only [if_neg h]; exact if_neg (by decide)

end Labels

/-! ### The two indicator columns, the starting values and the last output -/

/-- The fold of a lane maximum into a running column, at row p: the maximum of the column there and the supremum of
    row p of the matrix. -/
theorem pay3_apply (m : FVec Ideal S512x512 .f32) (c : Vec Ideal S512x1 .f32) (p : Fin 512) :
    k0_pay3 (F := Ideal) m c (ix2 p (0 : Fin 1))
      = max (c (ix2 p (0 : Fin 1)) : EReal) (Finset.univ.sup fun q : Fin 512 => (m (ix2 p q) : EReal)) := by
  unfold k0_pay3
  show shapeCast S512x1 (maximumf c (shapeCast S512x1
      (multiReduction .maximumf [1] S512 m 0xFF800000#32 reduces_S512x512_S512 (.inl rfl) rfl)
      shapeCasts_S512_S512x1)) shapeCasts_S512x1_S512x1 (ix2 p (0 : Fin 1)) = _
  rw [shapeCast_self]
  refine congrArg (max (c (ix2 p (0 : Fin 1)) : EReal)) ?_
  refine (shapeCast_a_a1_apply _ _ p 0).trans ?_
  exact lane_max _ _ _ p

/-- The same fold for a one-bit mask, widened and converted on the way: the supremum is of the mask's indicators. -/
theorem pay4_apply (m : IVec S512x512 1) (c : Vec Ideal S512x1 .f32) (p : Fin 512) :
    k0_pay4 (F := Ideal) m c (ix2 p (0 : Fin 1))
      = max (c (ix2 p (0 : Fin 1)) : EReal)
          (Finset.univ.sup fun q : Fin 512 => (FloatOps.sitofp (F := Ideal) .f32 ((m (ix2 p q)).setWidth 32) : EReal)) := by
  unfold k0_pay4
  show shapeCast S512x1 (maximumf c (shapeCast S512x1
      (multiReduction .maximumf [1] S512 (sitofp (F := Ideal) .f32 (extui 32 m natLt_1_32))
        0xFF800000#32 reduces_S512x512_S512 (.inl rfl) rfl)
      shapeCasts_S512_S512x1)) shapeCasts_S512x1_S512x1 (ix2 p (0 : Fin 1)) = _
  rw [shapeCast_self]
  refine congrArg (max (c (ix2 p (0 : Fin 1)) : EReal)) ?_
  refine (shapeCast_a_a1_apply _ _ p 0).trans ?_
  exact lane_max _ _ _ p

section Indicators

variable {lab : Cert.Spec.Rows → BitVec 32} {a j : Fin 8}
  {i : grid0.Coords} (hi0 : (i 0).val = a.val) (hi1 : (i 1).val = j.val)
  {x0 x1 : Vec Ideal S512x512 .bf16} {l0 l1 : Vec Ideal S512 .i32}
  (hl0 : ∀ p : Fin 512, l0 (ix1 p) = lab (tileEquiv (a, p)))
  (hl1 : ∀ q : Fin 512, l1 (ix1 q) = lab (tileEquiv (j, q)))

include hi0 hi1 hl0 hl1 in
/-- The indicator "some key so far is a positive" after the point. -/
theorem upd4_s2 (s : Cols4 Ideal) (p : Fin 512) :
    (upd4 (F := Ideal) i x0 x1 l0 l1 s).s2 (ix2 p (0 : Fin 1))
      = max (s.s2 (ix2 p (0 : Fin 1)) : EReal)
          (Finset.univ.sup fun q : Fin 512 =>
            if Cert.Spec.pos lab (tileEquiv (a, p)) (tileEquiv (j, q)) then (1 : EReal) else 0) :=
  (pay3_apply (k0_pay16 (F := Ideal) i l0 l1) s.s2 p).trans
    (congrArg (max _) (Finset.sup_congr rfl fun q _ => pay16_apply hi0 hi1 hl0 hl1 p q))

include hl0 hl1 in
/-- The indicator "some key so far is a negative" after the point. -/
theorem upd4_s3 (s : Cols4 Ideal) (p : Fin 512) :
    (upd4 (F := Ideal) i x0 x1 l0 l1 s).s3 (ix2 p (0 : Fin 1))
      = max (s.s3 (ix2 p (0 : Fin 1)) : EReal)
          (Finset.univ.sup fun q : Fin 512 =>
            if Cert.Spec.neg lab (tileEquiv (a, p)) (tileEquiv (j, q)) then (1 : EReal) else 0) :=
  (pay4_apply (k0_pay13 (F := Ideal) l0 l1) s.s3 p).trans
    (congrArg (max _) (Finset.sup_congr rfl fun q _ => pay13_num_apply hl0 hl1 p q))

end Indicators
/-- The columns start from -1, 3, 0, 0. -/
theorem init4_s0 (p : Fin 512) :
    (init4 (F := Ideal)).s0 (ix2 p (0 : Fin 1)) = Ideal.ofBits .f32 0xBF800000#32 := by
  show (k0_pay6 (F := Ideal)) (ix2 p (0 : Fin 1)) = _
  unfold k0_pay6
  show shapeCast S512x1 (broadcast S512x1 (Ideal.ofBits .f32 0xBF800000#32)) shapeCasts_S512x1_S512x1
      (ix2 p (0 : Fin 1)) = _
  rw [shapeCast_self]; rfl

theorem init4_s1 (p : Fin 512) :
    (init4 (F := Ideal)).s1 (ix2 p (0 : Fin 1)) = Ideal.ofBits .f32 0x40400000#32 := by
  show (k0_pay7 (F := Ideal)) (ix2 p (0 : Fin 1)) = _
  unfold k0_pay7
  show shapeCast S512x1 (broadcast S512x1 (Ideal.ofBits .f32 0x40400000#32)) shapeCasts_S512x1_S512x1
      (ix2 p (0 : Fin 1)) = _
  rw [shapeCast_self]; rfl

theorem init4_s2 (p : Fin 512) : (init4 (F := Ideal)).s2 (ix2 p (0 : Fin 1)) = (0 : EReal) := by
  show (k0_pay8 (F := Ideal)) (ix2 p (0 : Fin 1)) = _
  unfold k0_pay8
  show shapeCast S512x1 (broadcast S512x1 (Ideal.ofBits .f32 0x00000000#32)) shapeCasts_S512x1_S512x1
      (ix2 p (0 : Fin 1)) = _
  rw [shapeCast_self]; exact Ideal.ofBits_zero_f32

theorem init4_s3 (p : Fin 512) : (init4 (F := Ideal)).s3 (ix2 p (0 : Fin 1)) = (0 : EReal) := by
  show (k0_pay9 (F := Ideal)) (ix2 p (0 : Fin 1)) = _
  unfold k0_pay9
  show shapeCast S512x1 (broadcast S512x1 (Ideal.ofBits .f32 0x00000000#32)) shapeCasts_S512x1_S512x1
      (ix2 p (0 : Fin 1)) = _
  rw [shapeCast_self]; exact Ideal.ofBits_zero_f32

/-- The third output is the product of the two indicator columns. -/
theorem out6_apply (s : Cols4 Ideal) (p : Fin 512) :
    out6 s (ix2 p (0 : Fin 1)) = (s.s2 (ix2 p (0 : Fin 1)) : EReal) * s.s3 (ix2 p (0 : Fin 1)) := rfl

end Cert.KernelIdeal.Fr

end
-- ==== Proof.KI.AccDist.lean ====
/-
  One grid point's product of tiles read at an entry.

  The anchor tile holds rows 512 a + p and the key tile rows 512 j + q of the normalised embeddings, both 512
  coordinates long. The product contracts the second axis of both, so its entry (p, q) is the sum over k of
  anchor(p, k) * key(q, k): the inner product of row 512 a + p with row 512 j + q. One minus it is their cosine
  distance.
-/
import proofs.«107534_j40690520162810_1_alg».proof.Proof.KI.Acc
import proofs.«107534_j40690520162810_1_alg».proof.Proof.Spec
import proofs.«107534_j40690520162810_1_alg».proof.Proof.SpecLaws
import Idealize.ShloMosaic.PureOps.Ideal.Laws
import Idealize.ShloMosaic.Lib.ValueIdx
import Idealize.ShloMosaic.Lib.ValueLayout

set_option maxRecDepth 16384

noncomputable section

namespace Cert.KernelIdeal.Fr

open Cert.KernelIdeal Cert.KernelIdeal.Gen
open Idealize.ShloMosaic Idealize.ShloMosaic.ValueIdx
open Cert.Spec (tileEquiv)

/-! ### The operand indices of the product, axis by axis -/

theorem lhs_tile_0 (i : S512x512.Idx) (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl
theorem lhs_tile_1 (i : S512x512.Idx) (q : dot_S512x512_S512x512_S512x512_1_1_0_0_n_n.contr.Idx) :
    (dot_S512x512_S512x512_S512x512_1_1_0_0_n_n.lhsIdx i q 1).val = (q ⟨0, by decide⟩).val :=
  dot_S512x512_S512x512_S512x512_1_1_0_0_n_n.lhsIdx_val_of_single rfl i q
theorem rhs_tile_0 (i : S512x512.Idx) (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl
theorem rhs_tile_1 (i : S512x512.Idx) (q : dot_S512x512_S512x512_S512x512_1_1_0_0_n_n.contr.Idx) :
    (dot_S512x512_S512x512_S512x512_1_1_0_0_n_n.rhsIdx i q 1).val = (q ⟨0, by decide⟩).val :=
  dot_S512x512_S512x512_S512x512_1_1_0_0_n_n.rhsIdx_val_of_single rfl i q

/-- The product of two 512 x 512 tiles, both contracted on their second axis, into the zero splat: entry (p, q) is the
    sum over k of left(p, k) * right(q, k). -/
theorem tile_matmul_apply (y0 y1 : FVec Ideal S512x512 .bf16) (p q : Fin 512) :
    matmul dot_S512x512_S512x512_S512x512_1_1_0_0_n_n none y0 y1 (constant (F := Ideal) S512x512 .f32 0x00000000#32) (ix2 p q)
      = ∑ k : Fin 512, y0 (ix2 p k) * y1 (ix2 q k) := by
  refine (Ideal.matmul_constant_zero_apply dot_S512x512_S512x512_S512x512_1_1_0_0_n_n none y0 y1 (ix2 p q)).trans ?_
  rw [← Equiv.sum_comp (ValueIdx.contrEquiv1 dot_S512x512_S512x512_S512x512_1_1_0_0_n_n 512 rfl rfl).symm]
  refine Finset.sum_congr rfl fun k _ => ?_
  have hk := ValueIdx.contrEquiv1_symm_val dot_S512x512_S512x512_S512x512_1_1_0_0_n_n 512 rfl rfl k
  have el : dot_S512x512_S512x512_S512x512_1_1_0_0_n_n.lhsIdx (ix2 p q) ((ValueIdx.contrEquiv1 dot_S512x512_S512x512_S512x512_1_1_0_0_n_n 512 rfl rfl).symm k) = ix2 p k := funext fun c => Fin.ext (by
    match c with
    | ⟨0, _⟩ => exact lhs_tile_0 _ _
    | ⟨1, _⟩ => exact (lhs_tile_1 _ _).trans hk)
  have er : dot_S512x512_S512x512_S512x512_1_1_0_0_n_n.rhsIdx (ix2 p q) ((ValueIdx.contrEquiv1 dot_S512x512_S512x512_S512x512_1_1_0_0_n_n 512 rfl rfl).symm k) = ix2 q k := funext fun c => Fin.ext (by
    match c with
    | ⟨0, _⟩ => exact rhs_tile_0 _ _
    | ⟨1, _⟩ => exact (rhs_tile_1 _ _).trans hk)
  rw [el, er]

section Dist

variable {e : Cert.Spec.Rows → Cert.Spec.Cols → EReal} {a j : Fin 8}
  {x0 x1 : Vec Ideal S512x512 .bf16}
  (hx0 : ∀ (p : Fin 512) (k : Fin 512), x0 (ix2 p k) = e (tileEquiv (a, p)) k)
  (hx1 : ∀ (q : Fin 512) (k : Fin 512), x1 (ix2 q k) = e (tileEquiv (j, q)) k)

include hx0 hx1 in
/-- Entry (p, q) of one minus the product of the tiles is the distance of row 512 a + p to row 512 j + q. -/
theorem pay10_apply (p q : Fin 512) :
    k0_pay10 (F := Ideal) x0 x1 (ix2 p q) = Cert.Spec.dist e (tileEquiv (a, p)) (tileEquiv (j, q)) := by
  unfold k0_pay10
  show (Ideal.ofBits .f32 0x3F800000#32 : EReal)
      - matmul dot_S512x512_S512x512_S512x512_1_1_0_0_n_n none (shapeCast S512x512 x0 shapeCasts_S512x512_S512x512)
          (shapeCast S512x512 x1 shapeCasts_S512x512_S512x512)
          (constant (F := Ideal) S512x512 .f32 0x00000000#32) (ix2 p q) = _
  rw [shapeCast_self, shapeCast_self]
  unfold Cert.Spec.dist
  refine congrArg (fun t : EReal => Ideal.ofBits .f32 0x3F800000#32 - t) ?_
  refine (tile_matmul_apply x0 x1 p q).trans ?_
  exact Finset.sum_congr rfl fun k _ => by rw [hx0, hx1]

end Dist

end Cert.KernelIdeal.Fr

end
-- ==== Proof.KI.AccIdeal.lean ====
/-
  One grid point's effect on the four running columns, read at an anchor row, in the terms of the specification.

  With r = 512 a + p the anchor row and 512 j + q the keys of the point's tile: the lane maximum of the distances
  masked to the positives (-1 elsewhere) is the supremum over the tile of the specification's masked distance, and
  the fold into the running column is the maximum with it; dually the lane minimum of the distances masked to the
  negatives (3 elsewhere) and the running minimum. The entries, the masks, the two indicator columns, the starting
  values and the last output are read in the two modules imported here.
-/
import proofs.«107534_j40690520162810_1_alg».proof.Proof.KI.AccMasks
import proofs.«107534_j40690520162810_1_alg».proof.Proof.KI.AccDist

set_option maxRecDepth 16384

noncomputable section

namespace Cert.KernelIdeal.Fr

open Cert.KernelIdeal Cert.KernelIdeal.Gen
open Idealize.ShloMosaic Idealize.ShloMosaic.ValueIdx
open Cert.Spec (tileEquiv)

section Point

variable {e : Cert.Spec.Rows → Cert.Spec.Cols → EReal} {lab : Cert.Spec.Rows → BitVec 32} {a j : Fin 8}
  {i : grid0.Coords} (hi0 : (i 0).val = a.val) (hi1 : (i 1).val = j.val)
  {x0 x1 : Vec Ideal S512x512 .bf16} {l0 l1 : Vec Ideal S512 .i32}
  (hx0 : ∀ (p : Fin 512) (k : Fin 512), x0 (ix2 p k) = e (tileEquiv (a, p)) k)
  (hx1 : ∀ (q : Fin 512) (k : Fin 512), x1 (ix2 q k) = e (tileEquiv (j, q)) k)
  (hl0 : ∀ p : Fin 512, l0 (ix1 p) = lab (tileEquiv (a, p)))
  (hl1 : ∀ q : Fin 512, l1 (ix1 q) = lab (tileEquiv (j, q)))

include hi0 hi1 hx0 hx1 hl0 hl1 in
/-- The tile's hardest positive of anchor row p: the supremum over the key tile of the distance on the positives,
    -1 elsewhere. -/
theorem pay14_apply (p : Fin 512) :
    (k0_pay14 (F := Ideal) i x0 x1 l0 l1 (ix2 p (0 : Fin 1)) : EReal)
      = Finset.univ.sup fun q : Fin 512 => Cert.Spec.dpos e lab (tileEquiv (a, p)) (tileEquiv (j, q)) := by
  unfold k0_pay14
  show shapeCast S512x1 (multiReduction .maximumf [1] S512
      (select (k0_pay12 (F := Ideal) i l0 l1) (k0_pay10 (F := Ideal) x0 x1)
        (broadcast S512x512 (Ideal.ofBits .f32 0xBF800000#32)))
      0xFF800000#32 reduces_S512x512_S512 (.inl rfl) rfl) shapeCasts_S512_S512x1 (ix2 p (0 : Fin 1)) = _
  refine (shapeCast_a_a1_apply _ _ p 0).trans ?_
  refine (lane_max _ _ _ p).trans ?_
  refine Finset.sup_congr rfl fun q _ => ?_
  show Scalar.select (k0_pay12 (F := Ideal) i l0 l1 (ix2 p q)) (k0_pay10 (F := Ideal) x0 x1 (ix2 p q))
      (Ideal.ofBits .f32 0xBF800000#32) = _
  rw [pay12_apply hi0 hi1 hl0 hl1, pay10_apply hx0 hx1]
  unfold Cert.Spec.dpos
  by_cases h : Cert.Spec.pos lab (tileEquiv (a, p)) (tileEquiv (j, q))
  · rw [if_pos h, if_pos h]; exact select_one _ _
  · rw [if_neg h, if_neg h]; exact select_zero _ _

include hx0 hx1 hl0 hl1 in
/-- The tile's hardest negative of anchor row p: the infimum over the key tile of the distance on the negatives,
    3 elsewhere. -/
theorem pay15_apply (p : Fin 512) :
    (k0_pay15 (F := Ideal) x0 x1 l0 l1 (ix2 p (0 : Fin 1)) : EReal)
      = Finset.univ.inf fun q : Fin 512 => Cert.Spec.dneg e lab (tileEquiv (a, p)) (tileEquiv (j, q)) := by
  unfold k0_pay15
  show shapeCast S512x1 (multiReduction .minimumf [1] S512
      (select (k0_pay13 (F := Ideal) l0 l1) (k0_pay10 (F := Ideal) x0 x1)
        (broadcast S512x512 (Ideal.ofBits .f32 0x40400000#32)))
      0x7F800000#32 reduces_S512x512_S512 (.inl rfl) rfl) shapeCasts_S512_S512x1 (ix2 p (0 : Fin 1)) = _
  refine (shapeCast_a_a1_apply _ _ p 0).trans ?_
  refine (lane_min _ _ _ p).trans ?_
  refine Finset.inf_congr rfl fun q _ => ?_
  show Scalar.select (k0_pay13 (F := Ideal) l0 l1 (ix2 p q)) (k0_pay10 (F := Ideal) x0 x1 (ix2 p q))
      (Ideal.ofBits .f32 0x40400000#32) = _
  rw [pay13_apply hl0 hl1, pay10_apply hx0 hx1]
  unfold Cert.Spec.dneg
  by_cases h : Cert.Spec.neg lab (tileEquiv (a, p)) (tileEquiv (j, q))
  · rw [if_pos h, if_pos h]; exact select_one _ _
  · rw [if_neg h, if_neg h]; exact select_zero _ _

include hi0 hi1 hx0 hx1 hl0 hl1 in
/-- The running maximum over the positives after the point. -/
theorem upd4_s0 (s : Cols4 Ideal) (p : Fin 512) :
    (upd4 (F := Ideal) i x0 x1 l0 l1 s).s0 (ix2 p (0 : Fin 1))
      = max (s.s0 (ix2 p (0 : Fin 1)) : EReal)
          (Finset.univ.sup fun q : Fin 512 => Cert.Spec.dpos e lab (tileEquiv (a, p)) (tileEquiv (j, q))) := by
  show k0_pay1 (F := Ideal) (k0_pay14 i x0 x1 l0 l1) s.s0 (ix2 p (0 : Fin 1)) = _
  unfold k0_pay1
  show shapeCast S512x1 (maximumf s.s0 (k0_pay14 (F := Ideal) i x0 x1 l0 l1)) shapeCasts_S512x1_S512x1
      (ix2 p (0 : Fin 1)) = _
  rw [shapeCast_self]
  show max (s.s0 (ix2 p (0 : Fin 1)) : EReal) (k0_pay14 (F := Ideal) i x0 x1 l0 l1 (ix2 p (0 : Fin 1))) = _
  exact congrArg (max _) (pay14_apply hi0 hi1 hx0 hx1 hl0 hl1 p)

include hx0 hx1 hl0 hl1 in
/-- The running minimum over the negatives after the point. -/
theorem upd4_s1 (s : Cols4 Ideal) (p : Fin 512) :
    (upd4 (F := Ideal) i x0 x1 l0 l1 s).s1 (ix2 p (0 : Fin 1))
      = min (s.s1 (ix2 p (0 : Fin 1)) : EReal)
          (Finset.univ.inf fun q : Fin 512 => Cert.Spec.dneg e lab (tileEquiv (a, p)) (tileEquiv (j, q))) := by
  show k0_pay2 (F := Ideal) (k0_pay15 x0 x1 l0 l1) s.s1 (ix2 p (0 : Fin 1)) = _
  unfold k0_pay2
  show shapeCast S512x1 (minimumf s.s1 (k0_pay15 (F := Ideal) x0 x1 l0 l1)) shapeCasts_S512x1_S512x1
      (ix2 p (0 : Fin 1)) = _
  rw [shapeCast_self]
  show min (s.s1 (ix2 p (0 : Fin 1)) : EReal) (k0_pay15 (F := Ideal) x0 x1 l0 l1 (ix2 p (0 : Fin 1))) = _
  exact congrArg (min _) (pay15_apply hx0 hx1 hl0 hl1 p)

end Point

end Cert.KernelIdeal.Fr

end
-- ==== Proof.RowGlue.lean ====
import proofs.«107534_j40690520162810_1_alg».proof.Proof.Spec
import proofs.«107534_j40690520162810_1_alg».proof.Proof.SpecLaws

/-!
The tiled computation of one anchor row, stated over the specification.

A running maximum over the eight key tiles that starts at the sentinel `-1` is the hardest
positive of the row, because the masked distance takes the value `-1` on the diagonal (a row is
never its own positive). Dually the running minimum from the sentinel `3` is the hardest negative
(a row is never its own negative). The running maximum of the positives' indicator from `0` is
the indicator that a positive exists, likewise for the negatives, and the product of the two
indicators exceeds one half exactly on the valid rows.
-/

noncomputable section

namespace Cert.Spec

open Idealize.ShloMosaic

theorem ofBits_zero : Ideal.ofBits .f32 0x00000000#32 = (0 : EReal) := by simp [Ideal.ofBits, Ideal.ieee]

theorem ofBits_one : Ideal.ofBits .f32 0x3F800000#32 = (1 : EReal) := by
  simp [Ideal.ofBits, Ideal.ieee, -EReal.coe_mul]; norm_num

/-- A row is not its own positive. -/
theorem not_pos_self (lab : Rows → BitVec 32) (r : Rows) : ¬ pos lab r r := fun h => h.2 rfl

/-- A row is not its own negative. -/
theorem not_neg_self (lab : Rows → BitVec 32) (r : Rows) : ¬ neg lab r r := fun h => h rfl

theorem dpos_diag (e : Rows → Cols → EReal) (lab : Rows → BitVec 32) (r : Rows) :
    dpos e lab r r = Ideal.ofBits .f32 0xBF800000#32 := by
  unfold dpos; rw [if_neg (not_pos_self lab r)]

theorem dneg_diag (e : Rows → Cols → EReal) (lab : Rows → BitVec 32) (r : Rows) :
    dneg e lab r r = Ideal.ofBits .f32 0x40400000#32 := by
  unfold dneg; rw [if_neg (not_neg_self lab r)]

/-- The tiled running maximum from `-1` is the hardest positive. -/
theorem rowPos_eq_fold (e : Rows → Cols → EReal) (lab : Rows → BitVec 32) (r : Rows) :
    (List.finRange 8).foldl
        (fun a j => max a (Finset.univ.sup fun p : Fin 512 => dpos e lab r (tileEquiv (j, p))))
        (Ideal.ofBits .f32 0xBF800000#32)
      = rowPos e lab r :=
  fold_max_row (dpos e lab r) _ ⟨r, dpos_diag e lab r⟩

/-- The tiled running minimum from `3` is the hardest negative. -/
theorem rowNeg_eq_fold (e : Rows → Cols → EReal) (lab : Rows → BitVec 32) (r : Rows) :
    (List.finRange 8).foldl
        (fun a j => min a (Finset.univ.inf fun p : Fin 512 => dneg e lab r (tileEquiv (j, p))))
        (Ideal.ofBits .f32 0x40400000#32)
      = rowNeg e lab r :=
  fold_min_row (dneg e lab r) _ ⟨r, dneg_diag e lab r⟩

/-- The tiled running maximum from `0` of the positives' indicator is the indicator of a positive. -/
theorem anyPos_eq_fold (lab : Rows → BitVec 32) (r : Rows) [Decidable (∃ q, pos lab r q)] :
    (List.finRange 8).foldl
        (fun a j => max a (Finset.univ.sup fun p : Fin 512 => if pos lab r (tileEquiv (j, p)) then (1 : EReal) else 0))
        (0 : EReal)
      = if ∃ q, pos lab r q then 1 else 0 := by
  have h := (fold_max_row (fun q => if pos lab r q then (1 : EReal) else 0) 0 ⟨r, if_neg (not_pos_self lab r)⟩).trans
    (@sup_indicator Rows _ ⟨r⟩ (fun q => pos lab r q) _)
  refine h.trans ?_
  by_cases hx : ∃ q, pos lab r q
  · rw [if_pos hx, if_pos hx]
  · rw [if_neg hx, if_neg hx]

/-- The tiled running maximum from `0` of the negatives' indicator is the indicator of a negative. -/
theorem anyNeg_eq_fold (lab : Rows → BitVec 32) (r : Rows) [Decidable (∃ q, neg lab r q)] :
    (List.finRange 8).foldl
        (fun a j => max a (Finset.univ.sup fun p : Fin 512 => if neg lab r (tileEquiv (j, p)) then (1 : EReal) else 0))
        (0 : EReal)
      = if ∃ q, neg lab r q then 1 else 0 := by
  have h := (fold_max_row (fun q => if neg lab r q then (1 : EReal) else 0) 0 ⟨r, if_neg (not_neg_self lab r)⟩).trans
    (@sup_indicator Rows _ ⟨r⟩ (fun q => neg lab r q) _)
  refine h.trans ?_
  by_cases hx : ∃ q, neg lab r q
  · rw [if_pos hx, if_pos hx]
  · rw [if_neg hx, if_neg hx]

/-- The product of the two existence indicators exceeds one half exactly on the valid rows. -/
theorem half_lt_indicators_iff_valid (lab : Rows → BitVec 32) (r : Rows)
    [Decidable (∃ q, pos lab r q)] [Decidable (∃ q, neg lab r q)] :
    Ideal.ofBits .f32 0x3F000000#32
        < (if ∃ q, pos lab r q then (1 : EReal) else 0) * (if ∃ q, neg lab r q then (1 : EReal) else 0)
      ↔ valid lab r := by
  rw [valid_of_indicators _ _ (by by_cases h : ∃ q, pos lab r q <;> simp [h])
    (by by_cases h : ∃ q, neg lab r q <;> simp [h])]
  unfold valid
  have hne : (0 : EReal) ≠ 1 := zero_ne_one
  by_cases hp : ∃ q, pos lab r q <;> by_cases hn : ∃ q, neg lab r q <;> simp [hp, hn, hne]

/-! ### The same, for a sequence given by its recursion on the key tile -/

/-- A sequence of eight values, the first `max c (g 0)` and each next the maximum of the previous
    with the next `g`, ends at the running maximum of `g` from `c`. -/
theorem rec_max_eq_foldl (g : Fin 8 → EReal) (c : EReal) (s : (j : ℕ) → j < 8 → EReal)
    (h0 : s 0 (by omega) = max c (g 0))
    (hs : ∀ j (hj : j + 1 < 8), s (j + 1) hj = max (s j (by omega)) (g ⟨j + 1, hj⟩)) :
    s 7 (by omega) = (List.finRange 8).foldl (fun a j => max a (g j)) c := by
  have e1 : s 1 (by omega) = max (s 0 (by omega)) (g 1) := hs 0 (by omega)
  have e2 : s 2 (by omega) = max (s 1 (by omega)) (g 2) := hs 1 (by omega)
  have e3 : s 3 (by omega) = max (s 2 (by omega)) (g 3) := hs 2 (by omega)
  have e4 : s 4 (by omega) = max (s 3 (by omega)) (g 4) := hs 3 (by omega)
  have e5 : s 5 (by omega) = max (s 4 (by omega)) (g 5) := hs 4 (by omega)
  have e6 : s 6 (by omega) = max (s 5 (by omega)) (g 6) := hs 5 (by omega)
  have e7 : s 7 (by omega) = max (s 6 (by omega)) (g 7) := hs 6 (by omega)
  rw [e7, e6, e5, e4, e3, e2, e1, h0]
  rfl

/-- The dual, with minima. -/
theorem rec_min_eq_foldl (g : Fin 8 → EReal) (c : EReal) (s : (j : ℕ) → j < 8 → EReal)
    (h0 : s 0 (by omega) = min c (g 0))
    (hs : ∀ j (hj : j + 1 < 8), s (j + 1) hj = min (s j (by omega)) (g ⟨j + 1, hj⟩)) :
    s 7 (by omega) = (List.finRange 8).foldl (fun a j => min a (g j)) c := by
  have e1 : s 1 (by omega) = min (s 0 (by omega)) (g 1) := hs 0 (by omega)
  have e2 : s 2 (by omega) = min (s 1 (by omega)) (g 2) := hs 1 (by omega)
  have e3 : s 3 (by omega) = min (s 2 (by omega)) (g 3) := hs 2 (by omega)
  have e4 : s 4 (by omega) = min (s 3 (by omega)) (g 4) := hs 3 (by omega)
  have e5 : s 5 (by omega) = min (s 4 (by omega)) (g 5) := hs 4 (by omega)
  have e6 : s 6 (by omega) = min (s 5 (by omega)) (g 6) := hs 5 (by omega)
  have e7 : s 7 (by omega) = min (s 6 (by omega)) (g 7) := hs 6 (by omega)
  rw [e7, e6, e5, e4, e3, e2, e1, h0]
  rfl

/-- The column value after the eighth key tile is the hardest positive. -/
theorem rowPos_of_rec (e : Rows → Cols → EReal) (lab : Rows → BitVec 32) (r : Rows) (s : (j : ℕ) → j < 8 → EReal)
    (h0 : s 0 (by omega) = max (Ideal.ofBits .f32 0xBF800000#32)
      (Finset.univ.sup fun q : Fin 512 => dpos e lab r (tileEquiv (0, q))))
    (hs : ∀ j (hj : j + 1 < 8), s (j + 1) hj = max (s j (by omega))
      (Finset.univ.sup fun q : Fin 512 => dpos e lab r (tileEquiv (⟨j + 1, hj⟩, q)))) :
    s 7 (by omega) = rowPos e lab r :=
  (rec_max_eq_foldl (fun j => Finset.univ.sup fun q : Fin 512 => dpos e lab r (tileEquiv (j, q))) _ s h0 hs).trans
    (rowPos_eq_fold e lab r)

/-- The column value after the eighth key tile is the hardest negative. -/
theorem rowNeg_of_rec (e : Rows → Cols → EReal) (lab : Rows → BitVec 32) (r : Rows) (s : (j : ℕ) → j < 8 → EReal)
    (h0 : s 0 (by omega) = min (Ideal.ofBits .f32 0x40400000#32)
      (Finset.univ.inf fun q : Fin 512 => dneg e lab r (tileEquiv (0, q))))
    (hs : ∀ j (hj : j + 1 < 8), s (j + 1) hj = min (s j (by omega))
      (Finset.univ.inf fun q : Fin 512 => dneg e lab r (tileEquiv (⟨j + 1, hj⟩, q)))) :
    s 7 (by omega) = rowNeg e lab r :=
  (rec_min_eq_foldl (fun j => Finset.univ.inf fun q : Fin 512 => dneg e lab r (tileEquiv (j, q))) _ s h0 hs).trans
    (rowNeg_eq_fold e lab r)

/-- The indicator column after the eighth key tile says whether a positive exists. -/
theorem anyPos_of_rec (lab : Rows → BitVec 32) (r : Rows) [Decidable (∃ q, pos lab r q)] (s : (j : ℕ) → j < 8 → EReal)
    (h0 : s 0 (by omega) = max 0
      (Finset.univ.sup fun q : Fin 512 => if pos lab r (tileEquiv (0, q)) then (1 : EReal) else 0))
    (hs : ∀ j (hj : j + 1 < 8), s (j + 1) hj = max (s j (by omega))
      (Finset.univ.sup fun q : Fin 512 => if pos lab r (tileEquiv (⟨j + 1, hj⟩, q)) then (1 : EReal) else 0)) :
    s 7 (by omega) = if ∃ q, pos lab r q then 1 else 0 :=
  (rec_max_eq_foldl
    (fun j => Finset.univ.sup fun q : Fin 512 => if pos lab r (tileEquiv (j, q)) then (1 : EReal) else 0) _ s h0 hs).trans
    (anyPos_eq_fold lab r)

/-- The indicator column after the eighth key tile says whether a negative exists. -/
theorem anyNeg_of_rec (lab : Rows → BitVec 32) (r : Rows) [Decidable (∃ q, neg lab r q)] (s : (j : ℕ) → j < 8 → EReal)
    (h0 : s 0 (by omega) = max 0
      (Finset.univ.sup fun q : Fin 512 => if neg lab r (tileEquiv (0, q)) then (1 : EReal) else 0))
    (hs : ∀ j (hj : j + 1 < 8), s (j + 1) hj = max (s j (by omega))
      (Finset.univ.sup fun q : Fin 512 => if neg lab r (tileEquiv (⟨j + 1, hj⟩, q)) then (1 : EReal) else 0)) :
    s 7 (by omega) = if ∃ q, neg lab r q then 1 else 0 :=
  (rec_max_eq_foldl
    (fun j => Finset.univ.sup fun q : Fin 512 => if neg lab r (tileEquiv (j, q)) then (1 : EReal) else 0) _ s h0 hs).trans
    (anyNeg_eq_fold lab r)

/-- The product of the two indicator columns exceeds one half exactly on the valid rows. -/
theorem valid_bit (lab : Rows → BitVec 32) (r : Rows) [Decidable (∃ q, pos lab r q)] [Decidable (∃ q, neg lab r q)]
    (u v : EReal)
    (hu : u = if ∃ q, pos lab r q then 1 else 0) (hv : v = if ∃ q, neg lab r q then 1 else 0) :
    Ideal.ofBits .f32 0x3F000000#32 < u * v ↔ valid lab r := by
  rw [hu, hv]; exact half_lt_indicators_iff_valid lab r

end Cert.Spec

end
-- ==== Proof.KernelTail.lean ====
import proofs.«107534_j40690520162810_1_alg».proof.Proof.Gen.KernelIdeal.Launch
import proofs.«107534_j40690520162810_1_alg».proof.Proof.Spec
import Idealize.ShloMosaic.Lib.StableHlo.Run

/-!
The host operations that follow the kernel's region are the epilogue of the specification.

After the region the program reads the three result columns as vectors of 4096 entries, compares
the third with one half, and then applies, operation for operation, the epilogue `Cert.Spec.tail`
to the first vector, the second vector and the comparison's bits. Each stretch of operations is
read on its own, from arbitrary contents; the stretches are then chained.
-/

noncomputable section

namespace Cert.KernelIdeal.KTail

open Cert.KernelIdeal Cert.KernelIdeal.Gen Idealize.ShloMosaic Idealize.ShloMosaic.TcCoe Idealize.SL.Sem

/-- A column of 4096 entries read as a vector. -/
abbrev col (x : FVec Ideal S4096x1 .f32) : FVec Ideal S4096 .f32 :=
  shapeCast S4096 x shapeCasts_S4096x1_S4096

/-- The bits of "greater than one half". -/
abbrev gtHalf (x : FVec Ideal S4096 .f32) : IVec S4096 1 :=
  cmpf .ogt x (broadcastInDim S4096 ![] bcast_S_S4096 (constant (F := Ideal) S_ .f32 0x3F000000#32))

/-! ### First stretch: the columns as vectors, the comparison, the margin -/

theorem s1_v14 (V : Valuation τ sig (Elt Ideal)) :
    StableHlo.after (hostOps1 (F := Ideal)) V (Proc.devRef .tc main_v14)
      = addf (subf (col (V (Proc.devRef .tc main_v6_0))) (col (V (Proc.devRef .tc main_v6_1))))
          (broadcastInDim S4096 ![] bcast_S_S4096 (constant (F := Ideal) S_ .f32 0x3E4CCCCD#32)) := by
  after_results
  all_goals rfl

theorem s1_v11 (V : Valuation τ sig (Elt Ideal)) :
    StableHlo.after (hostOps1 (F := Ideal)) V (Proc.devRef .tc main_v11)
      = gtHalf (col (V (Proc.devRef .tc main_v6_2))) := by
  after_results
  all_goals rfl

/-! ### Second stretch: the positive part -/

theorem s2_v15 (V : Valuation τ sig (Elt Ideal)) :
    StableHlo.after (hostOps1_1 (F := Ideal)) V (Proc.devRef .tc main_v15)
      = maximumf (V (Proc.devRef .tc main_v14))
          (broadcastInDim S4096 ![] bcast_S_S4096 (constant (F := Ideal) S_ .f32 0x00000000#32)) := by
  after_results
  all_goals rfl

theorem s2_v11 (V : Valuation τ sig (Elt Ideal)) :
    StableHlo.after (hostOps1_1 (F := Ideal)) V (Proc.devRef .tc main_v11) = V (Proc.devRef .tc main_v11) := by
  after_results
  all_goals rfl

/-! ### Third stretch: the zero constant -/

theorem s3_cst (V : Valuation τ sig (Elt Ideal)) :
    StableHlo.after (hostOps1_2 (F := Ideal)) V (Proc.devRef .tc main_cst_2)
      = constant (F := Ideal) S_ .f32 0x00000000#32 := by
  after_results
  all_goals rfl

theorem s3_v11 (V : Valuation τ sig (Elt Ideal)) :
    StableHlo.after (hostOps1_2 (F := Ideal)) V (Proc.devRef .tc main_v11) = V (Proc.devRef .tc main_v11) := by
  after_results
  all_goals rfl

theorem s3_v15 (V : Valuation τ sig (Elt Ideal)) :
    StableHlo.after (hostOps1_2 (F := Ideal)) V (Proc.devRef .tc main_v15) = V (Proc.devRef .tc main_v15) := by
  after_results
  all_goals rfl

/-! ### Fourth stretch: the selection by the validity bits -/

theorem s4_v16 (V : Valuation τ sig (Elt Ideal)) :
    StableHlo.after (hostOps1_3 (F := Ideal)) V (Proc.devRef .tc main_v16)
      = select (V (Proc.devRef .tc main_v11)) (V (Proc.devRef .tc main_v15))
          (broadcastInDim S4096 ![] bcast_S_S4096 (id (V (Proc.devRef .tc main_cst_2)))) := by
  after_results
  all_goals rfl

theorem s4_v11 (V : Valuation τ sig (Elt Ideal)) :
    StableHlo.after (hostOps1_3 (F := Ideal)) V (Proc.devRef .tc main_v11) = V (Proc.devRef .tc main_v11) := by
  after_results
  all_goals rfl

/-! ### Fifth stretch: the sum, the count, the quotient -/

theorem s5_v22 (V : Valuation τ sig (Elt Ideal)) :
    StableHlo.after (hostOps1_4 (F := Ideal)) V (Proc.devRef .tc main_v22)
      = Host.divf
          (Host.reduceAdd (V (Proc.devRef .tc main_v16)) (constant (F := Ideal) S_ .f32 0x00000000#32)
            reducesTo_S4096_S_d0 h_S_)
          (sitofp .f32 (maxsi
            (Host.reduce IntOp.addi (extui 32 (V (Proc.devRef .tc main_v11)) natLt_1_32) (constantI S_ 32 0#32)
              reducesTo_S4096_S_d0 h_S_)
            (constantI S_ 32 1#32))) := by
  after_results
  all_goals rfl

/-! ### The chain -/

/-- From any contents, after the host operations that follow the region the result buffer holds
    the epilogue of the three result columns. -/
theorem kernel_tail (W : Valuation τ sig (Elt Ideal)) :
    StableHlo.after (hostOps1_4 (F := Ideal))
        (StableHlo.after (hostOps1_3 (F := Ideal))
          (StableHlo.after (hostOps1_2 (F := Ideal))
            (StableHlo.after (hostOps1_1 (F := Ideal))
              (StableHlo.after (hostOps1 (F := Ideal)) W))))
        (Proc.devRef .tc main_v22)
      = Cert.Spec.tail
          (col (W (Proc.devRef .tc main_v6_0)))
          (col (W (Proc.devRef .tc main_v6_1)))
          (gtHalf (col (W (Proc.devRef .tc main_v6_2)))) := by
  rw [s5_v22, s4_v16, s4_v11, s3_cst, s3_v11, s3_v15, s2_v15, s2_v11, s1_v14, s1_v11]
  rfl

end Cert.KernelIdeal.KTail

end
-- ==== Proof.KernelTailReads.lean ====
import proofs.«107534_j40690520162810_1_alg».proof.Proof.KernelTail
import proofs.«107534_j40690520162810_1_alg».proof.Proof.RowGlue
import Idealize.ShloMosaic.Lib.Pipeline.Value
import Idealize.ShloMosaic.Lib.ValueIdx

/-!
The two reads the epilogue's operands need at a row: a column of 4096 entries read as a vector
holds at `r` the column's entry `(r, 0)`, and the comparison with one half holds at `r` the bit of
"one half is below the entry". When the entry is the product of the two existence indicators of
row `r`, that bit is the validity bit of the specification.
-/

noncomputable section

namespace Cert.KernelIdeal.KTail

open Cert.KernelIdeal Cert.KernelIdeal.Gen Idealize.ShloMosaic Idealize.ShloMosaic.TcCoe Idealize.SL.Sem
open Idealize.ShloMosaic.ValueIdx (ix1 ix2)

/-- The vector's entry `r` is the column's entry `(r, 0)`. -/
theorem col_apply (x : FVec Ideal S4096x1 .f32) (r : Cert.Spec.Rows) :
    col x (ix1 r) = x (ix2 r (0 : Fin 1)) :=
  shapeCast_apply x shapeCasts_S4096x1_S4096 _ _ (by
    rw [Shape.rowMajor_val_two, Shape.rowMajor_val_one]
    show r.val * 1 + 0 = r.val
    omega)

/-- The comparison's bit at `r`. -/
theorem gtHalf_apply (y : FVec Ideal S4096 .f32) (r : Cert.Spec.Rows) :
    gtHalf y (ix1 r) = if Ideal.ofBits .f32 0x3F000000#32 < y (ix1 r) then 1#1 else 0#1 := by
  show Ideal.cmp .ogt (y (ix1 r)) (Ideal.ofBits .f32 0x3F000000#32) = _
  unfold Ideal.cmp
  by_cases h : Ideal.ofBits .f32 0x3F000000#32 < y (ix1 r)
  · rw [if_pos h]; simp [h]
  · rw [if_neg h]; simp [h]

/-- On the product of the two existence indicators the comparison's bit is the validity bit. -/
theorem gtHalf_valid (lab : Cert.Spec.Rows → BitVec 32) (r : Cert.Spec.Rows)
    [Decidable (∃ q, Cert.Spec.pos lab r q)] [Decidable (∃ q, Cert.Spec.neg lab r q)]
    (u v : EReal) (y : FVec Ideal S4096 .f32)
    (hy : y (ix1 r) = u * v)
    (hu : u = if ∃ q, Cert.Spec.pos lab r q then 1 else 0)
    (hv : v = if ∃ q, Cert.Spec.neg lab r q then 1 else 0) :
    gtHalf y (ix1 r) = if Cert.Spec.valid lab r then 1#1 else 0#1 := by
  rw [gtHalf_apply, hy]
  have hb := Cert.Spec.valid_bit lab r u v hu hv
  by_cases hval : Cert.Spec.valid lab r
  · rw [if_pos (hb.2 hval), if_pos hval]
  · rw [if_neg (fun h => hval (hb.1 h)), if_neg hval]

end Cert.KernelIdeal.KTail

end
-- ==== Proof.KernelHead.lean ====
import proofs.«107534_j40690520162810_1_alg».proof.Proof.Gen.KernelIdeal.Launch
import proofs.«107534_j40690520162810_1_alg».proof.Proof.Gen.ReferenceIdeal.Read
import proofs.«107534_j40690520162810_1_alg».proof.Proof.Spec
import Idealize.ShloMosaic.Lib.StableHlo.Run

/-!
The host operations that precede the kernel's region compute the reference's normalised rows.

Both programs divide every row of the embeddings by the larger of its Euclidean norm and a small
constant, by the same operations in the same order. The kernel's program then narrows the quotient
to a shorter float format, which over the extended reals changes nothing. The two arguments are
not written by these operations.
-/

noncomputable section

namespace Cert.KernelIdeal.KHead

open Cert.KernelIdeal Cert.KernelIdeal.Gen Idealize.ShloMosaic Idealize.ShloMosaic.TcCoe Idealize.SL.Sem

/-! ### First stretch: the row norms -/

theorem h0_v0 (V : Valuation τ sig (Elt Ideal)) :
    StableHlo.after (hostOps0 (F := Ideal)) V (Proc.devRef .tc main_v0)
      = Host.sqrt (broadcastInDim S4096x1 ![0] bcast_S4096_S4096x1_0
          (Host.reduceAdd (mulf (V (Proc.devRef .tc main_arg0)) (V (Proc.devRef .tc main_arg0)))
            (constant (F := Ideal) S_ .f32 0x00000000#32) reducesTo_S4096x512_S4096_d1 h_S_)) := by
  after_results
  all_goals rfl

theorem h0_arg0 (V : Valuation τ sig (Elt Ideal)) :
    StableHlo.after (hostOps0 (F := Ideal)) V (Proc.devRef .tc main_arg0) = V (Proc.devRef .tc main_arg0) := by
  after_results
  all_goals rfl

theorem h0_arg1 (V : Valuation τ sig (Elt Ideal)) :
    StableHlo.after (hostOps0 (F := Ideal)) V (Proc.devRef .tc main_arg1) = V (Proc.devRef .tc main_arg1) := by
  after_results
  all_goals rfl

/-! ### Second stretch: the quotient -/

theorem h1_v5 (V : Valuation τ sig (Elt Ideal)) :
    StableHlo.after (hostOps0_1 (F := Ideal)) V (Proc.devRef .tc main_v5)
      = truncf .bf16
          (Host.divf (V (Proc.devRef .tc main_arg0))
            (broadcastInDim S4096x512 ![0, 1] bcast_S4096x1_S4096x512_0_1
              (maximumf (V (Proc.devRef .tc main_v0))
                (broadcastInDim S4096x1 ![] bcast_S_S4096x1 (constant (F := Ideal) S_ .f32 0x2B8CBCCC#32)))))
          bitsLt_bf16_f32 := by
  after_results
  all_goals rfl

theorem h1_arg0 (V : Valuation τ sig (Elt Ideal)) :
    StableHlo.after (hostOps0_1 (F := Ideal)) V (Proc.devRef .tc main_arg0) = V (Proc.devRef .tc main_arg0) := by
  after_results
  all_goals rfl

theorem h1_arg1 (V : Valuation τ sig (Elt Ideal)) :
    StableHlo.after (hostOps0_1 (F := Ideal)) V (Proc.devRef .tc main_arg1) = V (Proc.devRef .tc main_arg1) := by
  after_results
  all_goals rfl

/-! ### The chain -/

/-- The kernel's operand holds the reference's normalised rows. -/
theorem kernel_head (W₀ : Valuation τ sig (Elt Ideal)) :
    (StableHlo.after (hostOps0_1 (F := Ideal)) (StableHlo.after (hostOps0 (F := Ideal)) W₀) (Proc.devRef .tc main_v5)
        : FVec Ideal ⟨2, ![4096, 512]⟩ .f32)
      = Cert.ReferenceIdeal.Read.val_main_v4 (F := Ideal) (W₀ (Proc.devRef .tc main_arg0)) := by
  rw [h1_v5, h0_v0, h0_arg0]
  unfold Cert.ReferenceIdeal.Read.val_main_v4 Cert.ReferenceIdeal.Read.val_main_v3 Cert.ReferenceIdeal.Read.val_main_v2
    Cert.ReferenceIdeal.Read.val_main_v1 Cert.ReferenceIdeal.Read.val_main_cst Cert.ReferenceIdeal.Read.val_main_v0
    Cert.ReferenceIdeal.Read.val_main_call0_v2 Cert.ReferenceIdeal.Read.val_main_call0_v1
    Cert.ReferenceIdeal.Read.val_main_call0_cst Cert.ReferenceIdeal.Read.val_main_call0_v0
  rfl

/-- The same, by row and column. -/
theorem kernel_head_eOf (W₀ : Valuation τ sig (Elt Ideal)) :
    Cert.Spec.eOf (StableHlo.after (hostOps0_1 (F := Ideal)) (StableHlo.after (hostOps0 (F := Ideal)) W₀)
        (Proc.devRef .tc main_v5))
      = Cert.Spec.eOf (Cert.ReferenceIdeal.Read.val_main_v4 (F := Ideal) (W₀ (Proc.devRef .tc main_arg0))) :=
  congrArg Cert.Spec.eOf (kernel_head W₀)

/-- The embeddings are not written. -/
theorem kernel_head_arg0 (W₀ : Valuation τ sig (Elt Ideal)) :
    StableHlo.after (hostOps0_1 (F := Ideal)) (StableHlo.after (hostOps0 (F := Ideal)) W₀) (Proc.devRef .tc main_arg0)
      = W₀ (Proc.devRef .tc main_arg0) := by
  rw [h1_arg0, h0_arg0]

/-- The labels are not written. -/
theorem kernel_head_arg1 (W₀ : Valuation τ sig (Elt Ideal)) :
    StableHlo.after (hostOps0_1 (F := Ideal)) (StableHlo.after (hostOps0 (F := Ideal)) W₀) (Proc.devRef .tc main_arg1)
      = W₀ (Proc.devRef .tc main_arg1) := by
  rw [h1_arg1, h0_arg1]

end Cert.KernelIdeal.KHead

end
-- ==== Proof.RefTail.lean ====
import proofs.«107534_j40690520162810_1_alg».proof.Proof.Gen.ReferenceIdeal.Read
import proofs.«107534_j40690520162810_1_alg».proof.Proof.Spec

/-!
The reference program's result is the epilogue `Cert.Spec.tail` of its three per-row quantities:
the row maxima of the masked distances, the row minima, and the validity bits. Every operation
after those three is the same operation in `tail`, applied to the same operands.
-/

noncomputable section

namespace Cert.ReferenceIdeal.RefValue

open Cert.ReferenceIdeal Cert.ReferenceIdeal.Gen Idealize.ShloMosaic Idealize.SL.Sem

/-- The reference's last value is `tail` of its hardest positives, hardest negatives and validity bits. -/
theorem v39_eq_tail (x0 : (⟨S4096x512, .f32⟩ : BufTy).Contents (Elt Ideal)) (x1 : (⟨S4096, .i32⟩ : BufTy).Contents (Elt Ideal)) :
    Read.val_main_v39 (F := Ideal) x0 x1
      = Cert.Spec.tail (Read.val_main_v23 (F := Ideal) x0 x1) (Read.val_main_v25 (F := Ideal) x0 x1) (Read.val_main_v28 (F := Ideal) x1) := by
  unfold Read.val_main_v39 Read.val_main_v34 Read.val_main_v38 Read.val_main_v37 Read.val_main_v36 Read.val_main_v35
    Read.val_main_v33 Read.val_main_v32 Read.val_main_v31 Read.val_main_v30 Read.val_main_v29
    Read.val_main_cst_7 Read.val_main_call3_v0 Read.val_main_call3_cst Read.val_main_call4_v1 Read.val_main_call4_v0
    Read.val_main_cst_8 Read.val_main_cst_9 Read.val_main_c_10 Read.val_main_c_11 Cert.Spec.tail
  rfl

end Cert.ReferenceIdeal.RefValue

end
-- ==== Proof.RefRows.lean ====
import proofs.«107534_j40690520162810_1_alg».proof.Proof.Gen.ReferenceIdeal.Read
import proofs.«107534_j40690520162810_1_alg».proof.Proof.Spec
import Idealize.ShloMosaic.PureOps.Reduce

/-!
The reference program's three per-row quantities, read down to the specification.

At entry `(r, q)` the reference's distance matrix is `Cert.Spec.dist` of the normalised rows, its
positive mask is the bit of `Cert.Spec.pos` and its negative mask the bit of `Cert.Spec.neg`. A
reduce along the key axis is a fold over the keys of row `r`: with body `max` from `-∞` it is the
supremum, with body `min` from `+∞` the infimum, and with body `or` from `0` the bit of existence.
-/

noncomputable section

namespace Cert.ReferenceIdeal.RefValue

open Cert.ReferenceIdeal Cert.ReferenceIdeal.Gen Idealize.ShloMosaic Idealize.SL.Sem
open Idealize.ShloMosaic.ValueIdx (ix1 ix2)
open Cert.Spec (Rows Cols eOf labOf)

/-! ### Entries of the matrices at `(r, q)` -/

theorem v11_at (x1 : (⟨S4096, .i32⟩ : BufTy).Contents (Elt Ideal)) (r q : Rows) :
    Read.val_main_v11 (F := Ideal) x1 (ix2 r q) = x1 (ix1 r) := by
  rw [Read.val_main_v11_apply, Read.val_main_v9_apply]
  exact congrArg x1 (funext fun a => by match a with | ⟨0, _⟩ => rfl)

theorem v12_at (x1 : (⟨S4096, .i32⟩ : BufTy).Contents (Elt Ideal)) (r q : Rows) :
    Read.val_main_v12 (F := Ideal) x1 (ix2 r q) = x1 (ix1 q) := by
  rw [Read.val_main_v12_apply, Read.val_main_v10_apply]
  exact congrArg x1 (funext fun a => by match a with | ⟨0, _⟩ => rfl)

/-- Row and column numbers below 4096 are equal as 32-bit words exactly when they are equal. -/
theorem iota_eq_iff (r q : Rows) :
    IntOp.addi (BitVec.ofNat 32 r.val) 0#32 = BitVec.ofNat 32 q.val ↔ r = q := by
  unfold IntOp.addi
  rw [BitVec.add_zero]
  constructor
  · intro h
    have h' := congrArg BitVec.toNat h
    simp only [BitVec.toNat_ofNat] at h'
    have hr := r.isLt
    have hq := q.isLt
    exact Fin.ext (by omega)
  · rintro rfl; rfl

/-- The same-label bit. -/
theorem v13_at (x1 : (⟨S4096, .i32⟩ : BufTy).Contents (Elt Ideal)) (r q : Rows) :
    Read.val_main_v13 (F := Ideal) x1 (ix2 r q) = if labOf x1 r = labOf x1 q then 1#1 else 0#1 := by
  rw [Read.val_main_v13_apply, v11_at, v12_at]
  unfold IntOp.cmpi labOf
  by_cases h : x1 (ix1 r) = x1 (ix1 q)
  · rw [if_pos h, show (x1 (ix1 r) == x1 (ix1 q)) = true from beq_iff_eq.2 h]; rfl
  · rw [if_neg h, show (x1 (ix1 r) == x1 (ix1 q)) = false from beq_eq_false_iff_ne.2 h]; rfl

/-- The off-diagonal bit. -/
theorem v19_at (r q : Rows) :
    Read.val_main_v19 (F := Ideal) (ix2 r q) = if r = q then 0#1 else 1#1 := by
  rw [Read.val_main_v19_apply, Read.val_main_v18_apply, Read.val_main_v17_apply, Read.val_main_v14_apply,
    Read.val_main_v15_apply, Read.val_main_v16_apply, Read.val_main_c_apply]
  show ~~~(IntOp.cmpi .eq (IntOp.addi (BitVec.ofNat 32 r.val) 0#32) (BitVec.ofNat 32 q.val)) = _
  unfold IntOp.cmpi
  by_cases h : r = q
  · rw [if_pos h, show (IntOp.addi (BitVec.ofNat 32 r.val) 0#32 == BitVec.ofNat 32 q.val) = true from
      beq_iff_eq.2 ((iota_eq_iff r q).2 h)]
    show ~~~BitVec.ofBool true = 0#1
    decide
  · rw [if_neg h, show (IntOp.addi (BitVec.ofNat 32 r.val) 0#32 == BitVec.ofNat 32 q.val) = false from
      beq_eq_false_iff_ne.2 fun e => h ((iota_eq_iff r q).1 e)]
    show ~~~BitVec.ofBool false = 1#1
    decide

/-- The positive mask is the bit of `pos`. -/
theorem v20_at (x1 : (⟨S4096, .i32⟩ : BufTy).Contents (Elt Ideal)) (r q : Rows) :
    Read.val_main_v20 (F := Ideal) x1 (ix2 r q) = if Cert.Spec.pos (labOf x1) r q then 1#1 else 0#1 := by
  rw [Read.val_main_v20_apply, v13_at, v19_at]
  unfold Cert.Spec.pos IntOp.andi
  by_cases hl : labOf x1 r = labOf x1 q <;> by_cases hrq : r = q <;> simp [hl, hrq]

/-- The negative mask is the bit of `neg`. -/
theorem v21_at (x1 : (⟨S4096, .i32⟩ : BufTy).Contents (Elt Ideal)) (r q : Rows) :
    Read.val_main_v21 (F := Ideal) x1 (ix2 r q) = if Cert.Spec.neg (labOf x1) r q then 1#1 else 0#1 := by
  rw [Read.val_main_v21_apply, v13_at]
  unfold Cert.Spec.neg
  by_cases hl : labOf x1 r = labOf x1 q <;> simp [hl]

/-- The distance matrix is the cosine distance of the normalised rows. -/
theorem v8_at (x0 : (⟨S4096x512, .f32⟩ : BufTy).Contents (Elt Ideal)) (r q : Rows) :
    Read.val_main_v8 (F := Ideal) x0 (ix2 r q) = Cert.Spec.dist (eOf (Read.val_main_v4 (F := Ideal) x0)) r q := by
  rw [Read.val_main_v8_apply, Read.val_main_v7_apply, Read.val_main_cst_0_apply, Read.val_main_v6_apply]
  unfold Cert.Spec.dist eOf
  show Ideal.ofBits .f32 0x3F800000#32 - _ = Ideal.ofBits .f32 0x3F800000#32 - _
  refine congrArg (Ideal.ofBits .f32 0x3F800000#32 - ·) (Finset.sum_congr rfl fun k _ => ?_)
  rw [Read.val_main_v5_apply]
  have el : Read.lidx_main_v6 (ix2 r q) k = ix2 r k := funext fun a => by
    match a with
    | ⟨0, _⟩ => rfl
    | ⟨1, _⟩ => rfl
  have er : Read.idx_main_v5 (Read.ridx_main_v6 (ix2 r q) k) = ix2 q k := funext fun a => by
    match a with
    | ⟨0, _⟩ => rfl
    | ⟨1, _⟩ => rfl
  rw [el, er]

theorem select_bit {α : Type} (P : Prop) [Decidable P] (a b : α) :
    Scalar.select (if P then 1#1 else 0#1) a b = if P then a else b := by
  by_cases h : P
  · rw [if_pos h, if_pos h]; exact ValueIdx.select_one a b
  · rw [if_neg h, if_neg h]; exact ValueIdx.select_zero a b

/-- The masked distances on the positives. -/
theorem v22_at (x0 : (⟨S4096x512, .f32⟩ : BufTy).Contents (Elt Ideal)) (x1 : (⟨S4096, .i32⟩ : BufTy).Contents (Elt Ideal))
    (r q : Rows) :
    Read.val_main_v22 (F := Ideal) x0 x1 (ix2 r q)
      = Cert.Spec.dpos (eOf (Read.val_main_v4 (F := Ideal) x0)) (labOf x1) r q := by
  rw [Read.val_main_v22_apply, v20_at, v8_at, Read.val_main_call1_v1_apply, Read.val_main_call1_v0_apply,
    Read.val_main_cst_1_apply, select_bit]
  rfl

/-- The masked distances on the negatives. -/
theorem v24_at (x0 : (⟨S4096x512, .f32⟩ : BufTy).Contents (Elt Ideal)) (x1 : (⟨S4096, .i32⟩ : BufTy).Contents (Elt Ideal))
    (r q : Rows) :
    Read.val_main_v24 (F := Ideal) x0 x1 (ix2 r q)
      = Cert.Spec.dneg (eOf (Read.val_main_v4 (F := Ideal) x0)) (labOf x1) r q := by
  rw [Read.val_main_v24_apply, v21_at, v8_at, Read.val_main_call2_v1_apply, Read.val_main_call2_v0_apply,
    Read.val_main_cst_3_apply, select_bit]
  rfl

/-! ### Reduces along the key axis -/

/-- Dropping the key axis of the square matrix leaves the rows. -/
theorem red1 : S4096x4096.Reduces [1] S4096 := by decide

/-- Row `r` with key `k` put back on the dropped axis is entry `(r, k)`. -/
theorem lift_row (h : S4096x4096.Reduces [1] S4096) (r : Rows) (k : Fin (S4096x4096.size 1)) :
    h.lift (ix1 r) k = ix2 r (⟨k.val, k.isLt⟩ : Fin 4096) := by
  funext c; apply Fin.ext
  fin_cases c <;> rfl

theorem ofBits_neg_inf : Ideal.ofBits .f32 0xFF800000#32 = (⊥ : EReal) := by simp [Ideal.ofBits, Ideal.ieee]

theorem ofBits_pos_inf : Ideal.ofBits .f32 0x7F800000#32 = (⊤ : EReal) := by simp [Ideal.ofBits, Ideal.ieee]

/-- A fold of `max` from `-∞` is the supremum. -/
theorem fold_maximumf_eq_sup {ι : Type} [DecidableEq ι] (s : Finset ι) (g : ι → EReal) :
    s.fold (FloatOps.maximumf (F := Ideal) (φ := .f32)) (⊥ : EReal) g = s.sup g := by
  induction s using Finset.induction_on with
  | empty => rfl
  | insert a s ha ih => rw [Finset.fold_insert ha, Finset.sup_insert, ih]; rfl

/-- A fold of `min` from `+∞` is the infimum. -/
theorem fold_minimumf_eq_inf {ι : Type} [DecidableEq ι] (s : Finset ι) (g : ι → EReal) :
    s.fold (FloatOps.minimumf (F := Ideal) (φ := .f32)) (⊤ : EReal) g = s.inf g := by
  induction s using Finset.induction_on with
  | empty => rfl
  | insert a s ha ih => rw [Finset.fold_insert ha, Finset.inf_insert, ih]; rfl

/-- A fold of `or` from `0` over bits of a predicate is the bit of existence. -/
theorem fold_ori_bit {ι : Type} [DecidableEq ι] (s : Finset ι) (P : ι → Prop) [DecidablePred P] :
    s.fold (IntOp.ori (w := 1)) 0#1 (fun q => if P q then 1#1 else 0#1) = if ∃ q ∈ s, P q then 1#1 else 0#1 := by
  induction s using Finset.induction_on with
  | empty => simp
  | insert a s ha ih =>
    rw [Finset.fold_insert ha, ih]
    by_cases hp : P a
    · have he' : ∃ q ∈ insert a s, P q := ⟨a, Finset.mem_insert_self a s, hp⟩
      rw [if_pos hp, if_pos he']
      by_cases he : ∃ q ∈ s, P q
      · rw [if_pos he]; decide
      · rw [if_neg he]; decide
    · rw [if_neg hp]
      by_cases he : ∃ q ∈ s, P q
      · have he' : ∃ q ∈ insert a s, P q := by
          obtain ⟨q, hq, hpq⟩ := he
          exact ⟨q, Finset.mem_insert_of_mem hq, hpq⟩
        rw [if_pos he, if_pos he']; decide
      · have he' : ¬ ∃ q ∈ insert a s, P q := by
          rintro ⟨q, hq, hpq⟩
          rcases Finset.mem_insert.1 hq with rfl | hq'
          · exact hp hpq
          · exact he ⟨q, hq', hpq⟩
        rw [if_neg he, if_neg he']; decide

/-- The reference's hardest positive of row `r`. -/
theorem v23_apply (x0 : (⟨S4096x512, .f32⟩ : BufTy).Contents (Elt Ideal)) (x1 : (⟨S4096, .i32⟩ : BufTy).Contents (Elt Ideal))
    (r : Rows) :
    Read.val_main_v23 (F := Ideal) x0 x1 (ix1 r)
      = Cert.Spec.rowPos (eOf (Read.val_main_v4 (F := Ideal) x0)) (labOf x1) r := by
  unfold Read.val_main_v23
  rw [Host.reduce_eq_fold_single (FloatOps.maximumf (F := Ideal) (φ := .f32)) _ _ _ red1 _ (ix1 r),
    Read.val_main_cst_2_apply]
  show Finset.fold _ (Ideal.ofBits .f32 0xFF800000#32) _ _ = _
  rw [ofBits_neg_inf, fold_maximumf_eq_sup]
  have hf : (Read.val_main_v22 (F := Ideal) x0 x1 ∘ red1.lift (ix1 r))
      = fun k : Fin (S4096x4096.size 1) =>
          Cert.Spec.dpos (eOf (Read.val_main_v4 (F := Ideal) x0)) (labOf x1) r (⟨k.val, k.isLt⟩ : Fin 4096) :=
    funext fun k => by rw [Function.comp_apply, lift_row]; exact v22_at x0 x1 r _
  rw [hf]
  rfl

/-- The reference's hardest negative of row `r`. -/
theorem v25_apply (x0 : (⟨S4096x512, .f32⟩ : BufTy).Contents (Elt Ideal)) (x1 : (⟨S4096, .i32⟩ : BufTy).Contents (Elt Ideal))
    (r : Rows) :
    Read.val_main_v25 (F := Ideal) x0 x1 (ix1 r)
      = Cert.Spec.rowNeg (eOf (Read.val_main_v4 (F := Ideal) x0)) (labOf x1) r := by
  unfold Read.val_main_v25
  rw [Host.reduce_eq_fold_single (FloatOps.minimumf (F := Ideal) (φ := .f32)) _ _ _ red1 _ (ix1 r),
    Read.val_main_cst_4_apply]
  show Finset.fold _ (Ideal.ofBits .f32 0x7F800000#32) _ _ = _
  rw [ofBits_pos_inf, fold_minimumf_eq_inf]
  have hf : (Read.val_main_v24 (F := Ideal) x0 x1 ∘ red1.lift (ix1 r))
      = fun k : Fin (S4096x4096.size 1) =>
          Cert.Spec.dneg (eOf (Read.val_main_v4 (F := Ideal) x0)) (labOf x1) r (⟨k.val, k.isLt⟩ : Fin 4096) :=
    funext fun k => by rw [Function.comp_apply, lift_row]; exact v24_at x0 x1 r _
  rw [hf]
  rfl

/-- Row `r` has a positive. -/
theorem v26_at (x1 : (⟨S4096, .i32⟩ : BufTy).Contents (Elt Ideal)) (r : Rows) :
    Read.val_main_v26 (F := Ideal) x1 (ix1 r) = if ∃ q, Cert.Spec.pos (labOf x1) r q then 1#1 else 0#1 := by
  unfold Read.val_main_v26
  rw [Host.reduce_eq_fold_single (IntOp.ori (w := 1)) _ _ _ red1 _ (ix1 r), Read.val_main_c_5_apply]
  have hf : (Read.val_main_v20 (F := Ideal) x1 ∘ red1.lift (ix1 r))
      = fun k : Fin (S4096x4096.size 1) =>
          if Cert.Spec.pos (labOf x1) r (⟨k.val, k.isLt⟩ : Fin 4096) then 1#1 else 0#1 :=
    funext fun k => by rw [Function.comp_apply, lift_row]; exact v20_at x1 r _
  rw [hf, fold_ori_bit]
  simp only [Finset.mem_univ, true_and]
  rfl

/-- Row `r` has a negative. -/
theorem v27_at (x1 : (⟨S4096, .i32⟩ : BufTy).Contents (Elt Ideal)) (r : Rows) :
    Read.val_main_v27 (F := Ideal) x1 (ix1 r) = if ∃ q, Cert.Spec.neg (labOf x1) r q then 1#1 else 0#1 := by
  unfold Read.val_main_v27
  rw [Host.reduce_eq_fold_single (IntOp.ori (w := 1)) _ _ _ red1 _ (ix1 r), Read.val_main_c_6_apply]
  have hf : (Read.val_main_v21 (F := Ideal) x1 ∘ red1.lift (ix1 r))
      = fun k : Fin (S4096x4096.size 1) =>
          if Cert.Spec.neg (labOf x1) r (⟨k.val, k.isLt⟩ : Fin 4096) then 1#1 else 0#1 :=
    funext fun k => by rw [Function.comp_apply, lift_row]; exact v21_at x1 r _
  rw [hf, fold_ori_bit]
  simp only [Finset.mem_univ, true_and]
  rfl

/-- The reference's validity bit of row `r`. -/
theorem v28_apply (x1 : (⟨S4096, .i32⟩ : BufTy).Contents (Elt Ideal)) (r : Rows) :
    Read.val_main_v28 (F := Ideal) x1 (ix1 r) = if Cert.Spec.valid (labOf x1) r then 1#1 else 0#1 := by
  rw [Read.val_main_v28_apply, v26_at, v27_at]
  by_cases hp : ∃ q, Cert.Spec.pos (labOf x1) r q <;> by_cases hn : ∃ q, Cert.Spec.neg (labOf x1) r q
  · rw [if_pos hp, if_pos hn, if_pos (show Cert.Spec.valid (labOf x1) r from And.intro hp hn)]; decide
  · rw [if_pos hp, if_neg hn, if_neg (fun h : Cert.Spec.valid (labOf x1) r => hn (And.right h))]; decide
  · rw [if_neg hp, if_pos hn, if_neg (fun h : Cert.Spec.valid (labOf x1) r => hp (And.left h))]; decide
  · rw [if_neg hp, if_neg hn, if_neg (fun h : Cert.Spec.valid (labOf x1) r => hp (And.left h))]; decide

end Cert.ReferenceIdeal.RefValue

end
-- ==== Proof.RefEq.lean ====
import proofs.«107534_j40690520162810_1_alg».proof.Proof.RefTail
import proofs.«107534_j40690520162810_1_alg».proof.Proof.RefRows

/-!
The reference program's result, as one function of its two arguments: the epilogue of the hardest
positives, the hardest negatives and the validity bits of the specification, taken at the
normalised embedding rows and the labels. Any three vectors that agree row by row with those
quantities give the same result through the epilogue.
-/

noncomputable section

namespace Cert.Spec

open Idealize.ShloMosaic

/-- The row an index into a vector of 4096 entries names. -/
abbrev rowOf (i : (⟨1, ![4096]⟩ : Shape).Idx) : Rows := i 0

end Cert.Spec

namespace Cert.ReferenceIdeal.RefValue

open Cert.ReferenceIdeal Cert.ReferenceIdeal.Gen Idealize.ShloMosaic Idealize.SL.Sem
open Idealize.ShloMosaic.ValueIdx (ix1 ix2)
open Cert.Spec (Rows Cols eOf labOf rowOf)

/-- Three vectors that are, row by row, the hardest positive, the hardest negative and the
    validity bit of the specification go through the epilogue to the reference's result. -/
theorem reference_eq_of (x0 : (⟨S4096x512, .f32⟩ : BufTy).Contents (Elt Ideal)) (x1 : (⟨S4096, .i32⟩ : BufTy).Contents (Elt Ideal))
    (hp hn : FVec Ideal ⟨1, ![4096]⟩ .f32) (vd : IVec ⟨1, ![4096]⟩ 1)
    (hhp : ∀ r : Rows, hp (ix1 r) = Cert.Spec.rowPos (eOf (Read.val_main_v4 (F := Ideal) x0)) (labOf x1) r)
    (hhn : ∀ r : Rows, hn (ix1 r) = Cert.Spec.rowNeg (eOf (Read.val_main_v4 (F := Ideal) x0)) (labOf x1) r)
    (hvd : ∀ r : Rows, vd (ix1 r) = if Cert.Spec.valid (labOf x1) r then 1#1 else 0#1) :
    Read.val_main_v39 (F := Ideal) x0 x1 = Cert.Spec.tail hp hn vd := by
  rw [v39_eq_tail]
  have h23 : Read.val_main_v23 (F := Ideal) x0 x1 = hp :=
    funext fun i => by
      obtain ⟨r, rfl⟩ : ∃ r : Rows, i = ix1 r := ⟨i 0, ValueIdx.eq_ix1 i⟩
      exact (v23_apply x0 x1 r).trans (hhp r).symm
  have h25 : Read.val_main_v25 (F := Ideal) x0 x1 = hn :=
    funext fun i => by
      obtain ⟨r, rfl⟩ : ∃ r : Rows, i = ix1 r := ⟨i 0, ValueIdx.eq_ix1 i⟩
      exact (v25_apply x0 x1 r).trans (hhn r).symm
  have h28 : Read.val_main_v28 (F := Ideal) x1 = vd :=
    funext fun i => by
      obtain ⟨r, rfl⟩ : ∃ r : Rows, i = ix1 r := ⟨i 0, ValueIdx.eq_ix1 i⟩
      exact (v28_apply x1 r).trans (hvd r).symm
  rw [h23, h25, h28]

/-- The reference computes the specification. -/
theorem reference_eq (x0 : (⟨S4096x512, .f32⟩ : BufTy).Contents (Elt Ideal)) (x1 : (⟨S4096, .i32⟩ : BufTy).Contents (Elt Ideal)) :
    Read.val_main_v39 (F := Ideal) x0 x1
      = Cert.Spec.tail
          (fun i => Cert.Spec.rowPos (eOf (Read.val_main_v4 (F := Ideal) x0)) (labOf x1) (rowOf i))
          (fun i => Cert.Spec.rowNeg (eOf (Read.val_main_v4 (F := Ideal) x0)) (labOf x1) (rowOf i))
          (fun i => if Cert.Spec.valid (labOf x1) (rowOf i) then 1#1 else 0#1) :=
  reference_eq_of x0 x1 _ _ _ (fun _ => rfl) (fun _ => rfl) (fun _ => rfl)

end Cert.ReferenceIdeal.RefValue

end
-- ==== Proof.KI.Value.lean ====
/-
  The idealized kernel program's result is the reference's.

  For an anchor row r = 512 a + p the running columns after the key tiles 0, 1, …, 7 of anchor tile a obey a recursion on
  the tile: each step takes the maximum (minimum) with the tile's masked row maximum (minimum), starting from -1 (3, 0, 0).
  After the last tile the maximum is the largest masked distance of the whole row, because the row's own diagonal entry is
  masked to exactly -1; the minimum likewise with 3; the two indicators say whether the row has a positive and whether it
  has a negative. The last key tile's point writes these columns to rows [512 a, 512 a + 512) of the three output arrays,
  so every row of the outputs holds its row's values, and the host's epilogue, which is the reference's, does the rest.
-/
import proofs.«107534_j40690520162810_1_alg».proof.Proof.KI.Launch
import proofs.«107534_j40690520162810_1_alg».proof.Proof.KI.Arrays
import proofs.«107534_j40690520162810_1_alg».proof.Proof.KI.AccRow
import proofs.«107534_j40690520162810_1_alg».proof.Proof.KI.AccIdeal
import proofs.«107534_j40690520162810_1_alg».proof.Proof.RowGlue
import proofs.«107534_j40690520162810_1_alg».proof.Proof.KernelTailReads
import proofs.«107534_j40690520162810_1_alg».proof.Proof.KernelHead
import proofs.«107534_j40690520162810_1_alg».proof.Proof.RefEq

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx (ix1 ix2)
open Cert.Spec (Rows Cols tileEquiv)

variable (m : (ℓ : Loc nD τ sig) → Buf (Elt Ideal) ℓ) (c : Dev nD)

/-- The normalised embeddings as the region finds them, by row and coordinate. -/
def eK : Rows → Cols → EReal := Cert.Spec.eOf (V m c main_v5)
/-- The labels as the region finds them, by row. -/
def labK : Rows → BitVec 32 := Cert.Spec.labOf (V m c main_arg1)

/-- Row p of tile a, two spellings. -/
theorem row_eq (a : Fin 8) (p : Fin 512) : row a p = tileEquiv (a, p) := Fin.ext rfl

/-! ## The blocks at a point are rows of the two arrays -/

theorem hx0 (a j : Fin 8) (p k : Fin 512) :
    (iblk m c 0 (pt a j) : Vec Ideal S512x512 .bf16) (ix2 p k) = eK m c (tileEquiv (a, p)) k := by
  rw [iblk0_apply, row_eq]; rfl
theorem hx1 (a j : Fin 8) (q k : Fin 512) :
    (iblk m c 1 (pt a j) : Vec Ideal S512x512 .bf16) (ix2 q k) = eK m c (tileEquiv (j, q)) k := by
  rw [iblk1_apply, row_eq]; rfl
theorem hl0 (a j : Fin 8) (p : Fin 512) :
    (iblk m c 2 (pt a j) : Vec Ideal S512 .i32) (ix1 p) = labK m c (tileEquiv (a, p)) := by
  rw [iblk2_apply, row_eq]; rfl
theorem hl1 (a j : Fin 8) (q : Fin 512) :
    (iblk m c 3 (pt a j) : Vec Ideal S512 .i32) (ix1 q) = labK m c (tileEquiv (j, q)) := by
  rw [iblk3_apply, row_eq]; rfl

theorem hi0 (a j : Fin 8) : ((grid0.coords (pt a j)) 0).val = a.val := congrArg Fin.val (coords_pt0 a j)
theorem hi1 (a j : Fin 8) : ((grid0.coords (pt a j)) 1).val = j.val := congrArg Fin.val (coords_pt1 a j)

/-! ## A row's four columns after its eight key tiles -/

/-- The running maximum ends at the row's hardest positive. -/
theorem s0_row (a : Fin 8) (p : Fin 512) :
    (accRow m c a 7 (by omega)).s0 (ix2 p (0 : Fin 1)) = Cert.Spec.rowPos (eK m c) (labK m c) (tileEquiv (a, p)) := by
  refine Cert.Spec.rowPos_of_rec (eK m c) (labK m c) (tileEquiv (a, p)) (fun j hj => (accRow m c a j hj).s0 (ix2 p (0 : Fin 1))) ?_ ?_
  · show (accRow m c a 0 _).s0 _ = _
    rw [accRow_zero]
    refine (upd4_s0 (a := a) (j := 0) (e := eK m c) (lab := labK m c) (hi0 a 0) (hi1 a 0) (hx0 m c a 0) (hx1 m c a 0) (hl0 m c a 0) (hl1 m c a 0) init4 p).trans ?_
    rw [init4_s0]
  · intro j hj
    show (accRow m c a (j + 1) hj).s0 _ = _
    rw [accRow_succ]
    exact upd4_s0 (a := a) (j := ⟨j + 1, hj⟩) (e := eK m c) (lab := labK m c) (hi0 a ⟨j + 1, hj⟩) (hi1 a ⟨j + 1, hj⟩) (hx0 m c a ⟨j + 1, hj⟩) (hx1 m c a ⟨j + 1, hj⟩) (hl0 m c a ⟨j + 1, hj⟩) (hl1 m c a ⟨j + 1, hj⟩) (accRow m c a j (by omega)) p

/-- The running minimum ends at the row's hardest negative. -/
theorem s1_row (a : Fin 8) (p : Fin 512) :
    (accRow m c a 7 (by omega)).s1 (ix2 p (0 : Fin 1)) = Cert.Spec.rowNeg (eK m c) (labK m c) (tileEquiv (a, p)) := by
  refine Cert.Spec.rowNeg_of_rec (eK m c) (labK m c) (tileEquiv (a, p)) (fun j hj => (accRow m c a j hj).s1 (ix2 p (0 : Fin 1))) ?_ ?_
  · show (accRow m c a 0 _).s1 _ = _
    rw [accRow_zero]
    refine (upd4_s1 (a := a) (j := 0) (e := eK m c) (lab := labK m c) (hx0 m c a 0) (hx1 m c a 0) (hl0 m c a 0) (hl1 m c a 0) init4 p).trans ?_
    rw [init4_s1]
  · intro j hj
    show (accRow m c a (j + 1) hj).s1 _ = _
    rw [accRow_succ]
    exact upd4_s1 (a := a) (j := ⟨j + 1, hj⟩) (e := eK m c) (lab := labK m c) (hx0 m c a ⟨j + 1, hj⟩) (hx1 m c a ⟨j + 1, hj⟩) (hl0 m c a ⟨j + 1, hj⟩) (hl1 m c a ⟨j + 1, hj⟩) (accRow m c a j (by omega)) p

/-- The first indicator ends at "the row has a positive". -/
theorem s2_row (a : Fin 8) (p : Fin 512) :
    (accRow m c a 7 (by omega)).s2 (ix2 p (0 : Fin 1)) = if ∃ q, Cert.Spec.pos (labK m c) (tileEquiv (a, p)) q then 1 else 0 := by
  refine Cert.Spec.anyPos_of_rec (labK m c) (tileEquiv (a, p)) (fun j hj => (accRow m c a j hj).s2 (ix2 p (0 : Fin 1))) ?_ ?_
  · show (accRow m c a 0 _).s2 _ = _
    rw [accRow_zero]
    refine (upd4_s2 (a := a) (j := 0) (lab := labK m c) (hi0 a 0) (hi1 a 0) (hl0 m c a 0) (hl1 m c a 0) init4 p).trans ?_
    rw [init4_s2]
  · intro j hj
    show (accRow m c a (j + 1) hj).s2 _ = _
    rw [accRow_succ]
    exact upd4_s2 (a := a) (j := ⟨j + 1, hj⟩) (lab := labK m c) (hi0 a ⟨j + 1, hj⟩) (hi1 a ⟨j + 1, hj⟩) (hl0 m c a ⟨j + 1, hj⟩) (hl1 m c a ⟨j + 1, hj⟩) (accRow m c a j (by omega)) p

/-- The second indicator ends at "the row has a negative". -/
theorem s3_row (a : Fin 8) (p : Fin 512) :
    (accRow m c a 7 (by omega)).s3 (ix2 p (0 : Fin 1)) = if ∃ q, Cert.Spec.neg (labK m c) (tileEquiv (a, p)) q then 1 else 0 := by
  refine Cert.Spec.anyNeg_of_rec (labK m c) (tileEquiv (a, p)) (fun j hj => (accRow m c a j hj).s3 (ix2 p (0 : Fin 1))) ?_ ?_
  · show (accRow m c a 0 _).s3 _ = _
    rw [accRow_zero]
    refine (upd4_s3 (a := a) (j := 0) (lab := labK m c) (hl0 m c a 0) (hl1 m c a 0) init4 p).trans ?_
    rw [init4_s3]
  · intro j hj
    show (accRow m c a (j + 1) hj).s3 _ = _
    rw [accRow_succ]
    exact upd4_s3 (a := a) (j := ⟨j + 1, hj⟩) (lab := labK m c) (hl0 m c a ⟨j + 1, hj⟩) (hl1 m c a ⟨j + 1, hj⟩) (accRow m c a j (by omega)) p

/-! ## The three output arrays, row by row -/

theorem hp_row (r : Rows) :
    KTail.col (Vexit m c (Proc.devRef .tc main_v6_0)) (ix1 r) = Cert.Spec.rowPos (eK m c) (labK m c) r := by
  obtain ⟨⟨a, p⟩, rfl⟩ := tileEquiv.surjective r
  rw [KTail.col_apply, Vexit_out4, ← row_eq]
  exact (final4 m c a p).trans ((congrFun (out_row4 m c a) _).trans (s0_row m c a p))

theorem hn_row (r : Rows) :
    KTail.col (Vexit m c (Proc.devRef .tc main_v6_1)) (ix1 r) = Cert.Spec.rowNeg (eK m c) (labK m c) r := by
  obtain ⟨⟨a, p⟩, rfl⟩ := tileEquiv.surjective r
  rw [KTail.col_apply, Vexit_out5, ← row_eq]
  exact (final5 m c a p).trans ((congrFun (out_row5 m c a) _).trans (s1_row m c a p))

theorem vd_row (r : Rows) :
    KTail.gtHalf (KTail.col (Vexit m c (Proc.devRef .tc main_v6_2))) (ix1 r) = if Cert.Spec.valid (labK m c) r then 1#1 else 0#1 := by
  obtain ⟨⟨a, p⟩, rfl⟩ := tileEquiv.surjective r
  refine KTail.gtHalf_valid (labK m c) (tileEquiv (a, p)) _ _ _ ?_ (s2_row m c a p) (s3_row m c a p)
  rw [KTail.col_apply, Vexit_out6, ← row_eq]
  exact (final6 m c a p).trans ((congrFun (out_row6 m c a) _).trans (out6_apply _ p))

/-! ## The result -/

/-- The region finds the reference's normalised embeddings and the launch's labels. -/
theorem eK_eq : eK m c = Cert.Spec.eOf (Cert.ReferenceIdeal.Read.val_main_v4 (F := Ideal) (m ((c.tc : Thread nD τ).loc main_arg0))) :=
  KHead.kernel_head_eOf (V₀ m c)
theorem labK_eq : labK m c = Cert.Spec.labOf (m ((c.tc : Thread nD τ).loc main_arg1)) :=
  congrArg Cert.Spec.labOf (V_arg m c main_arg1 (Or.inr rfl))

/-- The idealized kernel program's result is the reference's last stage of the same embeddings and labels. -/
theorem kernel_value :
    Vend m c (Proc.devRef .tc main_v22)
      = Cert.ReferenceIdeal.Read.val_main_v39 (F := Ideal) (m ((c.tc : Thread nD τ).loc main_arg0)) (m ((c.tc : Thread nD τ).loc main_arg1)) := by
  refine (KTail.kernel_tail (Vexit m c)).trans (Cert.ReferenceIdeal.RefValue.reference_eq_of _ _ _ _ _ ?_ ?_ ?_).symm
  · intro r; rw [hp_row, eK_eq, labK_eq]
  · intro r; rw [hn_row, eK_eq, labK_eq]
  · intro r; rw [vd_row, labK_eq]

end Cert.KernelIdeal.Fr

end
-- ==== Proof.lean ====
/-
  A batch-hard triplet loss: the rows of an embedding matrix are normalised; for every anchor row the largest cosine
  distance to a row with the same label (the hardest positive) and the smallest to a row with another label (the hardest
  negative) are found; the hinge of their difference plus a margin is averaged over the anchors that have both.

  The kernel tiles the 4096 x 4096 distance matrix 512 x 512, keeps per anchor row a running maximum, a running minimum
  and two "seen" indicators across the eight key tiles, and leaves the hinge and the average to the host, as the reference
  does. At the ideal instance the two programs compute the same extended reals: a change of float format is the identity;
  the tile product is the same sum as the whole product; a maximum over eight tile maxima started from -1 is the maximum
  over the whole row, because every row's diagonal entry is masked to exactly -1 (and likewise 3 for the minimum); the
  product of two 0/1 indicators exceeds one half exactly when both are 1. No bound on the distances and no finiteness of
  the inputs is used.

  The frames of the two kernel programs are proved by hand (the pipeline's proof data, the body obligation at every grid
  point, the launch of @main as a list of segments, each embedding window and each label window holding half of its
  array's share); the reference's frame and value are its generated run.
-/
import proofs.«107534_j40690520162810_1_alg».proof.Defs
import proofs.«107534_j40690520162810_1_alg».proof.Proof.Gen.Kernel
import proofs.«107534_j40690520162810_1_alg».proof.Proof.Gen.KernelIdeal
import proofs.«107534_j40690520162810_1_alg».proof.Proof.Gen.ReferenceIdeal
import proofs.«107534_j40690520162810_1_alg».proof.Proof.Gen.Pre_finite_inputs
import proofs.«107534_j40690520162810_1_alg».proof.Proof.Gen.ReferenceIdeal.Run
import proofs.«107534_j40690520162810_1_alg».proof.Proof.Gen.ReferenceIdeal.Read
import proofs.«107534_j40690520162810_1_alg».proof.Proof.KB.Launch
import proofs.«107534_j40690520162810_1_alg».proof.Proof.KI.Launch
import proofs.«107534_j40690520162810_1_alg».proof.Proof.KI.Value
import Idealize.ShloMosaic.Adequacy
import Idealize.ShloMosaic.Init

noncomputable section

namespace Cert.Proof

open Idealize.ShloMosaic Idealize.ShloMosaic.TcCoe Idealize.SL.Sem

/-- The word-level kernel program runs to the end and leaves its two arguments as they were. -/
theorem frame_k : Cert.frame_Kernel (hKernel := Cert.Kernel.Gen.facts) (hPre_finite_inputs := Cert.Pre_finite_inputs.Gen.facts) := fun m ρ _ =>
  (θ_run Cert.Kernel.defs _ _).mono (fun _ h c => (h c).2) (Cert.Kernel.Fr.run_main (F := Bits) m ρ)

/-- So does the idealized kernel program. -/
theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun _ h c => (h c).2) (Cert.KernelIdeal.Fr.run_main (F := Ideal) m ρ)

/-- So does the reference: its run with the result dropped. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- The ideal pass rewrote nothing: the idealized program is the kernel's own text read at the ideal instance. -/
theorem preserves : Cert.preserves_Kernel_KernelIdeal := trivial

/-- From memories that agree on the embeddings and the labels both idealized programs end with the same loss: the
    kernel's is the shared epilogue of its three per-row columns, which are the reference's three per-row reduces. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Fr.Vend m c (Proc.devRef .tc Cert.KernelIdeal.main_v22), Cert.KernelIdeal.Fr.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, (hagree c).1, (hagree c).2]
  exact (Cert.KernelIdeal.Fr.kernel_value m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
